-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x34x256x256 : Shape := ⟨4, ![16, 34, 256, 256]⟩
abbrev S16x17x256x256 : Shape := ⟨4, ![16, 17, 256, 256]⟩
abbrev S16x256x256 : Shape := ⟨3, ![16, 256, 256]⟩
abbrev S16x30x17x2 : Shape := ⟨4, ![16, 30, 17, 2]⟩
abbrev S_ : Shape := ⟨0, ![]⟩
abbrev S16x30x17x1 : Shape := ⟨4, ![16, 30, 17, 1]⟩
abbrev S16x30x17 : Shape := ⟨3, ![16, 30, 17]⟩

class Facts : Prop where
  bcast_S_S16x34x256x256 : S_.BroadcastsInDim S16x34x256x256 (![] : Fin 0 → Fin S16x34x256x256.rank)
  reducesTo_S16x34x256x256_S_d0_1_2_3 : S16x34x256x256.ReducesTo [0, 1, 2, 3] S_
  h_S_ : 0 < S_.numel
  bcast_S_S16x17x256x256 : S_.BroadcastsInDim S16x17x256x256 (![] : Fin 0 → Fin S16x17x256x256.rank)
  reducesTo_S16x17x256x256_S_d0_1_2_3 : S16x17x256x256.ReducesTo [0, 1, 2, 3] S_
  bcast_S_S16x256x256 : S_.BroadcastsInDim S16x256x256 (![] : Fin 0 → Fin S16x256x256.rank)
  reducesTo_S16x256x256_S_d0_1_2 : S16x256x256.ReducesTo [0, 1, 2] S_
  slices_S16x30x17x2_S16x30x17x1_0_0_0_0 : S16x30x17x2.Slices ![0, 0, 0, 0] S16x30x17x1
  shapeCasts_S16x30x17x1_S16x30x17 : S16x30x17x1.ShapeCasts S16x30x17
  bcast_S_S16x30x17 : S_.BroadcastsInDim S16x30x17 (![] : Fin 0 → Fin S16x30x17.rank)
  reducesTo_S16x30x17_S_d0_1_2 : S16x30x17.ReducesTo [0, 1, 2] S_

variable [Facts]

def fn_part1 {F : FTy → Type} [FloatOps F] (main_arg3 : IVec S16x30x17x2 32) (main_v13 : IVec S_ 1) (main_v15 : IVec S16x30x17 32) (main_v16 : IVec S16x30x17 32) : IVec S_ 1 :=
  let main_v17 : IVec S16x30x17 1 := cmpi .sge main_v15 main_v16
  let main_v18 : IVec S16x30x17x1 32 := (extractStridedSlice S16x30x17x1 ![0, 0, 0, 0] · slices_S16x30x17x2_S16x30x17x1_0_0_0_0) main_arg3
  let main_v19 : IVec S16x30x17 32 := shapeCast S16x30x17 main_v18 shapeCasts_S16x30x17x1_S16x30x17
  let main_c_5 : IVec S_ 32 := constantI S_ 32 65536#32
  let main_v20 : IVec S16x30x17 32 := broadcastInDim S16x30x17 ![] bcast_S_S16x30x17 main_c_5
  let main_v21 : IVec S16x30x17 1 := cmpi .slt main_v19 main_v20
  let main_v22 : IVec S16x30x17 1 := andi main_v17 main_v21
  let main_c_6 : IVec S_ 1 := constantI S_ 1 1#1
  let main_v23 : IVec S_ 1 := (fun x v => Host.reduce IntOp.andi x v reducesTo_S16x30x17_S_d0_1_2 h_S_) main_v22 main_c_6
  let main_v24 : IVec S_ 1 := andi main_v13 main_v23
  main_v24

def fn {F : FTy → Type} [FloatOps F] (main_arg0 : FVec F S16x34x256x256 .f32) (main_arg1 : FVec F S16x17x256x256 .f32) (main_arg2 : FVec F S16x256x256 .f32) (main_arg3 : IVec S16x30x17x2 32) : IVec S_ 1 :=
  let main_v0 : FVec F S16x34x256x256 .f32 := Host.absf main_arg0
  let main_cst : FVec F S_ .f32 := constant S_ .f32 0x7F800000#32
  let main_v1 : FVec F S16x34x256x256 .f32 := broadcastInDim S16x34x256x256 ![] bcast_S_S16x34x256x256 main_cst
  let main_v2 : IVec S16x34x256x256 1 := cmpf .olt main_v0 main_v1
  let main_c : IVec S_ 1 := constantI S_ 1 1#1
  let main_v3 : IVec S_ 1 := (fun x v => Host.reduce IntOp.andi x v reducesTo_S16x34x256x256_S_d0_1_2_3 h_S_) main_v2 main_c
  let main_v4 : FVec F S16x17x256x256 .f32 := Host.absf main_arg1
  let main_cst_0 : FVec F S_ .f32 := constant S_ .f32 0x7F800000#32
  let main_v5 : FVec F S16x17x256x256 .f32 := broadcastInDim S16x17x256x256 ![] bcast_S_S16x17x256x256 main_cst_0
  let main_v6 : IVec S16x17x256x256 1 := cmpf .olt main_v4 main_v5
  let main_c_1 : IVec S_ 1 := constantI S_ 1 1#1
  let main_v7 : IVec S_ 1 := (fun x v => Host.reduce IntOp.andi x v reducesTo_S16x17x256x256_S_d0_1_2_3 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : IVec S16x30x17x1 32 := (extractStridedSlice S16x30x17x1 ![0, 0, 0, 0] · slices_S16x30x17x2_S16x30x17x1_0_0_0_0) main_arg3
  let main_v15 : IVec S16x30x17 32 := shapeCast S16x30x17 main_v14 shapeCasts_S16x30x17x1_S16x30x17
  let main_c_4 : IVec S_ 32 := constantI S_ 32 0#32
  let main_v16 : IVec S16x30x17 32 := broadcastInDim S16x30x17 ![] bcast_S_S16x30x17 main_c_4
  fn_part1 (F := F) main_arg3 main_v13 main_v15 main_v16
-- ==== Kernel.lean ====
abbrev S16x34x256x256 : Shape := ⟨4, ![16, 34, 256, 256]⟩
abbrev S16x17x256x256 : Shape := ⟨4, ![16, 17, 256, 256]⟩
abbrev S16x256x256 : Shape := ⟨3, ![16, 256, 256]⟩
abbrev S16x30x17x2 : Shape := ⟨4, ![16, 30, 17, 2]⟩
abbrev S16x30x17x1 : Shape := ⟨4, ![16, 30, 17, 1]⟩
abbrev S16x30x17 : Shape := ⟨3, ![16, 30, 17]⟩
abbrev S16x510 : Shape := ⟨2, ![16, 510]⟩
abbrev S_ : Shape := ⟨0, ![]⟩
abbrev S16x512 : Shape := ⟨2, ![16, 512]⟩
abbrev S16x1x512 : Shape := ⟨3, ![16, 1, 512]⟩
abbrev S16x1x128 : Shape := ⟨3, ![16, 1, 128]⟩
abbrev S2x17x256x256 : Shape := ⟨4, ![2, 17, 256, 256]⟩
abbrev S2x1x256x256 : Shape := ⟨4, ![2, 1, 256, 256]⟩
abbrev S2x256x256 : Shape := ⟨3, ![2, 256, 256]⟩
abbrev S2x1x512 : Shape := ⟨3, ![2, 1, 512]⟩
abbrev S2x1x128 : Shape := ⟨3, ![2, 1, 128]⟩
abbrev S2 : Shape := ⟨1, ![2]⟩
abbrev S2x1x1 : Shape := ⟨3, ![2, 1, 1]⟩
abbrev S2x512 : Shape := ⟨2, ![2, 512]⟩
abbrev S512x256 : Shape := ⟨2, ![512, 256]⟩
abbrev S1x512 : Shape := ⟨2, ![1, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S16x1x1 : Shape := ⟨3, ![16, 1, 1]⟩
abbrev S16 : Shape := ⟨1, ![16]⟩
abbrev S16x1x510 : Shape := ⟨3, ![16, 1, 510]⟩
abbrev S16x30 : Shape := ⟨2, ![16, 30]⟩
abbrev S16x30x1 : Shape := ⟨3, ![16, 30, 1]⟩
abbrev S16x1 : Shape := ⟨2, ![16, 1]⟩
abbrev S16x1x30 : Shape := ⟨3, ![16, 1, 30]⟩
abbrev S16x30x30 : Shape := ⟨3, ![16, 30, 30]⟩

abbrev nBuf : Space → Nat
  | .hbm => 119
  | .vmem => 14
  | .smem => 0
  | _ => 0

abbrev bufTy : (tb : Table) → Fin (tcTables nBuf tb) → BufTy
  | .hbm, ⟨0, _⟩ => ⟨S16x34x256x256, .f32⟩
  | .hbm, ⟨1, _⟩ => ⟨S16x17x256x256, .f32⟩
  | .hbm, ⟨2, _⟩ => ⟨S16x256x256, .f32⟩
  | .hbm, ⟨3, _⟩ => ⟨S16x30x17x2, .i32⟩
  | .hbm, ⟨4, _⟩ => ⟨S16x30x17x1, .i32⟩
  | .hbm, ⟨5, _⟩ => ⟨S16x30x17, .i32⟩
  | .hbm, ⟨6, _⟩ => ⟨S16x510, .i32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S16x1x512, .i32⟩
  | .hbm, ⟨11, _⟩ => ⟨S16x1x128, .f32⟩
  | .hbm, ⟨12, _⟩ => ⟨S16x1x512, .f32⟩
  | .hbm, ⟨13, _⟩ => ⟨S16x1x1, .f32⟩
  | .hbm, ⟨14, _⟩ => ⟨S16, .f32⟩
  | .hbm, ⟨15, _⟩ => ⟨S16x1x510, .f32⟩
  | .hbm, ⟨16, _⟩ => ⟨S16x510, .f32⟩
  | .hbm, ⟨17, _⟩ => ⟨S16x30x17x1, .i32⟩
  | .hbm, ⟨18, _⟩ => ⟨S16x30x17, .i32⟩
  | .hbm, ⟨19, _⟩ => ⟨S16x30x17, .f32⟩
  | .hbm, ⟨20, _⟩ => ⟨S_, .f32⟩
  | .hbm, ⟨21, _⟩ => ⟨S16x30, .f32⟩
  | .hbm, ⟨22, _⟩ => ⟨S16x30x1, .f32⟩
  | .hbm, ⟨23, _⟩ => ⟨S16x30x17, .f32⟩
  | .hbm, ⟨24, _⟩ => ⟨S16x30x17, .f32⟩
  | .hbm, ⟨25, _⟩ => ⟨S_, .f32⟩
  | .hbm, ⟨26, _⟩ => ⟨S16x30x1, .f32⟩
  | .hbm, ⟨27, _⟩ => ⟨S16x30x1, .i1⟩
  | .hbm, ⟨28, _⟩ => ⟨S16x30x1, .f32⟩
  | .hbm, ⟨29, _⟩ => ⟨S16x30, .f32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S_, .f32⟩
  | .hbm, ⟨34, _⟩ => ⟨S16x1, .f32⟩
  | .hbm, ⟨35, _⟩ => ⟨S16x1, .i1⟩
  | .hbm, ⟨36, _⟩ => ⟨S_, .f32⟩
  | .hbm, ⟨37, _⟩ => ⟨S_, .f32⟩
  | .hbm, ⟨38, _⟩ => ⟨S16x1, .f32⟩
  | .hbm, ⟨39, _⟩ => ⟨S16x1, .f32⟩
  | .hbm, ⟨40, _⟩ => ⟨S16x1x30, .f32⟩
  | .hbm, ⟨41, _⟩ => ⟨S16x30x30, .f32⟩
  | .hbm, ⟨42, _⟩ => ⟨S16x30x30, .f32⟩
  | .hbm, ⟨43, _⟩ => ⟨S16x30x30, .f32⟩
  | .hbm, ⟨44, _⟩ => ⟨S_, .f32⟩
  | .hbm, ⟨45, _⟩ => ⟨S16x30x1, .f32⟩
  | .hbm, ⟨46, _⟩ => ⟨S16x30x1, .i1⟩
  | .hbm, ⟨47, _⟩ => ⟨S_, .f32⟩
  | .hbm, ⟨48, _⟩ => ⟨S_, .f32⟩
  | .hbm, ⟨49, _⟩ => ⟨S16x30x1, .f32⟩
  | .hbm, ⟨50, _⟩ => ⟨S16x30x1, .f32⟩
  | .hbm, ⟨51, _⟩ => ⟨S_, .f32⟩
  | .hbm, ⟨52, _⟩ => ⟨S16x30, .f32⟩
  | .hbm, ⟨53, _⟩ => ⟨S16x30x1, .f32⟩
  | .hbm, ⟨54, _⟩ => ⟨S16x30x1, .f32⟩
  | .hbm, ⟨55, _⟩ => ⟨S16x30x17, .f32⟩
  | .hbm, ⟨56, _⟩ => ⟨S16x30x17, .f32⟩
  | .hbm, ⟨57, _⟩ => ⟨S16x30x17, .f32⟩
  | .hbm, ⟨58, _⟩ => ⟨S16x30x17, .f32⟩
  | .hbm, ⟨59, _⟩ => ⟨S_, .f32⟩
  | .hbm, ⟨60, _⟩ => ⟨S16x30, .f32⟩
  | .hbm, ⟨61, _⟩ => ⟨S16x30x1, .f32⟩
  | .hbm, ⟨62, _⟩ => ⟨S16x30x1, .f32⟩
  | .hbm, ⟨63, _⟩ => ⟨S_, .f32⟩
  | .hbm, ⟨64, _⟩ => ⟨S16x30x1, .f32⟩
  | .hbm, ⟨65, _⟩ => ⟨S16x30x1, .i1⟩
  | .hbm, ⟨66, _⟩ => ⟨S_, .f32⟩
  | .hbm, ⟨67, _⟩ => ⟨S_, .f32⟩
  | .hbm, ⟨68, _⟩ => ⟨S16x30x1, .f32⟩
  | .hbm, ⟨69, _⟩ => ⟨S16x30x1, .f32⟩
  | .hbm, ⟨70, _⟩ => ⟨S16x30, .f32⟩
  | .hbm, ⟨71, _⟩ => ⟨S_, .f32⟩
  | .hbm, ⟨72, _⟩ => ⟨S16, .f32⟩
  | .hbm, ⟨73, _⟩ => ⟨S16x1, .f32⟩
  | .hbm, ⟨74, _⟩ => ⟨S16x1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S16x30, .f32⟩
  | .hbm, ⟨80, _⟩ => ⟨S16x30x1, .f32⟩
  | .hbm, ⟨81, _⟩ => ⟨S16x1x30, .f32⟩
  | .hbm, ⟨82, _⟩ => ⟨S16x30x30, .f32⟩
  | .hbm, ⟨83, _⟩ => ⟨S16x30x30, .f32⟩
  | .hbm, ⟨84, _⟩ => ⟨S16x30x30, .f32⟩
  | .hbm, ⟨85, _⟩ => ⟨S16x30x30, .f32⟩
  | .hbm, ⟨86, _⟩ => ⟨S16x30x30, .f32⟩
  | .hbm, ⟨87, _⟩ => ⟨S16x30x30, .f32⟩
  | .hbm, ⟨88, _⟩ => ⟨S16x30x30, .f32⟩
  | .hbm, ⟨89, _⟩ => ⟨S16x30x30, .f32⟩
  | .hbm, ⟨90, _⟩ => ⟨S16, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S16, .f32⟩
  | .hbm, ⟨95, _⟩ => ⟨S_, .f32⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S16, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S16, .f32⟩
  | .hbm, ⟨107, _⟩ => ⟨S16, .i1⟩
  | .hbm, ⟨108, _⟩ => ⟨S_, .f32⟩
  | .hbm, ⟨109, _⟩ => ⟨S_, .f32⟩
  | .hbm, ⟨110, _⟩ => ⟨S16, .f32⟩
  | .hbm, ⟨111, _⟩ => ⟨S16, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .local _ .vmem, ⟨0, _⟩ => ⟨S2x17x256x256, .f32⟩
  | .local _ .vmem, ⟨1, _⟩ => ⟨S2x17x256x256, .f32⟩
  | .local _ .vmem, ⟨2, _⟩ => ⟨S2x1x256x256, .f32⟩
  | .local _ .vmem, ⟨3, _⟩ => ⟨S2x1x256x256, .f32⟩
  | .local _ .vmem, ⟨4, _⟩ => ⟨S2x17x256x256, .f32⟩
  | .local _ .vmem, ⟨5, _⟩ => ⟨S2x17x256x256, .f32⟩
  | .local _ .vmem, ⟨6, _⟩ => ⟨S2x256x256, .f32⟩
  | .local _ .vmem, ⟨7, _⟩ => ⟨S2x256x256, .f32⟩
  | .local _ .vmem, ⟨8, _⟩ => ⟨S2x1x512, .i32⟩
  | .local _ .vmem, ⟨9, _⟩ => ⟨S2x1x512, .i32⟩
  | .local _ .vmem, ⟨10, _⟩ => ⟨S2x1x128, .f32⟩
  | .local _ .vmem, ⟨11, _⟩ => ⟨S2x1x128, .f32⟩
  | .local _ .vmem, ⟨12, _⟩ => ⟨S2x1x512, .f32⟩
  | .local _ .vmem, ⟨13, _⟩ => ⟨S2x1x512, .f32⟩
  | _, _ => ⟨S16x34x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_call4_v0 : Ref sig .tc := ⟨.hbm, 109, rfl⟩
abbrev main_call4_v1 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_cst_20 : Ref sig .tc := ⟨.hbm, 114, rfl⟩
abbrev main_v78 : Ref sig .tc := ⟨.hbm, 115, rfl⟩
abbrev main_v79 : Ref sig .tc := ⟨.hbm, 116, rfl⟩
abbrev main_cst_21 : Ref sig .tc := ⟨.hbm, 117, rfl⟩
abbrev main_v80 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c17_i32 : BitVec 32 := 17#32
  let c0_i32 : BitVec 32 := 0#32
  let c0_i32_0 : BitVec 32 := 0#32
  let c0_i32_1 : BitVec 32 := 0#32
  ![arg0.toNat, c17_i32.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x17x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16x30x17x2_S16x30x17x1_0_0_0_0 : S16x30x17x2.Slices ![0, 0, 0, 0] S16x30x17x1
  shapeCasts_S16x30x17x1_S16x30x17 : S16x30x17x1.ShapeCasts S16x30x17
  shapeCasts_S16x30x17_S16x510 : S16x30x17.ShapeCasts S16x510
  pads_S16x510_S16x512_000_020 : S16x510.Pads (![0, 0] : Fin 2 → Nat) ![0, 2] ![0, 0] S16x512
  h_S_ : 0 < S_.numel
  shapeCasts_S16x512_S16x1x512 : S16x512.ShapeCasts S16x1x512
  inb_S2x17x256x256_S2x17x256x256_0_0_0_0 : ∀ a, (![0, 0, 0, 0] : Fin 4 → Nat) a + S2x17x256x256.size a ≤ S2x17x256x256.size a
  h_S2x17x256x256 : 0 < S2x17x256x256.numel
  inb_S2x256x256_S2x256x256_0_0_0 : ∀ a, (![0, 0, 0] : Fin 3 → Nat) a + S2x256x256.size a ≤ S2x256x256.size a
  h_S2x256x256 : 0 < S2x256x256.numel
  reduces_S2x17x256x256_S2x256x256 : S2x17x256x256.Reduces [1] S2x256x256
  reduces_S2x256x256_S2 : S2x256x256.Reduces [1, 2] S2
  shapeCasts_S2_S2x1x1 : S2.ShapeCasts S2x1x1
  shapeCasts_S2x1x1_S2x1x1 : S2x1x1.ShapeCasts S2x1x1
  broadcasts_S2x1x1_S2x1x128 : S2x1x1.Broadcasts S2x1x128
  inb_S2x1x128_S2x1x128_0_0_0 : ∀ a, (![0, 0, 0] : Fin 3 → Nat) a + S2x1x128.size a ≤ S2x1x128.size a
  h_S2x1x128 : 0 < S2x1x128.numel
  inb_S2x1x256x256_S2x1x256x256_0_0_0_0 : ∀ a, (![0, 0, 0, 0] : Fin 4 → Nat) a + S2x1x256x256.size a ≤ S2x1x256x256.size a
  h_S2x1x256x256 : 0 < S2x1x256x256.numel
  shapeCasts_S2x1x256x256_S2x256x256 : S2x1x256x256.ShapeCasts S2x256x256
  inb_S2x1x512_S2x1x512_0_0_0 : ∀ a, (![0, 0, 0] : Fin 3 → Nat) a + S2x1x512.size a ≤ S2x1x512.size a
  h_S2x1x512 : 0 < S2x1x512.numel
  shapeCasts_S2x1x512_S2x512 : S2x1x512.ShapeCasts S2x512
  iota_S512x256_d1_w32 : S512x256.Iotas .tc 32 [1]
  slices_S2x512_o0_0_S1x512 : S2x512.Slices ![0, 0] S1x512
  shapeCasts_S1x512_S512 : S1x512.ShapeCasts S512
  shapeCasts_S512_S512x1 : S512.ShapeCasts S512x1
  broadcasts_S512x1_S512x256 : S512x1.Broadcasts S512x256
  natLt_1_32 : 1 < 32
  slices_S2x256x256_o0_0_0_S1x256x256 : S2x256x256.Slices ![0, 0, 0] S1x256x256
  shapeCasts_S1x256x256_S256x256 : S1x256x256.ShapeCasts S256x256
  reduces_S512x256_S512 : S512x256.Reduces [1] S512
  slices_S2x512_o1_0_S1x512 : S2x512.Slices ![1, 0] S1x512
  slices_S2x256x256_o1_0_0_S1x256x256 : S2x256x256.Slices ![1, 0, 0] S1x256x256
  shapeCasts_S512_S1x512 : S512.ShapeCasts S1x512
  concatenates_S1x512_S1x512_S2x512_d0 : Shape.Concatenates [S1x512, S1x512] S2x512 0
  shapeCasts_S2x512_S2x1x512 : S2x512.ShapeCasts S2x1x512
  slices_S16x1x128_S16x1x1_0_0_0 : S16x1x128.Slices ![0, 0, 0] S16x1x1
  shapeCasts_S16x1x1_S16 : S16x1x1.ShapeCasts S16
  slices_S16x1x512_S16x1x510_0_0_0 : S16x1x512.Slices ![0, 0, 0] S16x1x510
  shapeCasts_S16x1x510_S16x510 : S16x1x510.ShapeCasts S16x510
  slices_S16x30x17x2_S16x30x17x1_0_0_0_1 : S16x30x17x2.Slices ![0, 0, 0, 1] S16x30x17x1
  reducesTo_S16x30x17_S16x30_d2 : S16x30x17.ReducesTo [2] S16x30
  bcast_S16x30_S16x30x1_0_1 : S16x30.BroadcastsInDim S16x30x1 (![0, 1] : Fin 2 → Fin S16x30x1.rank)
  shapeCasts_S16x510_S16x30x17 : S16x510.ShapeCasts S16x30x17
  bcast_S_S16x30x1 : S_.BroadcastsInDim S16x30x1 (![] : Fin 0 → Fin S16x30x1.rank)
  shapeCasts_S16x30x1_S16x30 : S16x30x1.ShapeCasts S16x30
  reducesTo_S16x30_S16_d1 : S16x30.ReducesTo [1] S16
  bcast_S16_S16x1_0 : S16.BroadcastsInDim S16x1 (![0] : Fin 1 → Fin S16x1.rank)
  bcast_S_S16x1 : S_.BroadcastsInDim S16x1 (![] : Fin 0 → Fin S16x1.rank)
  transposes_S16x30x1_S16x1x30_0_2_1 : S16x30x1.Transposes [0, 2, 1] S16x1x30
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S16x30x1_S16x30x17_0_1_2 : S16x30x1.BroadcastsInDim S16x30x17 (![0, 1, 2] : Fin 3 → Fin S16x30x17.rank)
  reducesTo_S16x1_S_d0_1 : S16x1.ReducesTo [0, 1] S_
  bcast_S16x30_S16x1x30_0_2 : S16x30.BroadcastsInDim S16x1x30 (![0, 2] : Fin 2 → Fin S16x1x30.rank)
  shapeCasts_S16x1_S16 : S16x1.ShapeCasts S16
  bcast_S_S16 : S_.BroadcastsInDim S16 (![] : Fin 0 → Fin S16.rank)
  reducesTo_S16x30x30_S16_d1_2 : S16x30x30.ReducesTo [1, 2] S16
  reducesTo_S16_S_d0 : S16.ReducesTo [0] S_
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x17x256x256.size a ≤ S16x34x256x256.size a
  hwx0_0 : ∀ i : grid0.Coords, EltTy.bits .f32 = 32 ∨ (Rect.block (s := S16x34x256x256) S2x17x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256x256.size a ≤ S16x34x256x256.size a
  hwx0_1 : ∀ i : grid0.Coords, EltTy.bits .f32 = 32 ∨ (Rect.block (s := S16x34x256x256) S2x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x17x256x256.size a ≤ S16x17x256x256.size a
  hwx0_2 : ∀ i : grid0.Coords, EltTy.bits .f32 = 32 ∨ (Rect.block (s := S16x17x256x256) S2x17x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S16x256x256.size a
  hwx0_3 : ∀ i : grid0.Coords, EltTy.bits .f32 = 32 ∨ (Rect.block (s := S16x256x256) S2x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512.size a ≤ S16x1x512.size a
  hwx0_4 : ∀ i : grid0.Coords, EltTy.bits .i32 = 32 ∨ (Rect.block (s := S16x1x512) S2x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x128.size a ≤ S16x1x128.size a
  hwx0_5 : ∀ i : grid0.Coords, EltTy.bits .f32 = 32 ∨ (Rect.block (s := S16x1x128) S2x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x512.size a ≤ S16x1x512.size a
  hwx0_6 : ∀ i : grid0.Coords, EltTy.bits .f32 = 32 ∨ (Rect.block (s := S16x1x512) S2x1x512.size (cc0_transform_6 i) (hinb0_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S2x17x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x17x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x34x256x256 : Shape := ⟨4, ![16, 34, 256, 256]⟩
abbrev S16x17x256x256 : Shape := ⟨4, ![16, 17, 256, 256]⟩
abbrev S16x256x256 : Shape := ⟨3, ![16, 256, 256]⟩
abbrev S16x30x17x2 : Shape := ⟨4, ![16, 30, 17, 2]⟩
abbrev S16x1x256x256 : Shape := ⟨4, ![16, 1, 256, 256]⟩
abbrev S_ : Shape := ⟨0, ![]⟩
abbrev S16 : Shape := ⟨1, ![16]⟩
abbrev S16x1114112 : Shape := ⟨2, ![16, 1114112]⟩
abbrev S16x30x17x1 : Shape := ⟨4, ![16, 30, 17, 1]⟩
abbrev S16x30x17 : Shape := ⟨3, ![16, 30, 17]⟩
abbrev S16x30 : Shape := ⟨2, ![16, 30]⟩
abbrev S16x30x1 : Shape := ⟨3, ![16, 30, 1]⟩
abbrev S16x510 : Shape := ⟨2, ![16, 510]⟩
abbrev S16x510x1 : Shape := ⟨3, ![16, 510, 1]⟩
abbrev S1 : Shape := ⟨1, ![1]⟩
abbrev S1x1x1 : Shape := ⟨3, ![1, 1, 1]⟩
abbrev S16x1 : Shape := ⟨2, ![16, 1]⟩
abbrev S16x1x30 : Shape := ⟨3, ![16, 1, 30]⟩
abbrev S16x30x30 : Shape := ⟨3, ![16, 30, 30]⟩

abbrev nBuf : Space → Nat
  | .hbm => 144
  | .vmem => 0
  | .smem => 0
  | _ => 0

abbrev hbmTy0_0 (i : Nat) : BufTy := match i % 128 with
  | 0 => ⟨S16x34x256x256, .f32⟩
  | 1 => ⟨S16x17x256x256, .f32⟩
  | 2 => ⟨S16x256x256, .f32⟩
  | 3 => ⟨S16x30x17x2, .i32⟩
  | 4 => ⟨S16x17x256x256, .f32⟩
  | 5 => ⟨S16x17x256x256, .f32⟩
  | 6 => ⟨S16x17x256x256, .f32⟩
  | 7 => ⟨S16x1x256x256, .f32⟩
  | 8 => ⟨S16x17x256x256, .f32⟩
  | 9 => ⟨S16x17x256x256, .f32⟩
  | 10 => ⟨S_, .f32⟩
  | 11 => ⟨S16, .f32⟩
  | 12 => ⟨S_, .f32⟩
  | 13 => ⟨S16, .f32⟩
  | 14 => ⟨S16, .f32⟩
  | 15 => ⟨S16x17x256x256, .f32⟩
  | 16 => ⟨S16x1114112, .f32⟩
  | 17 => ⟨S16x30x17x1, .i32⟩
  | 18 => ⟨S16x30x17, .i32⟩
  | 19 => ⟨S16x30x17, .f32⟩
  | 20 => ⟨S_, .f32⟩
  | 21 => ⟨S16x30, .f32⟩
  | 22 => ⟨S16x30x1, .f32⟩
  | 23 => ⟨S16x30x17x1, .i32⟩
  | 24 => ⟨S16x30x17, .i32⟩
  | 25 => ⟨S16x510, .i32⟩
  | 26 => ⟨S_, .i32⟩
  | 27 => ⟨S16x510, .i32⟩
  | 28 => ⟨S16x510, .i1⟩
  | 29 => ⟨S_, .i32⟩
  | 30 => ⟨S16x510, .i32⟩
  | 31 => ⟨S16x510, .i32⟩
  | 32 => ⟨S16x510, .i32⟩
  | 33 => ⟨S16x510x1, .i32⟩
  | 34 => ⟨S1, .i32⟩
  | 35 => ⟨S_, .i32⟩
  | 36 => ⟨S16x510x1, .i32⟩
  | 37 => ⟨S16x510x1, .i1⟩
  | 38 => ⟨S1x1x1, .i32⟩
  | 39 => ⟨S16x510x1, .i32⟩
  | 40 => ⟨S16x510x1, .i1⟩
  | 41 => ⟨S16x510x1, .i1⟩
  | 42 => ⟨S_, .i1⟩
  | 43 => ⟨S16x510, .i1⟩
  | 44 => ⟨S16x510, .f32⟩
  | 45 => ⟨S_, .f32⟩
  | 46 => ⟨S16x510, .f32⟩
  | 47 => ⟨S16x510, .f32⟩
  | 48 => ⟨S16x30x17, .f32⟩
  | 49 => ⟨S16x30x17, .f32⟩
  | 50 => ⟨S_, .f32⟩
  | 51 => ⟨S16x30x1, .f32⟩
  | 52 => ⟨S16x30x1, .i1⟩
  | 53 => ⟨S16x30x1, .f32⟩
  | 54 => ⟨S16x30, .f32⟩
  | 55 => ⟨S_, .f32⟩
  | 56 => ⟨S16, .f32⟩
  | 57 => ⟨S16x1, .f32⟩
  | 58 => ⟨S_, .f32⟩
  | 59 => ⟨S16x1, .f32⟩
  | 60 => ⟨S16x1, .i1⟩
  | 61 => ⟨S_, .f32⟩
  | 62 => ⟨S_, .f32⟩
  | 63 => ⟨S16x1, .f32⟩
  | 64 => ⟨S16x1, .f32⟩
  | 65 => ⟨S16x1x30, .f32⟩
  | 66 => ⟨S16x30x30, .f32⟩
  | 67 => ⟨S16x30x30, .f32⟩
  | 68 => ⟨S16x30x30, .f32⟩
  | 69 => ⟨S_, .f32⟩
  | 70 => ⟨S16x30x1, .f32⟩
  | 71 => ⟨S16x30x1, .i1⟩
  | 72 => ⟨S_, .f32⟩
  | 73 => ⟨S_, .f32⟩
  | 74 => ⟨S16x30x1, .f32⟩
  | 75 => ⟨S16x30x1, .f32⟩
  | 76 => ⟨S_, .f32⟩
  | 77 => ⟨S16x30, .f32⟩
  | 78 => ⟨S16x30x1, .f32⟩
  | 79 => ⟨S16x30x1, .f32⟩
  | 80 => ⟨S16x30x17, .f32⟩
  | 81 => ⟨S16x30x17, .f32⟩
  | 82 => ⟨S16x30x17, .f32⟩
  | 83 => ⟨S16x30x17, .f32⟩
  | 84 => ⟨S_, .f32⟩
  | 85 => ⟨S16x30, .f32⟩
  | 86 => ⟨S16x30x1, .f32⟩
  | 87 => ⟨S16x30x1, .f32⟩
  | 88 => ⟨S_, .f32⟩
  | 89 => ⟨S16x30x1, .f32⟩
  | 90 => ⟨S16x30x1, .i1⟩
  | 91 => ⟨S_, .f32⟩
  | 92 => ⟨S_, .f32⟩
  | 93 => ⟨S16x30x1, .f32⟩
  | 94 => ⟨S16x30x1, .f32⟩
  | 95 => ⟨S16x30, .f32⟩
  | 96 => ⟨S_, .f32⟩
  | 97 => ⟨S16, .f32⟩
  | 98 => ⟨S16x1, .f32⟩
  | 99 => ⟨S16x1, .f32⟩
  | 100 => ⟨S_, .f32⟩
  | 101 => ⟨S_, .f32⟩
  | 102 => ⟨S_, .f32⟩
  | 103 => ⟨S_, .f32⟩
  | 104 => ⟨S16x30, .f32⟩
  | 105 => ⟨S16x30x1, .f32⟩
  | 106 => ⟨S16x1x30, .f32⟩
  | 107 => ⟨S16x30x30, .f32⟩
  | 108 => ⟨S16x30x30, .f32⟩
  | 109 => ⟨S16x30x30, .f32⟩
  | 110 => ⟨S16x30x30, .f32⟩
  | 111 => ⟨S16x30x30, .f32⟩
  | 112 => ⟨S16x30x30, .f32⟩
  | 113 => ⟨S16x30x30, .f32⟩
  | 114 => ⟨S16x30x30, .f32⟩
  | 115 => ⟨S16, .f32⟩
  | 116 => ⟨S_, .f32⟩
  | 117 => ⟨S16, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16x34x256x256, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .i1⟩
  | 5 => ⟨S_, .f32⟩
  | 6 => ⟨S_, .f32⟩
  | 7 => ⟨S16, .f32⟩
  | 8 => ⟨S16, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S16x34x256x256, .f32⟩

abbrev hbmTy (i : Nat) : BufTy := match i / 128 with
  | 0 => hbmTy0_0 i
  | 1 => hbmTy0_1 i
  | _ => ⟨S16x34x256x256, .f32⟩

abbrev bufTy : (tb : Table) → Fin (tcTables nBuf tb) → BufTy
  | .hbm, ⟨i, _⟩ => hbmTy i
  | _, _ => ⟨S16x34x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_cst_7 : Ref sig .tc := ⟨.hbm, 72, rfl⟩
abbrev main_call2_v0 : Ref sig .tc := ⟨.hbm, 73, rfl⟩
abbrev main_call2_v1 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_9 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_10 : Ref sig .tc := ⟨.hbm, 88, rfl⟩
abbrev main_v48 : Ref sig .tc := ⟨.hbm, 89, rfl⟩
abbrev main_v49 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_v50 : Ref sig .tc := ⟨.hbm, 94, rfl⟩
abbrev main_v51 : Ref sig .tc := ⟨.hbm, 95, rfl⟩
abbrev main_cst_12 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩
abbrev main_cst_14 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_15 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_16 : Ref sig .tc := ⟨.hbm, 120, rfl⟩
abbrev main_v72 : Ref sig .tc := ⟨.hbm, 121, rfl⟩
abbrev main_v73 : Ref sig .tc := ⟨.hbm, 122, rfl⟩
abbrev main_cst_17 : Ref sig .tc := ⟨.hbm, 123, rfl⟩
abbrev main_v74 : Ref sig .tc := ⟨.hbm, 124, rfl⟩
abbrev main_v75 : Ref sig .tc := ⟨.hbm, 125, rfl⟩
abbrev main_cst_18 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_19 : Ref sig .tc := ⟨.hbm, 130, rfl⟩
abbrev main_v79 : Ref sig .tc := ⟨.hbm, 131, rfl⟩
abbrev main_v80 : Ref sig .tc := ⟨.hbm, 132, rfl⟩
abbrev main_cst_20 : Ref sig .tc := ⟨.hbm, 133, rfl⟩
abbrev main_call4_v0 : Ref sig .tc := ⟨.hbm, 134, rfl⟩
abbrev main_call4_v1 : Ref sig .tc := ⟨.hbm, 135, rfl⟩
abbrev main_v81 : Ref sig .tc := ⟨.hbm, 136, rfl⟩
abbrev main_cst_21 : Ref sig .tc := ⟨.hbm, 137, rfl⟩
abbrev main_v82 : Ref sig .tc := ⟨.hbm, 138, rfl⟩
abbrev main_cst_22 : Ref sig .tc := ⟨.hbm, 139, rfl⟩
abbrev main_v83 : Ref sig .tc := ⟨.hbm, 140, rfl⟩
abbrev main_v84 : Ref sig .tc := ⟨.hbm, 141, rfl⟩
abbrev main_cst_23 : Ref sig .tc := ⟨.hbm, 142, rfl⟩
abbrev main_v85 : Ref sig .tc := ⟨.hbm, 143, rfl⟩

abbrev nD : Nat := 1
abbrev τ : Topo := Topo.v7x

variable {F : FTy → Type} [FloatOps F]

class Facts₀ : Prop where
  slices_S16x34x256x256_S16x17x256x256_0_0_0_0 : S16x34x256x256.Slices ![0, 0, 0, 0] S16x17x256x256
  bcast_S16x256x256_S16x1x256x256_0_2_3 : S16x256x256.BroadcastsInDim S16x1x256x256 (![0, 2, 3] : Fin 3 → Fin S16x1x256x256.rank)
  bcast_S16x1x256x256_S16x17x256x256_0_1_2_3 : S16x1x256x256.BroadcastsInDim S16x17x256x256 (![0, 1, 2, 3] : Fin 4 → Fin S16x17x256x256.rank)
  reducesTo_S16x17x256x256_S16_d1_2_3 : S16x17x256x256.ReducesTo [1, 2, 3] S16
  h_S_ : 0 < S_.numel
  bcast_S_S16 : S_.BroadcastsInDim S16 (![] : Fin 0 → Fin S16.rank)
  slices_S16x34x256x256_S16x17x256x256_0_17_0_0 : S16x34x256x256.Slices ![0, 17, 0, 0] S16x17x256x256
  shapeCasts_S16x17x256x256_S16x1114112 : S16x17x256x256.ShapeCasts S16x1114112
  slices_S16x30x17x2_S16x30x17x1_0_0_0_1 : S16x30x17x2.Slices ![0, 0, 0, 1] S16x30x17x1
  shapeCasts_S16x30x17x1_S16x30x17 : S16x30x17x1.ShapeCasts S16x30x17
  reducesTo_S16x30x17_S16x30_d2 : S16x30x17.ReducesTo [2] S16x30
  bcast_S16x30_S16x30x1_0_1 : S16x30.BroadcastsInDim S16x30x1 (![0, 1] : Fin 2 → Fin S16x30x1.rank)
  slices_S16x30x17x2_S16x30x17x1_0_0_0_0 : S16x30x17x2.Slices ![0, 0, 0, 0] S16x30x17x1
  shapeCasts_S16x30x17_S16x510 : S16x30x17.ShapeCasts S16x510
  bcast_S_S16x510 : S_.BroadcastsInDim S16x510 (![] : Fin 0 → Fin S16x510.rank)
  shapeCasts_S16x510_S16x510x1 : S16x510.ShapeCasts S16x510x1
  bcast_S_S16x510x1 : S_.BroadcastsInDim S16x510x1 (![] : Fin 0 → Fin S16x510x1.rank)
  bcast_S1_S1x1x1_2 : S1.BroadcastsInDim S1x1x1 (![2] : Fin 1 → Fin S1x1x1.rank)
  bcast_S1x1x1_S16x510x1_0_1_2 : S1x1x1.BroadcastsInDim S16x510x1 (![0, 1, 2] : Fin 3 → Fin S16x510x1.rank)
  reducesTo_S16x510x1_S16x510_d2 : S16x510x1.ReducesTo [2] S16x510
  shapeCasts_S16x510_S16x30x17 : S16x510.ShapeCasts S16x30x17
  bcast_S_S16x30x1 : S_.BroadcastsInDim S16x30x1 (![] : Fin 0 → Fin S16x30x1.rank)
  shapeCasts_S16x30x1_S16x30 : S16x30x1.ShapeCasts S16x30
  reducesTo_S16x30_S16_d1 : S16x30.ReducesTo [1] S16
  bcast_S16_S16x1_0 : S16.BroadcastsInDim S16x1 (![0] : Fin 1 → Fin S16x1.rank)
  bcast_S_S16x1 : S_.BroadcastsInDim S16x1 (![] : Fin 0 → Fin S16x1.rank)
  transposes_S16x30x1_S16x1x30_0_2_1 : S16x30x1.Transposes [0, 2, 1] S16x1x30
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S16x30x1_S16x30x17_0_1_2 : S16x30x1.BroadcastsInDim S16x30x17 (![0, 1, 2] : Fin 3 → Fin S16x30x17.rank)
  reducesTo_S16x1_S_d0_1 : S16x1.ReducesTo [0, 1] S_
  bcast_S16x30_S16x1x30_0_2 : S16x30.BroadcastsInDim S16x1x30 (![0, 2] : Fin 2 → Fin S16x1x30.rank)
  shapeCasts_S16x1_S16 : S16x1.ShapeCasts S16
  reducesTo_S16x30x30_S16_d1_2 : S16x30x30.ReducesTo [1, 2] S16
  reducesTo_S16_S_d0 : S16.ReducesTo [0] S_
  gather_S16x1114112_S16x510x1_S16x510_n_1_0_0_1_2_11_wf : GatherDims.WF S16x1114112 S16x510x1 S16x510 [] [1] [0] [1] [0] 2 ![1, 1]

variable [Facts₀]

def gather_S16x1114112_S16x510x1_S16x510_n_1_0_0_1_2_11 : GatherDims S16x1114112 S16x510x1 S16x510 where
  offsetDims := []
  collapsedSliceDims := [1]
  operandBatchingDims := [0]
  startIndicesBatchingDims := [0]
  startIndexMap := [1]
  indexVectorDim := 2
  sliceSizes := ![1, 1]
  wf := gather_S16x1114112_S16x510x1_S16x510_n_1_0_0_1_2_11_wf

class Facts : Prop extends Facts₀ where

variable [Facts]
-- ==== Proof.K.Body.lean ====
/- The kernel's body at one grid point, for the program read at any float family, and the pipeline's proof data.

   The body reads five staged blocks — rows 2t, 2t+1 of the prediction's first seventeen channels (window 0) and of its
   eighteenth channel (window 1), both windows of ONE array; of the target (window 2), of the mask (window 3), of the padded
   location words (window 4) — and stores two blocks whole: the per-batch loss in every lane (window 5) and the gathered tags
   (window 6). Each output buffer after the body is therefore the canonical form of one store over the input blocks. The two
   windows on the prediction array each hold a half of its share. Everything is stated at a parameter `V`: the contents of
   the core's buffers when the region is entered. -/
import proofs.«423184_j70815420776931_3_alg».proof.Proof.Gen.Kernel.Launch
import proofs.«423184_j70815420776931_3_alg».proof.Proof.Gen.Kernel.Skeleton
import proofs.«423184_j70815420776931_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev rA : Rect S2x17x256x256 := Rect.unit (s := S2x17x256x256) ![0, 0, 0, 0] S2x17x256x256.size inb_S2x17x256x256_S2x17x256x256_0_0_0_0
abbrev rT : Rect S2x1x256x256 := Rect.unit (s := S2x1x256x256) ![0, 0, 0, 0] S2x1x256x256.size inb_S2x1x256x256_S2x1x256x256_0_0_0_0
abbrev rM : Rect S2x256x256 := Rect.unit (s := S2x256x256) ![0, 0, 0] S2x256x256.size inb_S2x256x256_S2x256x256_0_0_0
abbrev rL : Rect S2x1x512 := Rect.unit (s := S2x1x512) ![0, 0, 0] S2x1x512.size inb_S2x1x512_S2x1x512_0_0_0
abbrev rH : Rect S2x1x128 := Rect.unit (s := S2x1x128) ![0, 0, 0] S2x1x128.size inb_S2x1x128_S2x1x128_0_0_0

/-! ## What the body leaves in each output window's buffer -/

/-- The loss buffer after the body: one store, of the loss of the two batches of the point in every lane. -/
def outH (x0 : Vec F S2x17x256x256 .f32) (x2 : Vec F S2x17x256x256 .f32) (x3 : Vec F S2x256x256 .f32) : Vec F S2x1x128 .f32 :=
  View.canon [⟨rH, k0_pay2 (View.ld x0 rA) (View.ld x2 rA) (View.ld x3 rM)⟩]

/-- The tag buffer after the body: one store, of the tag channel read at the point's location words. -/
def outT (x1 : Vec F S2x1x256x256 .f32) (x4 : Vec F S2x1x512 .i32) : Vec F S2x1x512 .f32 :=
  View.canon [⟨rL, k0_pay1 (k0_pay3 (View.ld x1 rT)) (k0_pay5 (View.ld x4 rL)) (k0_pay6 (View.ld x4 rL))
    (iota .tc S512x256 32 [1] iota_S512x256_d1_w32) (iota .tc S512x256 32 [1] iota_S512x256_d1_w32)
    (k0_pay7 (View.ld x4 rL)) (k0_pay8 (View.ld x4 rL))⟩]

/-- A store of the whole buffer covers it. -/
theorem coverH (p0 : Vec F S2x1x128 .f32) (y : S2x1x128.Idx) :
    ∃ pc ∈ ([⟨rH, p0⟩] : List (View.Piece (Elt F) S2x1x128 .f32)), y ∈ pc.1.set :=
  View.cover_of_tiled [⟨rH, p0⟩] S2x1x128.size (by rfl) y
theorem coverT (p0 : Vec F S2x1x512 .f32) (y : S2x1x512.Idx) :
    ∃ pc ∈ ([⟨rL, p0⟩] : List (View.Piece (Elt F) S2x1x512 .f32)), y ∈ pc.1.set :=
  View.cover_of_tiled [⟨rL, p0⟩] S2x1x512.size (by rfl) y

/-! ## The body's triple -/

set_option maxHeartbeats 4000000 in
/-- The body on whole staging memrefs — the five inputs' at read contents, the two outputs' at anything — runs to the
    continuation holding the inputs' as they were and each output's at `outH` / `outT` of the inputs'. -/
theorem sound_kernel (c : Dev nD) (E : Set ℕ) (i : grid0.Coords)
    (arg1 : Memref sig .tc .vmem S2x17x256x256 .f32) (harg1 : arg1.IsWhole) (arg2 : Memref sig .tc .vmem S2x1x256x256 .f32) (harg2 : arg2.IsWhole)
    (arg3 : Memref sig .tc .vmem S2x17x256x256 .f32) (harg3 : arg3.IsWhole) (arg4 : Memref sig .tc .vmem S2x256x256 .f32) (harg4 : arg4.IsWhole)
    (arg5 : Memref sig .tc .vmem S2x1x512 .i32) (harg5 : arg5.IsWhole) (arg6 : Memref sig .tc .vmem S2x1x128 .f32) (harg6 : arg6.IsWhole)
    (arg7 : Memref sig .tc .vmem S2x1x512 .f32) (harg7 : arg7.IsWhole)
    (x0 : Vec F S2x17x256x256 .f32) (x1 : Vec F S2x1x256x256 .f32) (x2 : Vec F S2x17x256x256 .f32) (x3 : Vec F S2x256x256 .f32) (x4 : Vec F S2x1x512 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x2 x3) ∗ owns (c : Thread nD τ) arg7 fullShare (outT x1 x4)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverH _)
  iexists _; isplitr
  swap; · iexact H6
  ipureintro
  exact View.read_writes_eq_canon _ _ _ (coverT _)

/-! ## The pipeline's proof data -/

/-- The proof data on core `c`: the arrays as the region finds them; after the body at point `t` each input's buffer at its
    block and each output's at what the body stores; the invariant the scoped rest and the generator register, untouched;
    nothing owed; the prediction array's share dealt in halves to the two windows on it, every other input at the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outH (iblk V c 0 t) (iblk V c 2 t) (iblk V c 3 t)
    | ⟨6, _⟩ => outT (iblk V c 1 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats V 0 c).A w = V c (Pipeline.arrRef spec0 w) := by
  dsimp only [dats]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) :
    (dats V 0 c).after 5 t = outH (iblk V c 0 t) (iblk V c 2 t) (iblk V c 3 t) := by dsimp only [dats]
theorem after0_6 (c : Dev nD) (t : Fin cfg0.N) : (dats V 0 c).after 6 t = outT (iblk V c 1 t) (iblk V c 4 t) := by dsimp only [dats]

/-- Each input's current staging buffer holds its block at every point: the window is fetched at every point, uncut and
    never idle, and the body leaves the block in place. -/
theorem before0_0 (c : Dev nD) (t : Fin cfg0.N) (d) : (dats V 0 c).before 0 t d = iblk V c 0 t :=
  ((dats V 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V 0 c).before 1 t d = iblk V c 1 t :=
  ((dats V 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V 0 c).before 2 t d = iblk V c 2 t :=
  ((dats V 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats V 0 c).before 3 t d = iblk V c 3 t :=
  ((dats V 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats V 0 c).before 4 t d = iblk V c 4 t :=
  ((dats V 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d))
    ∗ (∃ d, owns (c : Thread nD τ) (st0_4 t) fullShare ((dats V 0 c).before 4 t d))
    ∗ (∃ d, owns (c : Thread nD τ) (st0_5 t) fullShare ((dats V 0 c).before 5 t d))
    ∗ (∃ d, owns (c : Thread nD τ) (st0_6 t) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t)
    ∗ owns (c : Thread nD τ) (st0_4 t) fullShare ((dats V 0 c).after 4 t)
    ∗ owns (c : Thread nD τ) (st0_5 t) fullShare ((dats V 0 c).after 5 t)
    ∗ owns (c : Thread nD τ) (st0_6 t) fullShare ((dats V 0 c).after 6 t))

/-- The body at any point: the inputs' memrefs hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V 0 c).Φ t.succ = (dats V 0 c).Φ t.castSucc from rfl,
    show (dats V 0 c).owesAt () t.succ = (dats V 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) V 0 c) (defs₀ (F := F)) Variants.none () Set.univ := fun t => by
  rw [bigSep_W0, bigSep_W0]
  exact sound_body V c t

end Cert.Kernel.Hand

end
-- ==== Proof.K.Run.lean ====
/- The run of @main for the program read at any float family: three stretches of host operations (the location words
   sliced out of the joints, laid 510 to a row, padded to 512 and given a unit axis), the one kernel region, nine stretches
   after it (the loss read out of lane 0, the tags out of the first 510 lanes, and the pull / push arithmetic on them).

   Between two items the core holds every unscoped buffer whole at a named valuation: the launch memory, then
   `StableHlo.after` each stretch; across the region the two result arrays change to what the write-backs leave and every
   other buffer stays. Two of the region's input windows read ONE array, the prediction: at entry its points-to is dealt in
   two halves, one per window, and at exit the halves — both still at the entry contents, an input being never written — are
   joined again. The run ends with every unscoped buffer at the last valuation; the frame claim reads the four arguments there. -/
import proofs.«423184_j70815420776931_3_alg».proof.Proof.K.Body
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays as explicit conjunctions -/

section Arrays

variable (V : (c : Dev nD) → (b : Ref sig .tc) → Buf (Elt F) ((c : Thread nD τ).loc b))

/-- The seven windows sit on six arrays: windows 0 and 1 both read the prediction. -/
theorem image_arr : Finset.univ.image (Pipeline.arrRef spec0)
    = ({main_arg0, main_arg1, main_arg2, main_v4, main_v5_0, main_v5_1} : Finset (Ref sig .tc)) := by decide

/-- The distinct buffers behind the arrays, one by one. -/
theorem arrBufs_chain (c : Dev nD) (U : (b : Ref sig .tc) → Buf (Elt F) ((c : Thread nD τ).loc b)) :
    (Pipeline.arrBufs spec0 c U : sProp 𝕄)
      = iprop((((c : Thread nD τ).loc main_arg0) ↦{fullShare} U main_arg0) ∗ (((c : Thread nD τ).loc main_arg1) ↦{fullShare} U main_arg1)
          ∗ (((c : Thread nD τ).loc main_arg2) ↦{fullShare} U main_arg2) ∗ (((c : Thread nD τ).loc main_v4) ↦{fullShare} U main_v4)
          ∗ (((c : Thread nD τ).loc main_v5_0) ↦{fullShare} U main_v5_0) ∗ (((c : Thread nD τ).loc main_v5_1) ↦{fullShare} U main_v5_1)) := by
  unfold Pipeline.arrBufs
  rw [image_arr, BI.bigSep_insert (by decide), BI.bigSep_insert (by decide), BI.bigSep_insert (by decide),
    BI.bigSep_insert (by decide), BI.bigSep_insert (by decide), BI.bigSep_singleton]
  rfl

/-- The proof data's arrays, one by one: the prediction's two windows at the two halves of its share. -/
theorem arrays_chain (c : Dev nD) (G : (w : Fin cfg0.W) → Buf (Elt F) ((cfg0.win w).arr.view.loc (c : Thread nD τ))) :
    ((dats V 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_arg2) ↦{fullShare} G 3)
          ∗ (((c : Thread nD τ).loc main_v4) ↦{fullShare} G 4)
          ∗ (((c : Thread nD τ).loc main_v5_0) ↦{fullShare} G 5) ∗ (((c : Thread nD τ).loc main_v5_1) ↦{fullShare} G 6)) := by
  have h : ((dats V 0 c).arrays G : sProp 𝕄)
      = bigSep Finset.univ fun w : Fin 7 => (((c : Thread nD τ).loc (Pipeline.arrRef spec0 w)) ↦{(dats V 0 c).share w} G w : sProp 𝕄) := by
    unfold Dat.arrays
    exact bigSep_congr fun w _ => by rw [(arr_whole0 w).set_eq_univ]
  rw [h, bigSep_W0]
  rfl

/-- ENTRY: the core's unscoped buffers at `V` are the region's arrays at their entry contents — the prediction's
    points-to dealt in halves to its two windows — and the rest. -/
theorem entry_split (c : Dev nD) :
    (unscopedBufs c (V c) : sProp 𝕄)
      ⊢ iprop((dats V 0 c).arrays ((dats V 0 c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  iintro ⟨⟨H0, H1, H2, H4, H5, H6⟩, Hr⟩
  ihave H0' := (pointsTo_share (PosShare.mem_left_op_right fullShare)).1 $$ H0
  icases H0' with ⟨H0l, H0r⟩
  isplitr [Hr]
  · isplitl [H0l]; · iexact H0l
    isplitl [H0r]; · iexact H0r
    isplitl [H1]; · iexact H1
    isplitl [H2]; · iexact H2
    isplitl [H4]; · iexact H4
    isplitl [H5]; · iexact H5
    iexact H6
  iexact Hr

/-- EXIT: the arrays at what the pipeline leaves and the rest at `V` are the core's unscoped buffers at any valuation `V'`
    that has the two result arrays at their written-back contents and agrees with `V` everywhere else: an input array is
    never written, so the prediction's two halves are both still at `V`'s contents and join. -/
theorem exit_join (c : Dev nD) (V' : (b : Ref sig .tc) → Buf (Elt F) ((c : Thread nD τ).loc b))
    (h0 : V' main_arg0 = V c main_arg0) (h1 : V' main_arg1 = V c main_arg1) (h2 : V' main_arg2 = V c main_arg2)
    (h4 : V' main_v4 = V c main_v4)
    (h5 : V' main_v5_0 = (dats V 0 c).arrAt 5 cfg0.N) (h6 : V' main_v5_1 = (dats V 0 c).arrAt 6 cfg0.N)
    (hrest : ∀ b, b ∉ Finset.univ.image (Pipeline.arrRef spec0) → V' b = V c b) :
    iprop((dats V 0 c).arrays ((dats V 0 c).arrAt · cfg0.N)
        ∗ Pipeline.unscopedRest (Ix := Unit) (Name := ℕ) (U := UR sig nD τ) (Lvl := ℕ) spec0 c (V c))
      ⊢ (unscopedBufs c V' : sProp 𝕄) := by
  have e0 : (dats V 0 c).arrAt 0 cfg0.N = V c main_arg0 := ((dats V 0 c).arrAt_in 0 rfl _).trans (A_eq V c 0)
  have e1 : (dats V 0 c).arrAt 1 cfg0.N = V c main_arg0 := ((dats V 0 c).arrAt_in 1 rfl _).trans (A_eq V c 1)
  have e2 : (dats V 0 c).arrAt 2 cfg0.N = V c main_arg1 := ((dats V 0 c).arrAt_in 2 rfl _).trans (A_eq V c 2)
  have e3 : (dats V 0 c).arrAt 3 cfg0.N = V c main_arg2 := ((dats V 0 c).arrAt_in 3 rfl _).trans (A_eq V c 3)
  have e4 : (dats V 0 c).arrAt 4 cfg0.N = V c main_v4 := ((dats V 0 c).arrAt_in 4 rfl _).trans (A_eq V c 4)
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [Pipeline.unscopedBufs_split₀ cfgs 0 winFacts₀0.arr_unscoped c V', arrBufs_chain, arrays_chain, hr, h0, h1, h2, h4, h5, h6]
  simp only [e0, e1, e2, e3, e4]
  iintro ⟨⟨H0l, H0r, H1, H2, H4, H5, H6⟩, Hr⟩
  ihave H0 := (pointsTo_share (PosShare.mem_left_op_right fullShare)).2 $$ [H0l H0r]
  · isplitl [H0l] <;> iassumption
  isplitr [Hr]
  · isplitl [H0]; · iexact H0
    isplitl [H1]; · iexact H1
    isplitl [H2]; · iexact H2
    isplitl [H4]; · iexact H4
    isplitl [H5]; · iexact H5
    iexact H6
  iexact Hr

end Arrays

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same read at the TensorCore's references: what the region's proof data take. -/
abbrev V3 : (c : Dev nD) → (b : Ref sig .tc) → Buf (Elt F) ((c : Thread nD τ).loc b) := fun c b => W3 m ρ c b
/-- At the region's exit: the two result arrays at what the write-backs leave, every other buffer as entered. -/
def W4 (c : Dev nD) : Valuation τ sig (Elt F) :=
  Function.update (Function.update (W3 m ρ c) (Proc.devRef .tc main_v5_0) ((dats (V3 m ρ) 0 c).arrAt 5 cfg0.N))
    (Proc.devRef .tc main_v5_1) ((dats (V3 m ρ) 0 c).arrAt 6 cfg0.N)
theorem W4_v5_0 (c : Dev nD) : W4 m ρ c (Proc.devRef .tc main_v5_0) = (dats (V3 m ρ) 0 c).arrAt 5 cfg0.N := by
  unfold W4
  rw [Function.update_of_ne (StableHlo.devRef_ne_of_ne (by decide)), Function.update_self]
theorem W4_v5_1 (c : Dev nD) : W4 m ρ c (Proc.devRef .tc main_v5_1) = (dats (V3 m ρ) 0 c).arrAt 6 cfg0.N := by
  unfold W4
  rw [Function.update_self]
theorem W4_of_ne (c : Dev nD) (b : Ref sig .tc) (h5 : b ≠ main_v5_0) (h6 : b ≠ main_v5_1) :
    W4 m ρ c (Proc.devRef .tc b) = W3 m ρ c (Proc.devRef .tc b) := by
  unfold W4
  rw [Function.update_of_ne (StableHlo.devRef_ne_of_ne h6), Function.update_of_ne (StableHlo.devRef_ne_of_ne h5)]
abbrev V4 : (c : Dev nD) → (b : Ref sig .tc) → Buf (Elt F) ((c : Thread nD τ).loc b) := fun c b => W4 m ρ c b
/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2`. -/
abbrev W7 : Dev nD → Valuation τ sig (Elt F) := fun c => StableHlo.after hostOps1_2 (W6 m ρ c)
/-- After `hostOps1_3`. -/
abbrev W8 : Dev nD → Valuation τ sig (Elt F) := fun c => StableHlo.after hostOps1_3 (W7 m ρ c)
/-- After `hostOps1_4`. -/
abbrev W9 : Dev nD → Valuation τ sig (Elt F) := fun c => StableHlo.after hostOps1_4 (W8 m ρ c)
/-- After `hostOps1_5`. -/
abbrev W10 : Dev nD → Valuation τ sig (Elt F) := fun c => StableHlo.after hostOps1_5 (W9 m ρ c)
/-- After `hostOps1_6`. -/
abbrev W11 : Dev nD → Valuation τ sig (Elt F) := fun c => StableHlo.after hostOps1_6 (W10 m ρ c)
/-- After `hostOps1_7`. -/
abbrev W12 : Dev nD → Valuation τ sig (Elt F) := fun c => StableHlo.after hostOps1_7 (W11 m ρ c)
/-- After `hostOps1_8`. -/
abbrev W13 : Dev nD → Valuation τ sig (Elt F) := fun c => StableHlo.after hostOps1_8 (W12 m ρ c)

/-! ## No item writes an argument -/

/-- No operation of a stretch writes the buffer: each operation's written set is a singleton of another reference. -/
macro "not_written" : tactic => `(tactic|
  (refine List.forall_iff_forall_mem.mp ?_
   simp only [hostOps0, hostOps0_1, hostOps0_2, hostOps1, hostOps1_1, hostOps1_2, hostOps1_3, hostOps1_4, hostOps1_5, hostOps1_6, hostOps1_7, hostOps1_8, List.Forall, StableHlo.nullary_writes, StableHlo.unary_writes, StableHlo.binary_writes,
     StableHlo.ternary_writes, StableHlo.quaternary_writes, StableHlo.reshape_writes, StableHlo.binaryIndexed_writes, Finset.mem_singleton]
   repeat' apply And.intro
   all_goals exact StableHlo.devRef_ne_of_ne (by decide)))

/-- At the region's entry each argument still holds its launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (by not_written)
    _ = W1 m ρ c (Proc.devRef .tc main_arg1) := StableHlo.after_of_forall_not_mem (b := Proc.devRef .tc main_arg1) _ _ (by not_written)
    _ = W0 m ρ c (Proc.devRef .tc main_arg1) := StableHlo.after_of_forall_not_mem (b := Proc.devRef .tc main_arg1) _ _ (by not_written)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_forall_not_mem (b := Proc.devRef .tc main_arg0) _ _ (by not_written)
    _ = W11 m ρ c (Proc.devRef .tc main_arg0) := StableHlo.after_of_forall_not_mem (b := Proc.devRef .tc main_arg0) _ _ (by not_written)
    _ = W10 m ρ c (Proc.devRef .tc main_arg0) := StableHlo.after_of_forall_not_mem (b := Proc.devRef .tc main_arg0) _ _ (by not_written)
    _ = W9 m ρ c (Proc.devRef .tc main_arg0) := StableHlo.after_of_forall_not_mem (b := Proc.devRef .tc main_arg0) _ _ (by not_written)
    _ = W8 m ρ c (Proc.devRef .tc main_arg0) := StableHlo.after_of_forall_not_mem (b := Proc.devRef .tc main_arg0) _ _ (by not_written)
    _ = W7 m ρ c (Proc.devRef .tc main_arg0) := StableHlo.after_of_forall_not_mem (b := Proc.devRef .tc main_arg0) _ _ (by not_written)
    _ = W6 m ρ c (Proc.devRef .tc main_arg0) := StableHlo.after_of_forall_not_mem (b := Proc.devRef .tc main_arg0) _ _ (by not_written)
    _ = W5 m ρ c (Proc.devRef .tc main_arg0) := StableHlo.after_of_forall_not_mem (b := Proc.devRef .tc main_arg0) _ _ (by not_written)
    _ = W4 m ρ c (Proc.devRef .tc main_arg0) := StableHlo.after_of_forall_not_mem (b := Proc.devRef .tc main_arg0) _ _ (by not_written)
    _ = W3 m ρ c (Proc.devRef .tc main_arg0) := W4_of_ne m ρ c main_arg0 (by decide) (by decide)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_forall_not_mem (b := Proc.devRef .tc main_arg1) _ _ (by not_written)
    _ = W11 m ρ c (Proc.devRef .tc main_arg1) := StableHlo.after_of_forall_not_mem (b := Proc.devRef .tc main_arg1) _ _ (by not_written)
    _ = W10 m ρ c (Proc.devRef .tc main_arg1) := StableHlo.after_of_forall_not_mem (b := Proc.devRef .tc main_arg1) _ _ (by not_written)
    _ = W9 m ρ c (Proc.devRef .tc main_arg1) := StableHlo.after_of_forall_not_mem (b := Proc.devRef .tc main_arg1) _ _ (by not_written)
    _ = W8 m ρ c (Proc.devRef .tc main_arg1) := StableHlo.after_of_forall_not_mem (b := Proc.devRef .tc main_arg1) _ _ (by not_written)
    _ = W7 m ρ c (Proc.devRef .tc main_arg1) := StableHlo.after_of_forall_not_mem (b := Proc.devRef .tc main_arg1) _ _ (by not_written)
    _ = W6 m ρ c (Proc.devRef .tc main_arg1) := StableHlo.after_of_forall_not_mem (b := Proc.devRef .tc main_arg1) _ _ (by not_written)
    _ = W5 m ρ c (Proc.devRef .tc main_arg1) := StableHlo.after_of_forall_not_mem (b := Proc.devRef .tc main_arg1) _ _ (by not_written)
    _ = W4 m ρ c (Proc.devRef .tc main_arg1) := StableHlo.after_of_forall_not_mem (b := Proc.devRef .tc main_arg1) _ _ (by not_written)
    _ = W3 m ρ c (Proc.devRef .tc main_arg1) := W4_of_ne m ρ c main_arg1 (by decide) (by decide)
    _ = W2 m ρ c (Proc.devRef .tc main_arg1) := StableHlo.after_of_forall_not_mem (b := Proc.devRef .tc main_arg1) _ _ (by not_written)
    _ = W1 m ρ c (Proc.devRef .tc main_arg1) := StableHlo.after_of_forall_not_mem (b := Proc.devRef .tc main_arg1) _ _ (by not_written)
    _ = W0 m ρ c (Proc.devRef .tc main_arg1) := StableHlo.after_of_forall_not_mem (b := Proc.devRef .tc main_arg1) _ _ (by not_written)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_forall_not_mem (b := Proc.devRef .tc main_arg2) _ _ (by not_written)
    _ = W11 m ρ c (Proc.devRef .tc main_arg2) := StableHlo.after_of_forall_not_mem (b := Proc.devRef .tc main_arg2) _ _ (by not_written)
    _ = W10 m ρ c (Proc.devRef .tc main_arg2) := StableHlo.after_of_forall_not_mem (b := Proc.devRef .tc main_arg2) _ _ (by not_written)
    _ = W9 m ρ c (Proc.devRef .tc main_arg2) := StableHlo.after_of_forall_not_mem (b := Proc.devRef .tc main_arg2) _ _ (by not_written)
    _ = W8 m ρ c (Proc.devRef .tc main_arg2) := StableHlo.after_of_forall_not_mem (b := Proc.devRef .tc main_arg2) _ _ (by not_written)
    _ = W7 m ρ c (Proc.devRef .tc main_arg2) := StableHlo.after_of_forall_not_mem (b := Proc.devRef .tc main_arg2) _ _ (by not_written)
    _ = W6 m ρ c (Proc.devRef .tc main_arg2) := StableHlo.after_of_forall_not_mem (b := Proc.devRef .tc main_arg2) _ _ (by not_written)
    _ = W5 m ρ c (Proc.devRef .tc main_arg2) := StableHlo.after_of_forall_not_mem (b := Proc.devRef .tc main_arg2) _ _ (by not_written)
    _ = W4 m ρ c (Proc.devRef .tc main_arg2) := StableHlo.after_of_forall_not_mem (b := Proc.devRef .tc main_arg2) _ _ (by not_written)
    _ = W3 m ρ c (Proc.devRef .tc main_arg2) := W4_of_ne m ρ c main_arg2 (by decide) (by decide)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_forall_not_mem (b := Proc.devRef .tc main_arg3) _ _ (by not_written)
    _ = W11 m ρ c (Proc.devRef .tc main_arg3) := StableHlo.after_of_forall_not_mem (b := Proc.devRef .tc main_arg3) _ _ (by not_written)
    _ = W10 m ρ c (Proc.devRef .tc main_arg3) := StableHlo.after_of_forall_not_mem (b := Proc.devRef .tc main_arg3) _ _ (by not_written)
    _ = W9 m ρ c (Proc.devRef .tc main_arg3) := StableHlo.after_of_forall_not_mem (b := Proc.devRef .tc main_arg3) _ _ (by not_written)
    _ = W8 m ρ c (Proc.devRef .tc main_arg3) := StableHlo.after_of_forall_not_mem (b := Proc.devRef .tc main_arg3) _ _ (by not_written)
    _ = W7 m ρ c (Proc.devRef .tc main_arg3) := StableHlo.after_of_forall_not_mem (b := Proc.devRef .tc main_arg3) _ _ (by not_written)
    _ = W6 m ρ c (Proc.devRef .tc main_arg3) := StableHlo.after_of_forall_not_mem (b := Proc.devRef .tc main_arg3) _ _ (by not_written)
    _ = W5 m ρ c (Proc.devRef .tc main_arg3) := StableHlo.after_of_forall_not_mem (b := Proc.devRef .tc main_arg3) _ _ (by not_written)
    _ = W4 m ρ c (Proc.devRef .tc main_arg3) := StableHlo.after_of_forall_not_mem (b := Proc.devRef .tc main_arg3) _ _ (by not_written)
    _ = W3 m ρ c (Proc.devRef .tc main_arg3) := W4_of_ne m ρ c main_arg3 (by decide) (by decide)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

/-! ## The proof data family, the thread state, the segments -/

abbrev adm : (p : Fin 1) → (pcfgs (F := F) p).Adm := fun p => (cfgs p).toPCfg_adm
/-- The one pipeline's proof data at the region's entry contents. -/
def pdats : (p : Fin 1) → (c : Dev nD) → Dat τ (Elt F) Unit ℕ (UR sig nD τ) ℕ (Pipeline.pin (pcfgs (F := F)) adm p) c
  | ⟨0, _⟩ => fun c => dats (V3 m ρ) 0 c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last valuation, the generator register somewhere. -/
abbrev Tₙ (c : Dev nD) : sProp 𝕄 := iprop(StableHlo.held (c : Thread nD τ) (Pipeline.ucRefs τ sig) (W13 m ρ c) ∗ ∃ r, prngReg c r)

set_option backward.isDefEq.respectTransparency.types false in
/-- THE REGION over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit : (unscopedBufs c (V3 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V3 m ρ c)) := entry_split (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V3 m ρ c))
        ⊢ (unscopedBufs c (V4 m ρ c) : sProp 𝕄) := exit_join (V3 m ρ) c (V4 m ρ c)
      (W4_of_ne m ρ c main_arg0 (by decide) (by decide)) (W4_of_ne m ρ c main_arg1 (by decide) (by decide))
      (W4_of_ne m ρ c main_arg2 (by decide) (by decide)) (W4_of_ne m ρ c main_v4 (by decide) (by decide))
      (W4_v5_0 m ρ c) (W4_v5_1 m ρ c)
      (fun b hb => W4_of_ne m ρ c b
        (fun e => hb (Finset.mem_image.mpr ⟨5, Finset.mem_univ _, e.symm⟩)) (fun e => hb (Finset.mem_image.mpr ⟨6, Finset.mem_univ _, e.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .host (hseg hostOps1_5 hostOps1_5_sub hostOps1_5_fresh (W9 m ρ)),
    .host (hseg hostOps1_6 hostOps1_6_sub hostOps1_6_fresh (W10 m ρ)),
    .host (hseg hostOps1_7 hostOps1_7_sub hostOps1_7_fresh (W11 m ρ)),
    .host (hseg hostOps1_8 hostOps1_8_sub hostOps1_8_fresh (W12 m ρ)) ]

/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W13 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c)⟩) (run_main m ρ)

end Cert.Kernel.Hand

end
-- ==== Proof.KI.Body.lean ====
/- The kernel's body at one grid point, for the program read at any float family, and the pipeline's proof data.

   The body reads five staged blocks — rows 2t, 2t+1 of the prediction's first seventeen channels (window 0) and of its
   eighteenth channel (window 1), both windows of ONE array; of the target (window 2), of the mask (window 3), of the padded
   location words (window 4) — and stores two blocks whole: the per-batch loss in every lane (window 5) and the gathered tags
   (window 6). Each output buffer after the body is therefore the canonical form of one store over the input blocks. The two
   windows on the prediction array each hold a half of its share. Everything is stated at a parameter `V`: the contents of
   the core's buffers when the region is entered. -/
import proofs.«423184_j70815420776931_3_alg».proof.Proof.Gen.KernelIdeal.Launch
import proofs.«423184_j70815420776931_3_alg».proof.Proof.Gen.KernelIdeal.Skeleton
import proofs.«423184_j70815420776931_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev rA : Rect S2x17x256x256 := Rect.unit (s := S2x17x256x256) ![0, 0, 0, 0] S2x17x256x256.size inb_S2x17x256x256_S2x17x256x256_0_0_0_0
abbrev rT : Rect S2x1x256x256 := Rect.unit (s := S2x1x256x256) ![0, 0, 0, 0] S2x1x256x256.size inb_S2x1x256x256_S2x1x256x256_0_0_0_0
abbrev rM : Rect S2x256x256 := Rect.unit (s := S2x256x256) ![0, 0, 0] S2x256x256.size inb_S2x256x256_S2x256x256_0_0_0
abbrev rL : Rect S2x1x512 := Rect.unit (s := S2x1x512) ![0, 0, 0] S2x1x512.size inb_S2x1x512_S2x1x512_0_0_0
abbrev rH : Rect S2x1x128 := Rect.unit (s := S2x1x128) ![0, 0, 0] S2x1x128.size inb_S2x1x128_S2x1x128_0_0_0

/-! ## What the body leaves in each output window's buffer -/

/-- The loss buffer after the body: one store, of the loss of the two batches of the point in every lane. -/
def outH (x0 : Vec F S2x17x256x256 .f32) (x2 : Vec F S2x17x256x256 .f32) (x3 : Vec F S2x256x256 .f32) : Vec F S2x1x128 .f32 :=
  View.canon [⟨rH, k0_pay2 (View.ld x0 rA) (View.ld x2 rA) (View.ld x3 rM)⟩]

/-- The tag buffer after the body: one store, of the tag channel read at the point's location words. -/
def outT (x1 : Vec F S2x1x256x256 .f32) (x4 : Vec F S2x1x512 .i32) : Vec F S2x1x512 .f32 :=
  View.canon [⟨rL, k0_pay1 (k0_pay3 (View.ld x1 rT)) (k0_pay5 (View.ld x4 rL)) (k0_pay6 (View.ld x4 rL))
    (iota .tc S512x256 32 [1] iota_S512x256_d1_w32) (iota .tc S512x256 32 [1] iota_S512x256_d1_w32)
    (k0_pay7 (View.ld x4 rL)) (k0_pay8 (View.ld x4 rL))⟩]

/-- A store of the whole buffer covers it. -/
theorem coverH (p0 : Vec F S2x1x128 .f32) (y : S2x1x128.Idx) :
    ∃ pc ∈ ([⟨rH, p0⟩] : List (View.Piece (Elt F) S2x1x128 .f32)), y ∈ pc.1.set :=
  View.cover_of_tiled [⟨rH, p0⟩] S2x1x128.size (by rfl) y
theorem coverT (p0 : Vec F S2x1x512 .f32) (y : S2x1x512.Idx) :
    ∃ pc ∈ ([⟨rL, p0⟩] : List (View.Piece (Elt F) S2x1x512 .f32)), y ∈ pc.1.set :=
  View.cover_of_tiled [⟨rL, p0⟩] S2x1x512.size (by rfl) y

/-! ## The body's triple -/

set_option maxHeartbeats 4000000 in
/-- The body on whole staging memrefs — the five inputs' at read contents, the two outputs' at anything — runs to the
    continuation holding the inputs' as they were and each output's at `outH` / `outT` of the inputs'. -/
theorem sound_kernel (c : Dev nD) (E : Set ℕ) (i : grid0.Coords)
    (arg1 : Memref sig .tc .vmem S2x17x256x256 .f32) (harg1 : arg1.IsWhole) (arg2 : Memref sig .tc .vmem S2x1x256x256 .f32) (harg2 : arg2.IsWhole)
    (arg3 : Memref sig .tc .vmem S2x17x256x256 .f32) (harg3 : arg3.IsWhole) (arg4 : Memref sig .tc .vmem S2x256x256 .f32) (harg4 : arg4.IsWhole)
    (arg5 : Memref sig .tc .vmem S2x1x512 .i32) (harg5 : arg5.IsWhole) (arg6 : Memref sig .tc .vmem S2x1x128 .f32) (harg6 : arg6.IsWhole)
    (arg7 : Memref sig .tc .vmem S2x1x512 .f32) (harg7 : arg7.IsWhole)
    (x0 : Vec F S2x17x256x256 .f32) (x1 : Vec F S2x1x256x256 .f32) (x2 : Vec F S2x17x256x256 .f32) (x3 : Vec F S2x256x256 .f32) (x4 : Vec F S2x1x512 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x2 x3) ∗ owns (c : Thread nD τ) arg7 fullShare (outT x1 x4)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverH _)
  iexists _; isplitr
  swap; · iexact H6
  ipureintro
  exact View.read_writes_eq_canon _ _ _ (coverT _)

/-! ## The pipeline's proof data -/

/-- The proof data on core `c`: the arrays as the region finds them; after the body at point `t` each input's buffer at its
    block and each output's at what the body stores; the invariant the scoped rest and the generator register, untouched;
    nothing owed; the prediction array's share dealt in halves to the two windows on it, every other input at the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outH (iblk V c 0 t) (iblk V c 2 t) (iblk V c 3 t)
    | ⟨6, _⟩ => outT (iblk V c 1 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats V 0 c).A w = V c (Pipeline.arrRef spec0 w) := by
  dsimp only [dats]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) :
    (dats V 0 c).after 5 t = outH (iblk V c 0 t) (iblk V c 2 t) (iblk V c 3 t) := by dsimp only [dats]
theorem after0_6 (c : Dev nD) (t : Fin cfg0.N) : (dats V 0 c).after 6 t = outT (iblk V c 1 t) (iblk V c 4 t) := by dsimp only [dats]

/-- Each input's current staging buffer holds its block at every point: the window is fetched at every point, uncut and
    never idle, and the body leaves the block in place. -/
theorem before0_0 (c : Dev nD) (t : Fin cfg0.N) (d) : (dats V 0 c).before 0 t d = iblk V c 0 t :=
  ((dats V 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V 0 c).before 1 t d = iblk V c 1 t :=
  ((dats V 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V 0 c).before 2 t d = iblk V c 2 t :=
  ((dats V 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats V 0 c).before 3 t d = iblk V c 3 t :=
  ((dats V 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats V 0 c).before 4 t d = iblk V c 4 t :=
  ((dats V 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d))
    ∗ (∃ d, owns (c : Thread nD τ) (st0_4 t) fullShare ((dats V 0 c).before 4 t d))
    ∗ (∃ d, owns (c : Thread nD τ) (st0_5 t) fullShare ((dats V 0 c).before 5 t d))
    ∗ (∃ d, owns (c : Thread nD τ) (st0_6 t) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t)
    ∗ owns (c : Thread nD τ) (st0_4 t) fullShare ((dats V 0 c).after 4 t)
    ∗ owns (c : Thread nD τ) (st0_5 t) fullShare ((dats V 0 c).after 5 t)
    ∗ owns (c : Thread nD τ) (st0_6 t) fullShare ((dats V 0 c).after 6 t))

/-- The body at any point: the inputs' memrefs hold their blocks, so `sound_kernel` applies; the invariant and the core's
    `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V 0 c).Φ t.succ = (dats V 0 c).Φ t.castSucc from rfl,
    show (dats V 0 c).owesAt () t.succ = (dats V 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) V 0 c) (defs₀ (F := F)) Variants.none () Set.univ := fun t => by
  rw [bigSep_W0, bigSep_W0]
  exact sound_body V c t

end Cert.KernelIdeal.Hand

end
-- ==== Proof.KI.Run.lean ====
/- The run of @main for the program read at any float family: three stretches of host operations (the location words
   sliced out of the joints, laid 510 to a row, padded to 512 and given a unit axis), the one kernel region, nine stretches
   after it (the loss read out of lane 0, the tags out of the first 510 lanes, and the pull / push arithmetic on them).

   Between two items the core holds every unscoped buffer whole at a named valuation: the launch memory, then
   `StableHlo.after` each stretch; across the region the two result arrays change to what the write-backs leave and every
   other buffer stays. Two of the region's input windows read ONE array, the prediction: at entry its points-to is dealt in
   two halves, one per window, and at exit the halves — both still at the entry contents, an input being never written — are
   joined again. The run ends with every unscoped buffer at the last valuation; the frame claim reads the four arguments there. -/
import proofs.«423184_j70815420776931_3_alg».proof.Proof.KI.Body
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays as explicit conjunctions -/

section Arrays

variable (V : (c : Dev nD) → (b : Ref sig .tc) → Buf (Elt F) ((c : Thread nD τ).loc b))

/-- The seven windows sit on six arrays: windows 0 and 1 both read the prediction. -/
theorem image_arr : Finset.univ.image (Pipeline.arrRef spec0)
    = ({main_arg0, main_arg1, main_arg2, main_v4, main_v5_0, main_v5_1} : Finset (Ref sig .tc)) := by decide

/-- The distinct buffers behind the arrays, one by one. -/
theorem arrBufs_chain (c : Dev nD) (U : (b : Ref sig .tc) → Buf (Elt F) ((c : Thread nD τ).loc b)) :
    (Pipeline.arrBufs spec0 c U : sProp 𝕄)
      = iprop((((c : Thread nD τ).loc main_arg0) ↦{fullShare} U main_arg0) ∗ (((c : Thread nD τ).loc main_arg1) ↦{fullShare} U main_arg1)
          ∗ (((c : Thread nD τ).loc main_arg2) ↦{fullShare} U main_arg2) ∗ (((c : Thread nD τ).loc main_v4) ↦{fullShare} U main_v4)
          ∗ (((c : Thread nD τ).loc main_v5_0) ↦{fullShare} U main_v5_0) ∗ (((c : Thread nD τ).loc main_v5_1) ↦{fullShare} U main_v5_1)) := by
  unfold Pipeline.arrBufs
  rw [image_arr, BI.bigSep_insert (by decide), BI.bigSep_insert (by decide), BI.bigSep_insert (by decide),
    BI.bigSep_insert (by decide), BI.bigSep_insert (by decide), BI.bigSep_singleton]
  rfl

/-- The proof data's arrays, one by one: the prediction's two windows at the two halves of its share. -/
theorem arrays_chain (c : Dev nD) (G : (w : Fin cfg0.W) → Buf (Elt F) ((cfg0.win w).arr.view.loc (c : Thread nD τ))) :
    ((dats V 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_arg2) ↦{fullShare} G 3)
          ∗ (((c : Thread nD τ).loc main_v4) ↦{fullShare} G 4)
          ∗ (((c : Thread nD τ).loc main_v5_0) ↦{fullShare} G 5) ∗ (((c : Thread nD τ).loc main_v5_1) ↦{fullShare} G 6)) := by
  have h : ((dats V 0 c).arrays G : sProp 𝕄)
      = bigSep Finset.univ fun w : Fin 7 => (((c : Thread nD τ).loc (Pipeline.arrRef spec0 w)) ↦{(dats V 0 c).share w} G w : sProp 𝕄) := by
    unfold Dat.arrays
    exact bigSep_congr fun w _ => by rw [(arr_whole0 w).set_eq_univ]
  rw [h, bigSep_W0]
  rfl

/-- ENTRY: the core's unscoped buffers at `V` are the region's arrays at their entry contents — the prediction's
    points-to dealt in halves to its two windows — and the rest. -/
theorem entry_split (c : Dev nD) :
    (unscopedBufs c (V c) : sProp 𝕄)
      ⊢ iprop((dats V 0 c).arrays ((dats V 0 c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  iintro ⟨⟨H0, H1, H2, H4, H5, H6⟩, Hr⟩
  ihave H0' := (pointsTo_share (PosShare.mem_left_op_right fullShare)).1 $$ H0
  icases H0' with ⟨H0l, H0r⟩
  isplitr [Hr]
  · isplitl [H0l]; · iexact H0l
    isplitl [H0r]; · iexact H0r
    isplitl [H1]; · iexact H1
    isplitl [H2]; · iexact H2
    isplitl [H4]; · iexact H4
    isplitl [H5]; · iexact H5
    iexact H6
  iexact Hr

/-- EXIT: the arrays at what the pipeline leaves and the rest at `V` are the core's unscoped buffers at any valuation `V'`
    that has the two result arrays at their written-back contents and agrees with `V` everywhere else: an input array is
    never written, so the prediction's two halves are both still at `V`'s contents and join. -/
theorem exit_join (c : Dev nD) (V' : (b : Ref sig .tc) → Buf (Elt F) ((c : Thread nD τ).loc b))
    (h0 : V' main_arg0 = V c main_arg0) (h1 : V' main_arg1 = V c main_arg1) (h2 : V' main_arg2 = V c main_arg2)
    (h4 : V' main_v4 = V c main_v4)
    (h5 : V' main_v5_0 = (dats V 0 c).arrAt 5 cfg0.N) (h6 : V' main_v5_1 = (dats V 0 c).arrAt 6 cfg0.N)
    (hrest : ∀ b, b ∉ Finset.univ.image (Pipeline.arrRef spec0) → V' b = V c b) :
    iprop((dats V 0 c).arrays ((dats V 0 c).arrAt · cfg0.N)
        ∗ Pipeline.unscopedRest (Ix := Unit) (Name := ℕ) (U := UR sig nD τ) (Lvl := ℕ) spec0 c (V c))
      ⊢ (unscopedBufs c V' : sProp 𝕄) := by
  have e0 : (dats V 0 c).arrAt 0 cfg0.N = V c main_arg0 := ((dats V 0 c).arrAt_in 0 rfl _).trans (A_eq V c 0)
  have e1 : (dats V 0 c).arrAt 1 cfg0.N = V c main_arg0 := ((dats V 0 c).arrAt_in 1 rfl _).trans (A_eq V c 1)
  have e2 : (dats V 0 c).arrAt 2 cfg0.N = V c main_arg1 := ((dats V 0 c).arrAt_in 2 rfl _).trans (A_eq V c 2)
  have e3 : (dats V 0 c).arrAt 3 cfg0.N = V c main_arg2 := ((dats V 0 c).arrAt_in 3 rfl _).trans (A_eq V c 3)
  have e4 : (dats V 0 c).arrAt 4 cfg0.N = V c main_v4 := ((dats V 0 c).arrAt_in 4 rfl _).trans (A_eq V c 4)
  have hr : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by rw [hrest b (Finset.mem_sdiff.mp hb).2]
  rw [Pipeline.unscopedBufs_split₀ cfgs 0 winFacts₀0.arr_unscoped c V', arrBufs_chain, arrays_chain, hr, h0, h1, h2, h4, h5, h6]
  simp only [e0, e1, e2, e3, e4]
  iintro ⟨⟨H0l, H0r, H1, H2, H4, H5, H6⟩, Hr⟩
  ihave H0 := (pointsTo_share (PosShare.mem_left_op_right fullShare)).2 $$ [H0l H0r]
  · isplitl [H0l] <;> iassumption
  isplitr [Hr]
  · isplitl [H0]; · iexact H0
    isplitl [H1]; · iexact H1
    isplitl [H2]; · iexact H2
    isplitl [H4]; · iexact H4
    isplitl [H5]; · iexact H5
    iexact H6
  iexact Hr

end Arrays

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same read at the TensorCore's references: what the region's proof data take. -/
abbrev V3 : (c : Dev nD) → (b : Ref sig .tc) → Buf (Elt F) ((c : Thread nD τ).loc b) := fun c b => W3 m ρ c b
/-- At the region's exit: the two result arrays at what the write-backs leave, every other buffer as entered. -/
def W4 (c : Dev nD) : Valuation τ sig (Elt F) :=
  Function.update (Function.update (W3 m ρ c) (Proc.devRef .tc main_v5_0) ((dats (V3 m ρ) 0 c).arrAt 5 cfg0.N))
    (Proc.devRef .tc main_v5_1) ((dats (V3 m ρ) 0 c).arrAt 6 cfg0.N)
theorem W4_v5_0 (c : Dev nD) : W4 m ρ c (Proc.devRef .tc main_v5_0) = (dats (V3 m ρ) 0 c).arrAt 5 cfg0.N := by
  unfold W4
  rw [Function.update_of_ne (StableHlo.devRef_ne_of_ne (by decide)), Function.update_self]
theorem W4_v5_1 (c : Dev nD) : W4 m ρ c (Proc.devRef .tc main_v5_1) = (dats (V3 m ρ) 0 c).arrAt 6 cfg0.N := by
  unfold W4
  rw [Function.update_self]
theorem W4_of_ne (c : Dev nD) (b : Ref sig .tc) (h5 : b ≠ main_v5_0) (h6 : b ≠ main_v5_1) :
    W4 m ρ c (Proc.devRef .tc b) = W3 m ρ c (Proc.devRef .tc b) := by
  unfold W4
  rw [Function.update_of_ne (StableHlo.devRef_ne_of_ne h6), Function.update_of_ne (StableHlo.devRef_ne_of_ne h5)]
abbrev V4 : (c : Dev nD) → (b : Ref sig .tc) → Buf (Elt F) ((c : Thread nD τ).loc b) := fun c b => W4 m ρ c b
/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2`. -/
abbrev W7 : Dev nD → Valuation τ sig (Elt F) := fun c => StableHlo.after hostOps1_2 (W6 m ρ c)
/-- After `hostOps1_3`. -/
abbrev W8 : Dev nD → Valuation τ sig (Elt F) := fun c => StableHlo.after hostOps1_3 (W7 m ρ c)
/-- After `hostOps1_4`. -/
abbrev W9 : Dev nD → Valuation τ sig (Elt F) := fun c => StableHlo.after hostOps1_4 (W8 m ρ c)
/-- After `hostOps1_5`. -/
abbrev W10 : Dev nD → Valuation τ sig (Elt F) := fun c => StableHlo.after hostOps1_5 (W9 m ρ c)
/-- After `hostOps1_6`. -/
abbrev W11 : Dev nD → Valuation τ sig (Elt F) := fun c => StableHlo.after hostOps1_6 (W10 m ρ c)
/-- After `hostOps1_7`. -/
abbrev W12 : Dev nD → Valuation τ sig (Elt F) := fun c => StableHlo.after hostOps1_7 (W11 m ρ c)
/-- After `hostOps1_8`. -/
abbrev W13 : Dev nD → Valuation τ sig (Elt F) := fun c => StableHlo.after hostOps1_8 (W12 m ρ c)

/-! ## No item writes an argument -/

/-- No operation of a stretch writes the buffer: each operation's written set is a singleton of another reference. -/
macro "not_written" : tactic => `(tactic|
  (refine List.forall_iff_forall_mem.mp ?_
   simp only [hostOps0, hostOps0_1, hostOps0_2, hostOps1, hostOps1_1, hostOps1_2, hostOps1_3, hostOps1_4, hostOps1_5, hostOps1_6, hostOps1_7, hostOps1_8, List.Forall, StableHlo.nullary_writes, StableHlo.unary_writes, StableHlo.binary_writes,
     StableHlo.ternary_writes, StableHlo.quaternary_writes, StableHlo.reshape_writes, StableHlo.binaryIndexed_writes, Finset.mem_singleton]
   repeat' apply And.intro
   all_goals exact StableHlo.devRef_ne_of_ne (by decide)))

/-- At the region's entry each argument still holds its launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (by not_written)
    _ = W1 m ρ c (Proc.devRef .tc main_arg1) := StableHlo.after_of_forall_not_mem (b := Proc.devRef .tc main_arg1) _ _ (by not_written)
    _ = W0 m ρ c (Proc.devRef .tc main_arg1) := StableHlo.after_of_forall_not_mem (b := Proc.devRef .tc main_arg1) _ _ (by not_written)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_forall_not_mem (b := Proc.devRef .tc main_arg0) _ _ (by not_written)
    _ = W11 m ρ c (Proc.devRef .tc main_arg0) := StableHlo.after_of_forall_not_mem (b := Proc.devRef .tc main_arg0) _ _ (by not_written)
    _ = W10 m ρ c (Proc.devRef .tc main_arg0) := StableHlo.after_of_forall_not_mem (b := Proc.devRef .tc main_arg0) _ _ (by not_written)
    _ = W9 m ρ c (Proc.devRef .tc main_arg0) := StableHlo.after_of_forall_not_mem (b := Proc.devRef .tc main_arg0) _ _ (by not_written)
    _ = W8 m ρ c (Proc.devRef .tc main_arg0) := StableHlo.after_of_forall_not_mem (b := Proc.devRef .tc main_arg0) _ _ (by not_written)
    _ = W7 m ρ c (Proc.devRef .tc main_arg0) := StableHlo.after_of_forall_not_mem (b := Proc.devRef .tc main_arg0) _ _ (by not_written)
    _ = W6 m ρ c (Proc.devRef .tc main_arg0) := StableHlo.after_of_forall_not_mem (b := Proc.devRef .tc main_arg0) _ _ (by not_written)
    _ = W5 m ρ c (Proc.devRef .tc main_arg0) := StableHlo.after_of_forall_not_mem (b := Proc.devRef .tc main_arg0) _ _ (by not_written)
    _ = W4 m ρ c (Proc.devRef .tc main_arg0) := StableHlo.after_of_forall_not_mem (b := Proc.devRef .tc main_arg0) _ _ (by not_written)
    _ = W3 m ρ c (Proc.devRef .tc main_arg0) := W4_of_ne m ρ c main_arg0 (by decide) (by decide)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_forall_not_mem (b := Proc.devRef .tc main_arg1) _ _ (by not_written)
    _ = W11 m ρ c (Proc.devRef .tc main_arg1) := StableHlo.after_of_forall_not_mem (b := Proc.devRef .tc main_arg1) _ _ (by not_written)
    _ = W10 m ρ c (Proc.devRef .tc main_arg1) := StableHlo.after_of_forall_not_mem (b := Proc.devRef .tc main_arg1) _ _ (by not_written)
    _ = W9 m ρ c (Proc.devRef .tc main_arg1) := StableHlo.after_of_forall_not_mem (b := Proc.devRef .tc main_arg1) _ _ (by not_written)
    _ = W8 m ρ c (Proc.devRef .tc main_arg1) := StableHlo.after_of_forall_not_mem (b := Proc.devRef .tc main_arg1) _ _ (by not_written)
    _ = W7 m ρ c (Proc.devRef .tc main_arg1) := StableHlo.after_of_forall_not_mem (b := Proc.devRef .tc main_arg1) _ _ (by not_written)
    _ = W6 m ρ c (Proc.devRef .tc main_arg1) := StableHlo.after_of_forall_not_mem (b := Proc.devRef .tc main_arg1) _ _ (by not_written)
    _ = W5 m ρ c (Proc.devRef .tc main_arg1) := StableHlo.after_of_forall_not_mem (b := Proc.devRef .tc main_arg1) _ _ (by not_written)
    _ = W4 m ρ c (Proc.devRef .tc main_arg1) := StableHlo.after_of_forall_not_mem (b := Proc.devRef .tc main_arg1) _ _ (by not_written)
    _ = W3 m ρ c (Proc.devRef .tc main_arg1) := W4_of_ne m ρ c main_arg1 (by decide) (by decide)
    _ = W2 m ρ c (Proc.devRef .tc main_arg1) := StableHlo.after_of_forall_not_mem (b := Proc.devRef .tc main_arg1) _ _ (by not_written)
    _ = W1 m ρ c (Proc.devRef .tc main_arg1) := StableHlo.after_of_forall_not_mem (b := Proc.devRef .tc main_arg1) _ _ (by not_written)
    _ = W0 m ρ c (Proc.devRef .tc main_arg1) := StableHlo.after_of_forall_not_mem (b := Proc.devRef .tc main_arg1) _ _ (by not_written)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_forall_not_mem (b := Proc.devRef .tc main_arg2) _ _ (by not_written)
    _ = W11 m ρ c (Proc.devRef .tc main_arg2) := StableHlo.after_of_forall_not_mem (b := Proc.devRef .tc main_arg2) _ _ (by not_written)
    _ = W10 m ρ c (Proc.devRef .tc main_arg2) := StableHlo.after_of_forall_not_mem (b := Proc.devRef .tc main_arg2) _ _ (by not_written)
    _ = W9 m ρ c (Proc.devRef .tc main_arg2) := StableHlo.after_of_forall_not_mem (b := Proc.devRef .tc main_arg2) _ _ (by not_written)
    _ = W8 m ρ c (Proc.devRef .tc main_arg2) := StableHlo.after_of_forall_not_mem (b := Proc.devRef .tc main_arg2) _ _ (by not_written)
    _ = W7 m ρ c (Proc.devRef .tc main_arg2) := StableHlo.after_of_forall_not_mem (b := Proc.devRef .tc main_arg2) _ _ (by not_written)
    _ = W6 m ρ c (Proc.devRef .tc main_arg2) := StableHlo.after_of_forall_not_mem (b := Proc.devRef .tc main_arg2) _ _ (by not_written)
    _ = W5 m ρ c (Proc.devRef .tc main_arg2) := StableHlo.after_of_forall_not_mem (b := Proc.devRef .tc main_arg2) _ _ (by not_written)
    _ = W4 m ρ c (Proc.devRef .tc main_arg2) := StableHlo.after_of_forall_not_mem (b := Proc.devRef .tc main_arg2) _ _ (by not_written)
    _ = W3 m ρ c (Proc.devRef .tc main_arg2) := W4_of_ne m ρ c main_arg2 (by decide) (by decide)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_forall_not_mem (b := Proc.devRef .tc main_arg3) _ _ (by not_written)
    _ = W11 m ρ c (Proc.devRef .tc main_arg3) := StableHlo.after_of_forall_not_mem (b := Proc.devRef .tc main_arg3) _ _ (by not_written)
    _ = W10 m ρ c (Proc.devRef .tc main_arg3) := StableHlo.after_of_forall_not_mem (b := Proc.devRef .tc main_arg3) _ _ (by not_written)
    _ = W9 m ρ c (Proc.devRef .tc main_arg3) := StableHlo.after_of_forall_not_mem (b := Proc.devRef .tc main_arg3) _ _ (by not_written)
    _ = W8 m ρ c (Proc.devRef .tc main_arg3) := StableHlo.after_of_forall_not_mem (b := Proc.devRef .tc main_arg3) _ _ (by not_written)
    _ = W7 m ρ c (Proc.devRef .tc main_arg3) := StableHlo.after_of_forall_not_mem (b := Proc.devRef .tc main_arg3) _ _ (by not_written)
    _ = W6 m ρ c (Proc.devRef .tc main_arg3) := StableHlo.after_of_forall_not_mem (b := Proc.devRef .tc main_arg3) _ _ (by not_written)
    _ = W5 m ρ c (Proc.devRef .tc main_arg3) := StableHlo.after_of_forall_not_mem (b := Proc.devRef .tc main_arg3) _ _ (by not_written)
    _ = W4 m ρ c (Proc.devRef .tc main_arg3) := StableHlo.after_of_forall_not_mem (b := Proc.devRef .tc main_arg3) _ _ (by not_written)
    _ = W3 m ρ c (Proc.devRef .tc main_arg3) := W4_of_ne m ρ c main_arg3 (by decide) (by decide)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

/-! ## The proof data family, the thread state, the segments -/

abbrev adm : (p : Fin 1) → (pcfgs (F := F) p).Adm := fun p => (cfgs p).toPCfg_adm
/-- The one pipeline's proof data at the region's entry contents. -/
def pdats : (p : Fin 1) → (c : Dev nD) → Dat τ (Elt F) Unit ℕ (UR sig nD τ) ℕ (Pipeline.pin (pcfgs (F := F)) adm p) c
  | ⟨0, _⟩ => fun c => dats (V3 m ρ) 0 c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last valuation, the generator register somewhere. -/
abbrev Tₙ (c : Dev nD) : sProp 𝕄 := iprop(StableHlo.held (c : Thread nD τ) (Pipeline.ucRefs τ sig) (W13 m ρ c) ∗ ∃ r, prngReg c r)

set_option backward.isDefEq.respectTransparency.types false in
/-- THE REGION over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit : (unscopedBufs c (V3 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V3 m ρ c)) := entry_split (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V3 m ρ c))
        ⊢ (unscopedBufs c (V4 m ρ c) : sProp 𝕄) := exit_join (V3 m ρ) c (V4 m ρ c)
      (W4_of_ne m ρ c main_arg0 (by decide) (by decide)) (W4_of_ne m ρ c main_arg1 (by decide) (by decide))
      (W4_of_ne m ρ c main_arg2 (by decide) (by decide)) (W4_of_ne m ρ c main_v4 (by decide) (by decide))
      (W4_v5_0 m ρ c) (W4_v5_1 m ρ c)
      (fun b hb => W4_of_ne m ρ c b
        (fun e => hb (Finset.mem_image.mpr ⟨5, Finset.mem_univ _, e.symm⟩)) (fun e => hb (Finset.mem_image.mpr ⟨6, Finset.mem_univ _, e.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .host (hseg hostOps1_5 hostOps1_5_sub hostOps1_5_fresh (W9 m ρ)),
    .host (hseg hostOps1_6 hostOps1_6_sub hostOps1_6_fresh (W10 m ρ)),
    .host (hseg hostOps1_7 hostOps1_7_sub hostOps1_7_fresh (W11 m ρ)),
    .host (hseg hostOps1_8 hostOps1_8_sub hostOps1_8_fresh (W12 m ρ)) ]

/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) (Pipeline.ucRefs τ sig) (W13 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c)⟩) (run_main m ρ)

end Cert.KernelIdeal.Hand

end
-- ==== Proof.Heat.lean ====
/- The heatmap branch: the kernel's stored block at a grid point is the reference's mean, at the two batches the point covers. -/
import proofs.«423184_j70815420776931_3_alg».proof.Proof.Gen.KernelIdeal.Skeleton
import proofs.«423184_j70815420776931_3_alg».proof.Proof.RefReadP
import Idealize.ShloMosaic.Lib.ValueIdx
import Idealize.ShloMosaic.Lib.Pipeline.Value
import Idealize.ShloMosaic.PureOps.Ideal.Laws

noncomputable section

namespace Cert.Bridge.Heat

open Idealize.ShloMosaic Idealize.ShloMosaic.ValueIdx
open scoped BigOperators

/-! ## Finite sums of reals inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Moving the mask across the channel sum: with every entry a real, the mask-weighted sum over rows and columns of the channel
    sums of squares is the sum over channel, row and column of the weighted squares. (Distributivity, which the extended reals
    have only on finite values: the real witnesses are chosen, the sums taken in the reals, and the coercion put back.) -/
theorem weighted_sum_comm {J H W : Type*} [Fintype J] [Fintype H] [Fintype W]
    (d : J → H → W → EReal) (k : H → W → EReal)
    (hd : ∀ j h w, ∃ r : ℝ, d j h w = (r : EReal)) (hk : ∀ h w, ∃ r : ℝ, k h w = (r : EReal)) :
    ∑ h, ∑ w, (∑ j, d j h w * d j h w) * k h w = ∑ j, ∑ h, ∑ w, (d j h w * d j h w) * k h w := by
  choose dr hdr using hd
  choose kr hkr using hk
  have e1 : ∀ h w, (∑ j, d j h w * d j h w) * k h w = ((∑ j, dr j h w * dr j h w * kr h w : ℝ) : EReal) := by
    intro h w
    simp only [hdr, hkr, ← EReal.coe_mul, ← coe_sum, Finset.sum_mul]
  have e2 : ∀ j h w, (d j h w * d j h w) * k h w = ((dr j h w * dr j h w * kr h w : ℝ) : EReal) := by
    intro j h w
    simp only [hdr, hkr, ← EReal.coe_mul]
  simp only [e1, e2, ← coe_sum]
  congr 1
  rw [Finset.sum_comm (s := (Finset.univ : Finset J))]
  refine Finset.sum_congr rfl fun h _ => ?_
  rw [Finset.sum_comm]

/-! ## Sums over one and several axes read at an index -/

/-- A vector sum over the channels of a [2, 17, 256, 256] vector, read at (b, p, q): the sum over the channel coordinate. -/
theorem reduceAdd_chan (h : (⟨4, ![2, 17, 256, 256]⟩ : Shape).Reduces [1] ⟨3, ![2, 256, 256]⟩)
    (x : (⟨4, ![2, 17, 256, 256]⟩ : Shape).Idx → EReal) (b : Fin 2) (p q : Fin 256) :
    Ideal.reduceAdd h x (ix3 b p q) = ∑ j : Fin 17, x (ix4 b j p q) := by
  refine (Ideal.reduceAdd_single h x (ix3 b p q)).trans (Finset.sum_congr rfl fun j _ => congrArg x ?_)
  funext c
  apply Fin.ext
  match c with
  | ⟨0, _⟩ => rfl
  | ⟨1, _⟩ => rfl
  | ⟨2, _⟩ => rfl
  | ⟨3, _⟩ => rfl

/-- A vector sum over the rows and columns of a [2, 256, 256] vector, read at a batch: the double sum over the two dropped
    coordinates. -/
theorem reduceAdd_rows_cols (h : (⟨3, ![2, 256, 256]⟩ : Shape).Reduces [1, 2] ⟨1, ![2]⟩)
    (x : (⟨3, ![2, 256, 256]⟩ : Shape).Idx → EReal) (b : Fin 2) :
    Ideal.reduceAdd h x (ix1 b) = ∑ p : Fin 256, ∑ q : Fin 256, x (ix3 b p q) := by
  have key : ∀ i : (⟨3, ![2, 256, 256]⟩ : Shape).Idx, h.drop i = ix1 b → ix3 b (i 1) (i 2) = i := by
    intro i hi
    have h0 : (i (0 : Fin 3)).val = b.val :=
      (h.drop_apply_val_of_eq i (0 : Fin 1) (0 : Fin 3)).symm.trans
        (congrArg (fun f : (⟨1, ![2]⟩ : Shape).Idx => (f 0).val) hi)
    funext c
    apply Fin.ext
    match c with
    | ⟨0, _⟩ => exact h0.symm
    | ⟨1, _⟩ => rfl
    | ⟨2, _⟩ => rfl
  unfold Ideal.reduceAdd
  refine (Finset.sum_nbij' (t := (Finset.univ : Finset (Fin 256 × Fin 256))) (g := fun t => x (ix3 b t.1 t.2))
    (fun i => (i 1, i 2)) (fun t => ix3 b t.1 t.2) ?_ ?_ ?_ ?_ ?_).trans (Fintype.sum_prod_type _)
  · intro i _; exact Finset.mem_univ _
  · intro t _
    refine Finset.mem_filter.2 ⟨Finset.mem_univ _, ?_⟩
    funext c
    apply Fin.ext
    match c with
    | ⟨0, _⟩ => exact h.drop_apply_val_of_eq (ix3 b t.1 t.2) (0 : Fin 1) (0 : Fin 3)
  · intro i hi; exact key i (Finset.mem_filter.1 hi).2
  · intro t _; rfl
  · intro i hi; exact congrArg x (key i (Finset.mem_filter.1 hi).2).symm

/-- The host's sum over the channels, rows and columns of a [16, 17, 256, 256] array, read at a batch: the initial value plus
    the triple sum over the three dropped coordinates. -/
theorem hostReduceAdd_chan_rows_cols (h : (⟨4, ![16, 17, 256, 256]⟩ : Shape).ReducesTo [1, 2, 3] ⟨1, ![16]⟩)
    (x : (⟨4, ![16, 17, 256, 256]⟩ : Shape).Idx → EReal) (init : EReal) (B : Fin 16) :
    Ideal.hostReduceAdd h x init (ix1 B) = init + ∑ j : Fin 17, ∑ p : Fin 256, ∑ q : Fin 256, x (ix4 B j p q) := by
  have key : ∀ i : (⟨4, ![16, 17, 256, 256]⟩ : Shape).Idx, h.drop i = ix1 B → ix4 B (i 1) (i 2) (i 3) = i := by
    intro i hi
    have h0 : (i (0 : Fin 4)).val = B.val :=
      (h.drop_apply_val_of_eq i (0 : Fin 1) (0 : Fin 4)).symm.trans
        (congrArg (fun f : (⟨1, ![16]⟩ : Shape).Idx => (f 0).val) hi)
    funext c
    apply Fin.ext
    match c with
    | ⟨0, _⟩ => exact h0.symm
    | ⟨1, _⟩ => rfl
    | ⟨2, _⟩ => rfl
    | ⟨3, _⟩ => rfl
  have e3 : ∑ t : Fin 17 × Fin 256 × Fin 256, x (ix4 B t.1 t.2.1 t.2.2)
      = ∑ j : Fin 17, ∑ p : Fin 256, ∑ q : Fin 256, x (ix4 B j p q) :=
    (Fintype.sum_prod_type _).trans (Finset.sum_congr rfl fun j _ => Fintype.sum_prod_type _)
  unfold Ideal.hostReduceAdd
  refine congrArg (fun s => init + s) ((Finset.sum_nbij' (t := (Finset.univ : Finset (Fin 17 × Fin 256 × Fin 256)))
    (g := fun t => x (ix4 B t.1 t.2.1 t.2.2))
    (fun i => (i 1, i 2, i 3)) (fun t => ix4 B t.1 t.2.1 t.2.2) ?_ ?_ ?_ ?_ ?_).trans e3)
  · intro i _; exact Finset.mem_univ _
  · intro t _
    refine Finset.mem_filter.2 ⟨Finset.mem_univ _, ?_⟩
    funext c
    apply Fin.ext
    match c with
    | ⟨0, _⟩ => exact h.drop_apply_val_of_eq (ix4 B t.1 t.2.1 t.2.2) (0 : Fin 1) (0 : Fin 4)
  · intro i hi; exact key i (Finset.mem_filter.1 hi).2
  · intro t _; rfl
  · intro i hi; exact congrArg x (key i (Finset.mem_filter.1 hi).2).symm

/-! ## The scalar per batch spread over the lanes -/

/-- A [2] vector cast to [2, 1, 1] (twice) and broadcast to [2, 1, 128] reads, in every lane of row b, the vector at b. -/
theorem lanes_of_batch {α : Type} (v : (⟨1, ![2]⟩ : Shape).Idx → α)
    (h1 : (⟨1, ![2]⟩ : Shape).ShapeCasts ⟨3, ![2, 1, 1]⟩) (h2 : (⟨3, ![2, 1, 1]⟩ : Shape).ShapeCasts ⟨3, ![2, 1, 1]⟩)
    (h3 : (⟨3, ![2, 1, 1]⟩ : Shape).Broadcasts ⟨3, ![2, 1, 128]⟩) (b : Fin 2) (l : Fin 128) :
    broadcastTo ⟨3, ![2, 1, 128]⟩ (shapeCast ⟨3, ![2, 1, 1]⟩ (shapeCast ⟨3, ![2, 1, 1]⟩ v h1) h2) h3 (ix3 b (0 : Fin 1) l)
      = v (ix1 b) := by
  rw [shapeCast_self]
  refine (broadcastTo_apply _ h3 (ix3 b (0 : Fin 1) l) (ix3 b (0 : Fin 1) (0 : Fin 1)) ?_).trans ?_
  · intro a
    match a with
    | ⟨0, _⟩ => show b.val = if (2 : Nat) = 1 then 0 else b.val; rw [if_neg (by decide)]
    | ⟨1, _⟩ => show (0 : Nat) = if (1 : Nat) = 1 then 0 else _; rw [if_pos rfl]
    | ⟨2, _⟩ => show (0 : Nat) = if (1 : Nat) = 1 then 0 else _; rw [if_pos rfl]
  · refine shapeCast_apply v h1 _ (ix1 b) ?_
    rw [Shape.rowMajor_val_one, Shape.rowMajor_val_three]
    show b.val = (b.val * 1 + 0) * 1 + 0
    omega

/-! ## The kernel's block and the reference's mean, each read at an index -/

/-- The kernel's stored block at row b, in any lane: the mask-weighted sum over rows and columns of the channel sums of squared
    differences, divided by the element count. -/
theorem kernel_value (x0 x2 : Vec Ideal Cert.KernelIdeal.S2x17x256x256 .f32) (x3 : Vec Ideal Cert.KernelIdeal.S2x256x256 .f32)
    (b : Fin 2) (l : Fin 128) :
    Cert.KernelIdeal.Gen.k0_pay2 (F := Ideal) x0 x2 x3 (ix3 b (0 : Fin 1) l)
      = Ideal.div (∑ p : Fin 256, ∑ q : Fin 256,
          (∑ j : Fin 17, (x0 (ix4 b j p q) - x2 (ix4 b j p q)) * (x0 (ix4 b j p q) - x2 (ix4 b j p q))) * x3 (ix3 b p q))
        (Ideal.ofBits .f32 0x49880000#32) := by
  unfold Cert.KernelIdeal.Gen.k0_pay2
  refine (lanes_of_batch _ _ _ _ b l).trans ?_
  rw [divf_apply, broadcast_apply, Ideal.ofBits_def]
  congr 1
  refine (reduceAdd_rows_cols _ _ b).trans ?_
  refine Finset.sum_congr rfl fun p _ => Finset.sum_congr rfl fun q _ => ?_
  rw [mulf_apply]
  congr 1
  exact reduceAdd_chan _ (mulf (subf x0 x2) (subf x0 x2) : FVec Ideal Cert.KernelIdeal.S2x17x256x256 .f32) b p q

/-- The reference's mean at batch B: the sum over channel, row and column of the mask-weighted squared differences, divided by
    the element count. -/
theorem reference_value (y : FVec Ideal Cert.ReferenceIdeal.S16x34x256x256 .f32)
    (g : FVec Ideal Cert.ReferenceIdeal.S16x17x256x256 .f32) (k : FVec Ideal Cert.ReferenceIdeal.S16x256x256 .f32) (B : Fin 16) :
    Cert.ReferenceIdeal.ReadP.val_main_v8 (F := Ideal) y g k (ix1 B)
      = Ideal.div (∑ j : Fin 17, ∑ p : Fin 256, ∑ q : Fin 256,
          ((y (ix4 B (⟨j.val, by omega⟩ : Fin 34) p q) - g (ix4 B j p q))
            * (y (ix4 B (⟨j.val, by omega⟩ : Fin 34) p q) - g (ix4 B j p q))) * k (ix3 B p q))
        (Ideal.ofBits .f32 0x49880000#32) := by
  have i0 : ∀ (j : Fin 17) (p q : Fin 256),
      Cert.ReferenceIdeal.ReadP.idx_main_v0 (ix4 B j p q) = ix4 B (⟨j.val, by omega⟩ : Fin 34) p q := by
    intro j p q
    funext a
    apply Fin.ext
    match a with
    | ⟨0, _⟩ => rfl
    | ⟨1, _⟩ => rfl
    | ⟨2, _⟩ => rfl
    | ⟨3, _⟩ => rfl
  have i3 : ∀ (j : Fin 17) (p q : Fin 256),
      Cert.ReferenceIdeal.ReadP.idx_main_v3 (Cert.ReferenceIdeal.ReadP.idx_main_v4 (ix4 B j p q)) = ix3 B p q := by
    intro j p q
    funext a
    apply Fin.ext
    match a with
    | ⟨0, _⟩ => rfl
    | ⟨1, _⟩ => rfl
    | ⟨2, _⟩ => rfl
  rw [Cert.ReferenceIdeal.ReadP.val_main_v8_apply, Cert.ReferenceIdeal.ReadP.val_main_v7_apply,
    Cert.ReferenceIdeal.ReadP.val_main_cst_0_apply, Ideal.hostDivf_def, Ideal.ofBits_def]
  congr 1
  unfold Cert.ReferenceIdeal.ReadP.val_main_v6
  refine (hostReduceAdd_chan_rows_cols _ _ _ B).trans ?_
  rw [Cert.ReferenceIdeal.ReadP.val_main_cst_apply, Ideal.ofBits_def, Ideal.ofBits_zero_f32, zero_add]
  refine Finset.sum_congr rfl fun j _ => Finset.sum_congr rfl fun p _ => Finset.sum_congr rfl fun q _ => ?_
  rw [Cert.ReferenceIdeal.ReadP.val_main_v5_apply, Cert.ReferenceIdeal.ReadP.val_main_v2_apply,
    Cert.ReferenceIdeal.ReadP.val_main_v1_apply, Cert.ReferenceIdeal.ReadP.val_main_v0_apply,
    Cert.ReferenceIdeal.ReadP.val_main_v4_apply, Cert.ReferenceIdeal.ReadP.val_main_v3_apply, i0, i3]
  rfl

/-! ## The bridge -/

/-- At grid point `t` the body's first store holds, in every lane of row `b`, the reference's heatmap loss of batch `2 t + b`:
    the inputs' blocks `x0 x2 x3` are rows `2 t`, `2 t + 1` of the prediction's first 17 channels, the target and the mask. -/
theorem heat_eq
    (y : FVec Ideal Cert.ReferenceIdeal.S16x34x256x256 .f32) (g : FVec Ideal Cert.ReferenceIdeal.S16x17x256x256 .f32)
    (k : FVec Ideal Cert.ReferenceIdeal.S16x256x256 .f32)
    (hy : ∀ i, ∃ r : ℝ, y i = (r : EReal)) (hg : ∀ i, ∃ r : ℝ, g i = (r : EReal)) (hk : ∀ i, ∃ r : ℝ, k i = (r : EReal))
    (t : Fin 8)
    (x0 x2 : Vec Ideal Cert.KernelIdeal.S2x17x256x256 .f32) (x3 : Vec Ideal Cert.KernelIdeal.S2x256x256 .f32)
    (h0 : ∀ (b : Fin 2) (j : Fin 17) (h w : Fin 256),
      x0 (ix4 b j h w) = y (ix4 (⟨2 * t.val + b.val, by omega⟩ : Fin 16) (⟨j.val, by omega⟩ : Fin 34) h w))
    (h2 : ∀ (b : Fin 2) (j : Fin 17) (h w : Fin 256), x2 (ix4 b j h w) = g (ix4 (⟨2 * t.val + b.val, by omega⟩ : Fin 16) j h w))
    (h3 : ∀ (b : Fin 2) (h w : Fin 256), x3 (ix3 b h w) = k (ix3 (⟨2 * t.val + b.val, by omega⟩ : Fin 16) h w))
    (b : Fin 2) (l : Fin 128) :
    Cert.KernelIdeal.Gen.k0_pay2 (F := Ideal) x0 x2 x3 (ix3 b (0 : Fin 1) l)
      = Cert.ReferenceIdeal.ReadP.val_main_v8 (F := Ideal) y g k (ix1 (⟨2 * t.val + b.val, by omega⟩ : Fin 16)) := by
  rw [kernel_value, reference_value]
  congr 1
  simp only [h0, h2, h3]
  refine weighted_sum_comm
    (fun (j : Fin 17) (p q : Fin 256) =>
      y (ix4 (⟨2 * t.val + b.val, by omega⟩ : Fin 16) (⟨j.val, by omega⟩ : Fin 34) p q)
        - g (ix4 (⟨2 * t.val + b.val, by omega⟩ : Fin 16) j p q))
    (fun p q => k (ix3 (⟨2 * t.val + b.val, by omega⟩ : Fin 16) p q)) ?_ ?_
  · intro j p q
    obtain ⟨a, ha⟩ := hy (ix4 (⟨2 * t.val + b.val, by omega⟩ : Fin 16) (⟨j.val, by omega⟩ : Fin 34) p q)
    obtain ⟨c, hc⟩ := hg (ix4 (⟨2 * t.val + b.val, by omega⟩ : Fin 16) j p q)
    refine ⟨a - c, ?_⟩
    rw [EReal.coe_sub, ← ha, ← hc]
  · intro p q
    exact hk _

end Cert.Bridge.Heat

end
-- ==== Proof.LibGather.lean ====
/-
  General lemmas about 32-bit index words and about three shape operations read at an index; nothing here names a
  program.

  * Words. A word whose signed value lies in [0, 100000) has the same value unsigned; its signed comparisons with
    small constants are comparisons of values; the signed maximum and minimum have the larger and smaller signed value;
    subtracting a constant at most 100000 from a word below 100000 does not wrap; so the clipped offset
    min (hi, max (0, v − lo)) is a value in [0, hi], and is v − lo when lo ≤ v ≤ lo + hi.
  * A cast that appends a unit axis, [a, b] → [a, b, 1], reads (i, j, 0) at (i, j).
  * A conjunction-reduce over the unit last axis of a [B, C, 1] mask is, at (b, c), the conjunction of the entry
    (b, c, 0) with the initial value.
  * The row-wise take, a gather of a [B, N] operand at [B, C, 1] start indices whose first axes are paired batching
    axes, reads at (b, c) row b of the operand at the start index, signed and clamped into [0, N − 1].
  * The take-along-the-second-axis pattern built from them: a non-negative index word is laid out unchanged, the
    in-bounds mask of an index in [0, k] is set, and the select of mask, gather and filler is the operand's entry.
-/
import Idealize.ShloMosaic.Lib.ValueIdx
import Idealize.ShloMosaic.Lib.Pipeline.Value
import Idealize.ShloMosaic.Lib.Affine
import Idealize.ShloMosaic.Lib.StableHlo.Predicate

noncomputable section

open Idealize.ShloMosaic Idealize.ShloMosaic.ValueIdx
open Idealize.ShloMosaic.StableHlo.Predicate

namespace Cert.LibGather

/-! ## Words

A 32-bit word whose signed value lies in [0, 100000) reads the same signed and unsigned, and its signed comparisons
with small constants are the comparisons of the values. -/

/-- A word with signed value in [0, 100000) has that value unsigned as well. -/
theorem toNat_of_range (v : BitVec 32) (h0 : 0 ≤ v.toInt) (h1 : v.toInt < 100000) :
    v.toNat < 100000 ∧ v.toInt = v.toNat := by
  have hlt := v.isLt
  rw [BitVec.toInt_eq_toNat_cond] at h0 h1 ⊢
  split at h0 <;> split <;> omega

/-- A constant below 2³¹ is the value of its word. -/
theorem toNat_ofNat_small (c : Nat) (hc : c < 2 ^ 31) : (BitVec.ofNat 32 c).toNat = c := by
  rw [BitVec.toNat_ofNat]; exact Nat.mod_eq_of_lt (by omega)

/-- Signed ≥ against a small constant is ≥ of the values. -/
theorem sge_const (v : BitVec 32) (hv : v.toNat < 2 ^ 31) (c : Nat) (hc : c < 2 ^ 31) :
    IntOp.cmpi .sge v (BitVec.ofNat 32 c) = 1#1 ↔ c ≤ v.toNat := by
  rw [sge_iff_toNat hv (by rw [toNat_ofNat_small c hc]; exact hc), toNat_ofNat_small c hc]

/-- Signed < against a small constant is < of the values. -/
theorem slt_const (v : BitVec 32) (hv : v.toNat < 2 ^ 31) (c : Nat) (hc : c < 2 ^ 31) :
    IntOp.cmpi .slt v (BitVec.ofNat 32 c) = 1#1 ↔ v.toNat < c := by
  rw [slt_iff_toNat hv (by rw [toNat_ofNat_small c hc]; exact hc), toNat_ofNat_small c hc]

/-- Signed ≤ against a small constant is ≤ of the values. -/
theorem sle_const (v : BitVec 32) (hv : v.toNat < 2 ^ 31) (c : Nat) (hc : c < 2 ^ 31) :
    IntOp.cmpi .sle v (BitVec.ofNat 32 c) = 1#1 ↔ v.toNat ≤ c := by
  rw [sle_iff_toNat hv (by rw [toNat_ofNat_small c hc]; exact hc), toNat_ofNat_small c hc]

/-- The signed maximum of two words has the larger signed value. -/
theorem toInt_maxsi (a y : BitVec 32) : (IntOp.maxsi a y).toInt = max a.toInt y.toInt := by
  unfold IntOp.maxsi
  split <;> rename_i hc <;> simp only [BitVec.slt, decide_eq_true_eq] at hc <;> omega

/-- The signed minimum of two words has the smaller signed value. -/
theorem toInt_minsi (a y : BitVec 32) : (IntOp.minsi a y).toInt = min a.toInt y.toInt := by
  unfold IntOp.minsi
  split <;> rename_i hc <;> simp only [BitVec.slt, decide_eq_true_eq] at hc <;> omega

/-- The difference of a word below 100000 and a constant at most 100000 has the difference of the values as its
    signed value: no wrap. -/
theorem toInt_subi_const (v : BitVec 32) (lo : Nat) (hv : v.toNat < 100000) (hlo : lo ≤ 100000) :
    (IntOp.subi v (BitVec.ofNat 32 lo)).toInt = (v.toNat : Int) - lo := by
  unfold IntOp.subi
  have hln : (BitVec.ofNat 32 lo).toNat = lo := toNat_ofNat_small lo (by omega)
  rw [BitVec.toInt_eq_toNat_cond, BitVec.toNat_sub, hln]
  have e : (2 : Nat) ^ 32 = 4294967296 := by norm_num
  rw [e]
  split <;> rename_i hc <;> omega

/-- The offset of v inside the range that starts at lo, clipped into [0, hi1]. -/
def clipW (v : BitVec 32) (lo hi1 : Nat) : BitVec 32 :=
  IntOp.minsi (BitVec.ofNat 32 hi1) (IntOp.maxsi (BitVec.ofNat 32 0) (IntOp.subi v (BitVec.ofNat 32 lo)))

/-- The clipped offset's signed value: min (hi1, max (0, v − lo)) over the integers. -/
theorem toInt_clipW (v : BitVec 32) (lo hi1 : Nat) (hv : v.toNat < 100000) (hlo : lo ≤ 100000) (hhi : hi1 < 100000) :
    (clipW v lo hi1).toInt = min (hi1 : Int) (max 0 ((v.toNat : Int) - lo)) := by
  unfold clipW
  rw [toInt_minsi, toInt_maxsi, toInt_subi_const v lo hv hlo, toInt_ofNat_small hi1 (by omega), toInt_ofNat_small 0 (by omega)]
  rfl

/-- The clipped offset is a value in [0, hi1], and is the offset itself when v lies in [lo, lo + hi1]. -/
theorem clipW_spec (v : BitVec 32) (lo hi1 : Nat) (hv : v.toNat < 100000) (hlo : lo ≤ 100000) (hhi : hi1 < 100000) :
    (clipW v lo hi1).toNat ≤ hi1 ∧ (lo ≤ v.toNat → v.toNat ≤ lo + hi1 → (clipW v lo hi1).toNat = v.toNat - lo) := by
  have h := toInt_clipW v lo hi1 hv hlo hhi
  have hlt := (clipW v lo hi1).isLt
  rw [BitVec.toInt_eq_toNat_cond] at h
  have e : (2 : Nat) ^ 32 = 4294967296 := by norm_num
  rw [e] at h
  split at h <;> constructor <;> omega

/-! ## Three shape operations read at an index -/

section Reads
variable {α : Type}

/-- An [a, b] array cast to [a, b, 1] reads, at (i, j, u), the operand at (i, j): the two indices have the same
    row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

end Reads

section Reads2
variable {α : Type}

/-- The dimension numbers of a row-wise take: operand [B, N], start indices [B, C, 1], result [B, C]; the operand's
    first axis and the start indices' first axis are the paired batching axes, the operand's second axis is collapsed
    and start-indexed, the index vector lies on the start indices' last axis, and there are no offset axes. -/
abbrev rowTakeDims (B N C : Nat)
    (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

/-- The row-wise take read at (b, c): row b of the operand at the start index idx[b, c, 0], read signed and clamped
    into [0, N − 1]. On the batching axis the operand coordinate is the result's own row; on the collapsed axis it is the
    clamped start. -/
theorem gather_rowTake_apply {B N C w : Nat} (hN : 0 < N)
    (wf : GatherDims.WF ⟨2, ![B, N]⟩ ⟨3, ![B, C, 1]⟩ ⟨2, ![B, C]⟩ [] [1] [0] [1] [0] 2 ![1, 1])
    (x : (⟨2, ![B, N]⟩ : Shape).Idx → α) (idx : IVec ⟨3, ![B, C, 1]⟩ w) (b : Fin B) (c : Fin C) :
    Host.gather (rowTakeDims B N C wf) x idx (ix2 b c)
      = x (ix2 b ⟨min (idx (ix3 b c (0 : Fin 1))).toInt.toNat (N - 1), by omega⟩) := by
  unfold Host.gather
  congr 1
  funext a
  refine Fin.ext ?_
  match a with
  | ⟨0, _⟩ =>
    show (rowTakeDims B N C wf).start (ix2 b c) idx 0 + (rowTakeDims B N C wf).batchCoord (ix2 b c) 0
      + (rowTakeDims B N C wf).offCoord (ix2 b c) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (rowTakeDims B N C wf).start (ix2 b c) idx 1 + (rowTakeDims B N C wf).batchCoord (ix2 b c) 1
      + (rowTakeDims B N C wf).offCoord (ix2 b c) 1 = min (idx (ix3 b c (0 : Fin 1))).toInt.toNat (N - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims B N C wf).startIndexMap from List.mem_singleton.mpr rfl)]
    have hsi : (rowTakeDims B N C wf).siIdx (ix2 b c) ⟨List.idxOf (1 : Fin 2) (rowTakeDims B N C wf).startIndexMap,
        List.idxOf_lt_length_iff.2 (List.mem_singleton.mpr rfl)⟩ = ix3 b c (0 : Fin 1) := by
      funext e; refine Fin.ext ?_
      match e with
      | ⟨0, _⟩ => rfl
      | ⟨1, _⟩ => rfl
      | ⟨2, _⟩ => rfl
    rw [hsi]
    rfl

end Reads2

/-- Dropping the unit last axis of [B, C, 1] leaves [B, C]. -/
theorem reduces_unit_last (B C : Nat) : (⟨3, ![B, C, 1]⟩ : Shape).Reduces [2] ⟨2, ![B, C]⟩ :=
  ⟨rfl, Nat.zero_lt_two, fun b => match b with | ⟨0, _⟩ => rfl | ⟨1, _⟩ => rfl⟩

/-- A conjunction-reduce over the unit last axis of a [B, C, 1] mask reads, at (b, c), the conjunction of the one
    entry (b, c, 0) with the initial value: the last axis has the single coordinate 0. -/
theorem reduce_andi_unit_apply {B C : Nat} {u : Shape} (x : IVec ⟨3, ![B, C, 1]⟩ 1) (init : IVec u 1)
    (h' : (⟨3, ![B, C, 1]⟩ : Shape).ReducesTo [2] ⟨2, ![B, C]⟩) (hu : 0 < u.numel) (b : Fin B) (c : Fin C) :
    Host.reduce IntOp.andi x init h' hu (ix2 b c) = IntOp.andi (x (ix3 b c (0 : Fin 1))) (init (Shape.Idx.first hu)) := by
  have h := reduces_unit_last B C
  rw [Host.reduce_eq_fold_single IntOp.andi x init h' h hu (ix2 b c)]
  have key : ∀ (n : Nat) (hn : n = 1) (g : Fin n → BitVec 1) (i0 : BitVec 1),
      (Finset.univ : Finset (Fin n)).fold IntOp.andi i0 g = IntOp.andi (g ⟨0, by omega⟩) i0 := by
    intro n hn g i0; subst hn; rw [Finset.univ_unique, Finset.fold_singleton]; rfl
  refine (key _ rfl _ _).trans ?_
  show IntOp.andi (x (h.lift (ix2 b c) ⟨0, _⟩)) _ = _
  congr 2
  funext e; refine Fin.ext ?_
  match e with
  | ⟨0, _⟩ => rfl
  | ⟨1, _⟩ => rfl
  | ⟨2, _⟩ => rfl

/-! ## Taking along the second axis: the three steps at one entry -/

section TakeAlong
variable {α : Type}

/-- WRAP. Where the index word is below 2³¹ it is not negative, so the select between the index plus the axis length and
    the index keeps the index, and the cast to [B, C, 1] reads it at (b, c, u). The vector of zeros it is compared with
    enters only through its entry at (b, c). -/
theorem wrap_nonneg_apply {B C : Nat} (x z nn : IVec ⟨2, ![B, C]⟩ 32)
    (h : (⟨2, ![B, C]⟩ : Shape).ShapeCasts ⟨3, ![B, C, 1]⟩) (b : Fin B) (c : Fin C) (u : Fin 1)
    (hz : z (ix2 b c) = BitVec.ofNat 32 0) (hx : (x (ix2 b c)).toNat < 2 ^ 31) :
    shapeCast ⟨3, ![B, C, 1]⟩ (select (cmpi .slt x z) (addi x nn) x) h (ix3 b c u) = x (ix2 b c) := by
  rw [shapeCast_ab_ab1_apply _ _ b c u, select_apply]
  have h0 : cmpi .slt x z (ix2 b c) = 0#1 := eq_zero_of_ne_one (fun hh => by
    have hh' : IntOp.cmpi .slt (x (ix2 b c)) (BitVec.ofNat 32 0) = 1#1 := by rw [← hz]; exact hh
    have := (slt_const _ hx 0 (by norm_num)).mp hh'; omega)
  rw [h0, select_zero]

/-- IN BOUNDS. Where the start index at (b, c, 0) has a value in [0, k], both comparisons hold there, and the
    conjunction-reduce over the unit axis from the initial 1 is 1 at (b, c). The two vectors of bounds enter only
    through their entries at (b, c, 0). -/
theorem inb_unit_apply {B C : Nat} {u : Shape} (k : Nat) (hk : k < 2 ^ 31) (y z0 zk : IVec ⟨3, ![B, C, 1]⟩ 32)
    (init : IVec u 1) (h' : (⟨3, ![B, C, 1]⟩ : Shape).ReducesTo [2] ⟨2, ![B, C]⟩) (hu : 0 < u.numel) (b : Fin B)
    (c : Fin C) (hz0 : z0 (ix3 b c (0 : Fin 1)) = BitVec.ofNat 32 0) (hzk : zk (ix3 b c (0 : Fin 1)) = BitVec.ofNat 32 k)
    (hinit : init (Shape.Idx.first hu) = 1#1) (hy : (y (ix3 b c (0 : Fin 1))).toNat ≤ k) :
    Host.reduce IntOp.andi (andi (cmpi .sge y z0) (cmpi .sle y zk)) init h' hu (ix2 b c) = 1#1 := by
  have hy' : (y (ix3 b c (0 : Fin 1))).toNat < 2 ^ 31 := by omega
  rw [reduce_andi_unit_apply, IntOp.andi_eq_one]
  refine ⟨?_, hinit⟩
  show IntOp.andi (IntOp.cmpi .sge (y (ix3 b c (0 : Fin 1))) (z0 (ix3 b c (0 : Fin 1))))
    (IntOp.cmpi .sle (y (ix3 b c (0 : Fin 1))) (zk (ix3 b c (0 : Fin 1)))) = 1#1
  rw [hz0, hzk, IntOp.andi_eq_one, sge_const _ hy' 0 (by norm_num), sle_const _ hy' k hk]
  exact ⟨Nat.zero_le _, hy⟩

/-- TAKE. Where the mask is set at (b, c) and the start index at (b, c, 0) has a value below N, the select of the mask,
    the row-wise take and a filler is row b of the operand at that value: the clamp into [0, N − 1] does nothing. -/
theorem select_gather_rowTake_apply {B N C : Nat} (hN : N ≤ 2 ^ 31)
    (wf : GatherDims.WF ⟨2, ![B, N]⟩ ⟨3, ![B, C, 1]⟩ ⟨2, ![B, C]⟩ [] [1] [0] [1] [0] 2 ![1, 1])
    (A : (⟨2, ![B, N]⟩ : Shape).Idx → α) (idx : IVec ⟨3, ![B, C, 1]⟩ 32) (mask : IVec ⟨2, ![B, C]⟩ 1)
    (filler : (⟨2, ![B, C]⟩ : Shape).Idx → α) (b : Fin B) (c : Fin C) (hm : mask (ix2 b c) = 1#1)
    (hlt : (idx (ix3 b c (0 : Fin 1))).toNat < N) :
    select mask (Host.gather (rowTakeDims B N C wf) A idx) filler (ix2 b c)
      = A (ix2 b ⟨(idx (ix3 b c (0 : Fin 1))).toNat, hlt⟩) := by
  rw [select_apply, hm, select_one, gather_rowTake_apply (B := B) (N := N) (C := C) (by omega) wf A idx b c]
  exact congrArg (fun q => A (ix2 b q)) (Fin.ext (by
    show min (idx (ix3 b c (0 : Fin 1))).toInt.toNat (N - 1) = (idx (ix3 b c (0 : Fin 1))).toNat
    rw [toInt_eq_toNat_of_lt (by omega)]; omega))

end TakeAlong

end Cert.LibGather

end
-- ==== Proof.Tags.lean ====
/- The tag branch: the kernel's one-hot row select and column select at a location word is the reference's take along
   the flattened tag map, for a location below 65536 (inside the first tag channel). -/
import proofs.«423184_j70815420776931_3_alg».proof.Proof.Gen.KernelIdeal.Skeleton
import proofs.«423184_j70815420776931_3_alg».proof.Proof.RefReadP
import proofs.«423184_j70815420776931_3_alg».proof.Proof.LibGather
import Idealize.ShloMosaic.Lib.ValueIdx
import Idealize.ShloMosaic.Lib.Pipeline.Value
import Idealize.ShloMosaic.Lib.StableHlo.Predicate
import Idealize.ShloMosaic.PureOps.Ideal.Laws

noncomputable section

namespace Cert.Bridge.Tags

/-! # The reference: the take along the flattened tag map at a location below 65536 -/

section Reference

open Idealize.ShloMosaic Idealize.ShloMosaic.ValueIdx Cert.ReferenceIdeal Cert.ReferenceIdeal.Gen
open Cert.ReferenceIdeal.ReadP Cert.LibGather

/-- The index array laid [16, 510]: entry (B, 17 p + q) is the location word of batch B, person p, joint q. -/
theorem loc_apply (jt : IVec S16x30x17x2 32) (B : Fin 16) (p : Fin 30) (q : Fin 17) :
    val_main_v18 (F := Ideal) jt (ix2 B (⟨17 * p.val + q.val, by omega⟩ : Fin 510)) = jt (ix4 B p q (0 : Fin 2)) := by
  have hB := B.isLt
  have hp := p.isLt
  have hq := q.isLt
  have e18 : idx_main_v18 (ix2 B (⟨17 * p.val + q.val, by omega⟩ : Fin 510)) = ix3 B p q := funext fun a => Fin.ext (by
    match a with
    | ⟨0, _⟩ => show (B.val * 510 + (17 * p.val + q.val)) / 510 = B.val; omega
    | ⟨1, _⟩ => show (B.val * 510 + (17 * p.val + q.val)) / 17 % 30 = p.val; omega
    | ⟨2, _⟩ => show (B.val * 510 + (17 * p.val + q.val)) % 17 = q.val; omega)
  have e17 : idx_main_v17 (ix3 B p q) = ix4 B p q (0 : Fin 1) := funext fun a => Fin.ext (by
    match a with
    | ⟨0, _⟩ => show ((B.val * 30 + p.val) * 17 + q.val) / 510 = B.val; omega
    | ⟨1, _⟩ => show ((B.val * 30 + p.val) * 17 + q.val) / 17 % 30 = p.val; omega
    | ⟨2, _⟩ => show ((B.val * 30 + p.val) * 17 + q.val) / 1 % 17 = q.val; omega
    | ⟨3, _⟩ => rfl)
  have e16 : idx_main_v16 (ix4 B p q (0 : Fin 1)) = ix4 B p q (0 : Fin 2) := funext fun a => Fin.ext (by
    match a with
    | ⟨0, _⟩ => rfl
    | ⟨1, _⟩ => rfl
    | ⟨2, _⟩ => rfl
    | ⟨3, _⟩ => rfl)
  rw [val_main_v18_apply, e18, val_main_v17_apply, e17, val_main_v16_apply, e16]

/-- The flattened tag map: entry (B, X) for X below 65536 lies in the first tag channel, at row X / 256 and column
    X % 256. -/
theorem tagmap_apply (y : FVec Ideal S16x34x256x256 .f32) (B : Fin 16) (X : Fin 1114112) (hX : X.val < 65536) :
    val_main_v10 (F := Ideal) y (ix2 B X)
      = y (ix4 B (⟨17, by omega⟩ : Fin 34) (⟨X.val / 256, by omega⟩ : Fin 256) (⟨X.val % 256, by omega⟩ : Fin 256)) := by
  have hB := B.isLt
  rw [val_main_v10_apply, val_main_v9_apply]
  exact congrArg y (funext fun a => Fin.ext (by
    match a with
    | ⟨0, _⟩ => show (B.val * 1114112 + X.val) / 1114112 = B.val; omega
    | ⟨1, _⟩ => show 17 + (B.val * 1114112 + X.val) / 65536 % 17 = 17; omega
    | ⟨2, _⟩ => show (B.val * 1114112 + X.val) / 256 % 256 = X.val / 256; omega
    | ⟨3, _⟩ => show (B.val * 1114112 + X.val) % 256 = X.val % 256; omega))

/-- The start index of the take at (B, 17 p + q, ·): the location word itself, which is not negative. -/
theorem start_apply (jt : IVec S16x30x17x2 32) (B : Fin 16) (p : Fin 30) (q : Fin 17)
    (hL : (jt (ix4 B p q (0 : Fin 2))).toNat < 65536) (u : Fin 1) :
    val_main_call0_v5 (F := Ideal) jt (ix3 B (⟨17 * p.val + q.val, by omega⟩ : Fin 510) u) = jt (ix4 B p q (0 : Fin 2)) := by
  unfold val_main_call0_v5 val_main_call0_v4 val_main_call0_v1 val_main_call0_v3
  refine (wrap_nonneg_apply (val_main_v18 (F := Ideal) jt) (val_main_call0_v0 (F := Ideal)) (val_main_call0_v2 (F := Ideal))
    shapeCasts_S16x510_S16x510x1 B (⟨17 * p.val + q.val, by omega⟩ : Fin 510) u
    ((val_main_call0_v0_apply (F := Ideal) _).trans rfl) ?_).trans (loc_apply jt B p q)
  rw [loc_apply]; omega

/-- The in-bounds mask of the take is set there. -/
theorem inb_apply (jt : IVec S16x30x17x2 32) (B : Fin 16) (p : Fin 30) (q : Fin 17)
    (hL : (jt (ix4 B p q (0 : Fin 2))).toNat < 65536) :
    val_main_call0_v12 (F := Ideal) jt (ix2 B (⟨17 * p.val + q.val, by omega⟩ : Fin 510)) = 1#1 := by
  unfold val_main_call0_v12 val_main_call0_v11 val_main_call0_v7 val_main_call0_v10
  exact inb_unit_apply 1114111 (by norm_num) (val_main_call0_v5 (F := Ideal) jt) (val_main_call0_v6 (F := Ideal))
    (val_main_call0_v9 (F := Ideal)) (val_main_call0_c_3 (F := Ideal)) reducesTo_S16x510x1_S16x510_d2 h_S_ B
    (⟨17 * p.val + q.val, by omega⟩ : Fin 510)
    ((val_main_call0_v6_apply (F := Ideal) _).trans rfl)
    ((val_main_call0_v9_apply (F := Ideal) _).trans ((val_main_call0_v8_apply (F := Ideal) _).trans rfl))
    rfl (by rw [start_apply jt B p q hL]; omega)

/-- The reference's gathered tag at (B, 17 p + q): the first tag channel of batch B at the row and column of the location
    word. -/
theorem ref_tag (y : FVec Ideal S16x34x256x256 .f32) (jt : IVec S16x30x17x2 32) (B : Fin 16) (p : Fin 30) (q : Fin 17)
    (hL : (jt (ix4 B p q (0 : Fin 2))).toNat < 65536) :
    val_main_v19 (F := Ideal) y jt (ix2 B (⟨17 * p.val + q.val, by omega⟩ : Fin 510))
      = y (ix4 B (⟨17, by omega⟩ : Fin 34) (⟨(jt (ix4 B p q (0 : Fin 2))).toNat / 256, by omega⟩ : Fin 256)
          (⟨(jt (ix4 B p q (0 : Fin 2))).toNat % 256, by omega⟩ : Fin 256)) := by
  have h5 := start_apply jt B p q hL (0 : Fin 1)
  have e := congrArg BitVec.toNat h5
  have hX : (val_main_call0_v5 (F := Ideal) jt (ix3 B (⟨17 * p.val + q.val, by omega⟩ : Fin 510) (0 : Fin 1))).toNat
      < 65536 := by rw [h5]; exact hL
  have hlt : (val_main_call0_v5 (F := Ideal) jt (ix3 B (⟨17 * p.val + q.val, by omega⟩ : Fin 510) (0 : Fin 1))).toNat
      < 1114112 := by omega
  unfold val_main_v19 val_main_call0_v13
  refine (select_gather_rowTake_apply (N := 1114112) (by norm_num)
    gather_S16x1114112_S16x510x1_S16x510_n_1_0_0_1_2_11_wf (val_main_v10 (F := Ideal) y)
    (val_main_call0_v5 (F := Ideal) jt) (val_main_call0_v12 (F := Ideal) jt) (val_main_call0_v14 (F := Ideal)) B
    (⟨17 * p.val + q.val, by omega⟩ : Fin 510) (inb_apply jt B p q hL) hlt).trans ?_
  refine (tagmap_apply y B ⟨_, hlt⟩ hX).trans ?_
  exact congrArg y (funext fun a => Fin.ext (by
    match a with
    | ⟨0, _⟩ => rfl
    | ⟨1, _⟩ => rfl
    | ⟨2, _⟩ => exact congrArg (· / 256) e
    | ⟨3, _⟩ => exact congrArg (· % 256) e))

end Reference

/-! # The kernel: the one-hot row and column select at a location below 65536 -/

open Idealize.ShloMosaic Idealize.ShloMosaic.ValueIdx Cert.KernelIdeal Cert.KernelIdeal.Gen

section Kernel
open Idealize.ShloMosaic.StableHlo.Predicate

/-! ## Words: the row and the column of a location below 65536 -/

/-- The arithmetic shift right by 8 of a word below 65536 is its quotient by 256. -/
theorem toNat_shr8 (L : BitVec 32) (h : L.toNat < 65536) : (IntOp.shrsi .vector L 8#32).toNat = L.toNat / 256 := by
  unfold IntOp.shrsi
  rw [if_pos (by decide)]
  have hm : L.msb = false := by rw [BitVec.msb_eq_false_iff_two_mul_lt]; omega
  rw [BitVec.sshiftRight_eq', BitVec.sshiftRight_eq_of_msb_false hm, BitVec.toNat_ushiftRight, Nat.shiftRight_eq_div_pow]
  rfl

/-- The conjunction of a word with 255 is its remainder by 256. -/
theorem toNat_and255 (L : BitVec 32) : (IntOp.andi L 255#32).toNat = L.toNat % 256 := by
  unfold IntOp.andi
  rw [BitVec.toNat_and]
  exact Nat.and_two_pow_sub_one_eq_mod L.toNat 8

/-- A word equals the word of a number below 2³² exactly when its value is that number. -/
theorem eq_ofNat_iff (a : BitVec 32) (k : Nat) (hk : k < 2 ^ 32) : a = BitVec.ofNat 32 k ↔ a.toNat = k := by
  constructor
  · intro h; rw [h, BitVec.toNat_ofNat]; exact Nat.mod_eq_of_lt hk
  · intro h; apply BitVec.eq_of_toNat_eq; rw [BitVec.toNat_ofNat, Nat.mod_eq_of_lt hk]; exact h

/-! ## A one-bit mask as a float: 1 where set, 0 where clear -/

theorem sitofp_bit (m : BitVec 1) :
    (FloatOps.sitofp (F := Ideal) .f32 (m.setWidth 32) : EReal) = if m = 1#1 then 1 else 0 := by
  show (((m.setWidth 32).toInt : ℝ) : EReal) = _
  rcases BitVec.eq_zero_or_eq_one m with h | h <;> subst h
  · have e : (BitVec.setWidth 32 (0#1)).toInt = 0 := by decide
    rw [e]; simp
  · have e : (BitVec.setWidth 32 (1#1)).toInt = 1 := by decide
    rw [e]; simp

/-! ## The layout operations of the block, each read at an index -/

section Layout
variable {α : Type}

/-- A [2, 1, 512] block viewed [2, 512]. -/
theorem cast_2x1x512_2x512 (x : S2x1x512.Idx → α) (b : Fin 2) (n : Fin 512) :
    shapeCast S2x512 x shapeCasts_S2x1x512_S2x512 (ix2 b n) = x (ix3 b (0 : Fin 1) n) :=
  shapeCast_apply x _ (ix2 b n) (ix3 b (0 : Fin 1) n) (by
    rw [Shape.rowMajor_val_three, Shape.rowMajor_val_two]
    show (b.val * 1 + 0) * 512 + n.val = b.val * 512 + n.val
    omega)

/-- A [2, 512] result stored as a [2, 1, 512] block. -/
theorem cast_2x512_2x1x512 (x : S2x512.Idx → α) (b : Fin 2) (n : Fin 512) :
    shapeCast S2x1x512 x shapeCasts_S2x512_S2x1x512 (ix3 b (0 : Fin 1) n) = x (ix2 b n) :=
  shapeCast_apply x _ (ix3 b (0 : Fin 1) n) (ix2 b n) (by
    rw [Shape.rowMajor_val_three, Shape.rowMajor_val_two]
    show b.val * 512 + n.val = (b.val * 1 + 0) * 512 + n.val
    omega)

/-- A [2, 1, 256, 256] block viewed [2, 256, 256]. -/
theorem cast_2x1x256x256_2x256x256 (x : S2x1x256x256.Idx → α) (b : Fin 2) (r c : Fin 256) :
    shapeCast S2x256x256 x shapeCasts_S2x1x256x256_S2x256x256 (ix3 b r c) = x (ix4 b (0 : Fin 1) r c) :=
  shapeCast_apply x _ (ix3 b r c) (ix4 b (0 : Fin 1) r c) (by
    rw [Shape.rowMajor_val_four, Shape.rowMajor_val_three]
    show ((b.val * 1 + 0) * 256 + r.val) * 256 + c.val = (b.val * 256 + r.val) * 256 + c.val
    omega)

/-- A [1, 256, 256] tile viewed [256, 256]. -/
theorem cast_1x256x256_256x256 (x : S1x256x256.Idx → α) (r c : Fin 256) :
    shapeCast S256x256 x shapeCasts_S1x256x256_S256x256 (ix2 r c) = x (ix3 (0 : Fin 1) r c) :=
  shapeCast_apply x _ (ix2 r c) (ix3 (0 : Fin 1) r c) (by
    rw [Shape.rowMajor_val_three, Shape.rowMajor_val_two]
    show (0 * 256 + r.val) * 256 + c.val = r.val * 256 + c.val
    omega)

/-- A [512] vector viewed as one row [1, 512]. -/
theorem cast_512_1x512 (x : S512.Idx → α) (n : Fin 512) :
    shapeCast S1x512 x shapeCasts_S512_S1x512 (ix2 (0 : Fin 1) n) = x (ix1 n) :=
  shapeCast_apply x _ (ix2 (0 : Fin 1) n) (ix1 n) (by
    rw [Shape.rowMajor_val_one, Shape.rowMajor_val_two]
    show n.val = 0 * 512 + n.val
    omega)

/-- Tile b of a [2, 256, 256] block. -/
theorem tile_apply (x : S2x256x256.Idx → α) (o : Nat) (h : S2x256x256.Slices ![o, 0, 0] S1x256x256) (b : Fin 2)
    (hb : b.val = o) (r c : Fin 256) :
    extractStridedSlice S1x256x256 ![o, 0, 0] x h (ix3 (0 : Fin 1) r c) = x (ix3 b r c) :=
  extractStridedSlice_apply _ x h (ix3 (0 : Fin 1) r c) (ix3 b r c) (fun a => match a with
    | ⟨0, _⟩ => by show b.val = o + 0; omega
    | ⟨1, _⟩ => by show r.val = 0 + r.val; omega
    | ⟨2, _⟩ => by show c.val = 0 + c.val; omega)

/-- Row b of a [2, 512] array, turned into a column [512, 1] and laid along 256 lanes: entry (n, k) is the array's
    entry (b, n). -/
theorem column_apply (x : S2x512.Idx → α) (o : Nat) (h : S2x512.Slices ![o, 0] S1x512) (b : Fin 2) (hb : b.val = o)
    (n : Fin 512) (k : Fin 256) :
    broadcastTo S512x256 (shapeCast S512x1 (shapeCast S512 (extractStridedSlice S1x512 ![o, 0] x h)
      shapeCasts_S1x512_S512) shapeCasts_S512_S512x1) broadcasts_S512x1_S512x256 (ix2 n k) = x (ix2 b n) := by
  refine (broadcastTo_apply _ _ (ix2 n k) (ix2 n (0 : Fin 1)) (fun a => match a with
    | ⟨0, _⟩ => rfl
    | ⟨1, _⟩ => rfl)).trans ?_
  refine (shapeCast_apply _ _ (ix2 n (0 : Fin 1)) (ix1 n) (by
    rw [Shape.rowMajor_val_one, Shape.rowMajor_val_two]
    show n.val = n.val * 1 + 0
    omega)).trans ?_
  refine (shapeCast_apply _ _ (ix1 n) (ix2 (0 : Fin 1) n) (by
    rw [Shape.rowMajor_val_two, Shape.rowMajor_val_one]
    show 0 * 512 + n.val = n.val
    omega)).trans ?_
  exact extractStridedSlice_apply _ x h (ix2 (0 : Fin 1) n) (ix2 b n) (fun a => match a with
    | ⟨0, _⟩ => by show b.val = o + 0; omega
    | ⟨1, _⟩ => by show n.val = 0 + n.val; omega)

/-- The two rows put one over the other: row 0 is the first piece. -/
theorem rows_apply_zero (x₁ x₂ : S1x512.Idx → α) (n : Fin 512) :
    concatenate S2x512 0 [⟨S1x512, x₁⟩, ⟨S1x512, x₂⟩] concatenates_S1x512_S1x512_S2x512_d0 (ix2 (0 : Fin 2) n)
      = x₁ (ix2 (0 : Fin 1) n) :=
  concatenate_pair_apply_left 0 x₁ x₂ _ (ix2 (0 : Fin 2) n) rfl (ix2 (0 : Fin 1) n) (fun a => match a with
    | ⟨0, _⟩ => rfl
    | ⟨1, _⟩ => rfl)

/-- … and row 1 the second. -/
theorem rows_apply_one (x₁ x₂ : S1x512.Idx → α) (n : Fin 512) :
    concatenate S2x512 0 [⟨S1x512, x₁⟩, ⟨S1x512, x₂⟩] concatenates_S1x512_S1x512_S2x512_d0 (ix2 (1 : Fin 2) n)
      = x₂ (ix2 (0 : Fin 1) n) :=
  concatenate_pair_apply_right 0 x₁ x₂ _ (ix2 (1 : Fin 2) n) rfl rfl (ix2 (0 : Fin 1) n) (fun a => match a with
    | ⟨0, _⟩ => fun h => absurd rfl h
    | ⟨1, _⟩ => fun _ => rfl) rfl

end Layout

/-! ## The product with a one-hot row vector selects a row -/

theorem lhs_dot_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lhs_dot_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_dot_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_dot_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The left operand index of the product at (n, k) and contraction coordinate j is (n, j); the right one is (j, k). -/
theorem dot_lhs (n : Fin 512) (k j : Fin 256) :
    dot_S512x256_S256x256_S512x256_1_0_0_1_n_n.lhsIdx (ix2 n k)
      ((contrEquiv1 dot_S512x256_S256x256_S512x256_1_0_0_1_n_n 256 rfl rfl).symm j) = ix2 n j := by
  have hk := contrEquiv1_symm_val dot_S512x256_S256x256_S512x256_1_0_0_1_n_n 256 rfl rfl j
  exact funext fun a => Fin.ext (by
    match a with
    | ⟨0, _⟩ => exact lhs_dot_0 _ _
    | ⟨1, _⟩ => exact (lhs_dot_1 _ _).trans hk)
theorem dot_rhs (n : Fin 512) (k j : Fin 256) :
    dot_S512x256_S256x256_S512x256_1_0_0_1_n_n.rhsIdx (ix2 n k)
      ((contrEquiv1 dot_S512x256_S256x256_S512x256_1_0_0_1_n_n 256 rfl rfl).symm j) = ix2 j k := by
  have hk := contrEquiv1_symm_val dot_S512x256_S256x256_S512x256_1_0_0_1_n_n 256 rfl rfl j
  exact funext fun a => Fin.ext (by
    match a with
    | ⟨0, _⟩ => exact (rhs_dot_0 _ _).trans hk
    | ⟨1, _⟩ => exact rhs_dot_1 _ _)

/-- A mask that is set in row n exactly at lane r, as a float matrix, times a tile: row n of the product is row r of the
    tile (every other term of the contraction has the factor 0). -/
theorem onehot_matmul_apply (A : FVec Ideal S256x256 .f32) (M : IVec S512x256 1) (n : Fin 512) (r : Fin 256)
    (hM : ∀ j : Fin 256, M (ix2 n j) = 1#1 ↔ j = r) (k : Fin 256) :
    matmul dot_S512x256_S256x256_S512x256_1_0_0_1_n_n none (sitofp .f32 (extui 32 M natLt_1_32)) A
      (constant S512x256 .f32 0x00000000#32) (ix2 n k) = A (ix2 r k) := by
  show FloatOps.matmul dot_S512x256_S256x256_S512x256_1_0_0_1_n_n none (sitofp .f32 (extui 32 M natLt_1_32)) A
      (constant S512x256 .f32 0x00000000#32) (ix2 n k) = A (ix2 r k)
  rw [Ideal.matmul_constant_zero_apply,
    ← Equiv.sum_comp (contrEquiv1 dot_S512x256_S256x256_S512x256_1_0_0_1_n_n 256 rfl rfl).symm,
    Finset.sum_eq_single r]
  · rw [dot_lhs, dot_rhs, sitofp_apply, extui_apply, sitofp_bit, if_pos ((hM r).mpr rfl), one_mul]
  · intro j _ hj
    rw [dot_lhs, dot_rhs, sitofp_apply, extui_apply, sitofp_bit, if_neg (fun h => hj ((hM j).mp h)), zero_mul]
  · intro h; exact absurd (Finset.mem_univ _) h

/-- Row select then column select: with a second mask set in row n exactly at lane c, the lane sum of the product times
    that mask is the tile's entry (r, c). -/
theorem onehot_select (A : FVec Ideal S256x256 .f32) (M1 M2 : IVec S512x256 1) (n : Fin 512) (r c : Fin 256)
    (h1 : ∀ j : Fin 256, M1 (ix2 n j) = 1#1 ↔ j = r) (h2 : ∀ j : Fin 256, M2 (ix2 n j) = 1#1 ↔ j = c) :
    multiReduction .add [1] S512
        (mulf (matmul dot_S512x256_S256x256_S512x256_1_0_0_1_n_n none (sitofp .f32 (extui 32 M1 natLt_1_32)) A
            (constant S512x256 .f32 0x00000000#32))
          (sitofp .f32 (extui 32 M2 natLt_1_32)))
        0x00000000#32 reduces_S512x256_S512 (.inl rfl) rfl (ix1 n) = A (ix2 r c) := by
  refine (Ideal.multiReduction_add_single _ 0x00000000#32 reduces_S512x256_S512 (.inl rfl) rfl (ix1 n)).trans ?_
  have hl : ∀ k : Fin 256, reduces_S512x256_S512.lift (ix1 n) k = ix2 n k := fun k => Shape.idx_ext₂ rfl rfl
  show ∑ k : Fin 256, _ = _
  rw [Finset.sum_eq_single c]
  · rw [hl, mulf_apply, onehot_matmul_apply A M1 n r h1 c, sitofp_apply, extui_apply, sitofp_bit,
      if_pos ((h2 c).mpr rfl), mul_one]
  · intro k _ hk
    rw [hl, mulf_apply, sitofp_apply, extui_apply, sitofp_bit, if_neg (fun h => hk ((h2 k).mp h)), mul_zero]
  · intro h; exact absurd (Finset.mem_univ _) h

/-! ## The masks: a word column compared with the lane number -/

/-- Row b of a [2, 512] word array as a column, compared with the lane number: the mask is set at (n, j) exactly when the
    word (b, n) has the value j. -/
theorem lane_mask_apply (x : IVec S2x512 32) (o : Nat) (h : S2x512.Slices ![o, 0] S1x512) (b : Fin 2) (hb : b.val = o)
    (n : Fin 512) (j : Fin 256) :
    cmpi .eq (broadcastTo S512x256 (shapeCast S512x1 (shapeCast S512 (extractStridedSlice S1x512 ![o, 0] x h)
        shapeCasts_S1x512_S512) shapeCasts_S512_S512x1) broadcasts_S512x1_S512x256)
      (iota .tc S512x256 32 [1] iota_S512x256_d1_w32) (ix2 n j) = 1#1 ↔ (x (ix2 b n)).toNat = j.val := by
  show IntOp.cmpi .eq (broadcastTo S512x256 (shapeCast S512x1 (shapeCast S512 (extractStridedSlice S1x512 ![o, 0] x h)
        shapeCasts_S1x512_S512) shapeCasts_S512_S512x1) broadcasts_S512x1_S512x256 (ix2 n j))
      (iota .tc S512x256 32 [1] iota_S512x256_d1_w32 (ix2 n j)) = 1#1 ↔ _
  rw [column_apply x o h b hb n j, iota_single_apply, cmpi_eq_iff]
  exact eq_ofNat_iff _ j.val (by have := j.isLt; omega)

/-- The shifted words: entry (b, n) is the location word (b, 0, n) shifted right by 8. -/
theorem pay5_apply (v16 : Vec Ideal S2x1x512 .i32) (b : Fin 2) (n : Fin 512) :
    k0_pay5 (F := Ideal) v16 (ix2 b n) = IntOp.shrsi .vector (v16 (ix3 b (0 : Fin 1) n)) 8#32 := by
  unfold k0_pay5 k0_pay4
  show IntOp.shrsi .vector (shapeCast S2x512 v16 shapeCasts_S2x1x512_S2x512 (ix2 b n)) 8#32 = _
  rw [cast_2x1x512_2x512]

/-- The masked words: entry (b, n) is the location word (b, 0, n) and 255. -/
theorem pay6_apply (v16 : Vec Ideal S2x1x512 .i32) (b : Fin 2) (n : Fin 512) :
    k0_pay6 (F := Ideal) v16 (ix2 b n) = IntOp.andi (v16 (ix3 b (0 : Fin 1) n)) 255#32 := by
  unfold k0_pay6 k0_pay4
  show IntOp.andi (shapeCast S2x512 v16 shapeCasts_S2x1x512_S2x512 (ix2 b n)) 255#32 = _
  rw [cast_2x1x512_2x512]

/-! ## The stored block at a lane -/

/-- Row 0 of the stored block: with the row mask set at (n, ·) exactly at r and the column word's mask exactly at c, lane
    n holds entry (r, c) of tile 0. -/
theorem pay1_apply_zero (v15 : FVec Ideal S2x256x256 .f32) (v19 v21 : IVec S2x512 32) (v22 v23 : IVec S512x256 32)
    (v29 : IVec S512x1 32) (v31 : IVec S512x256 1) (n : Fin 512) (r c : Fin 256)
    (h1 : ∀ j : Fin 256, v31 (ix2 n j) = 1#1 ↔ j = r)
    (h2 : ∀ j : Fin 256, cmpi .eq (broadcastTo S512x256 v29 broadcasts_S512x1_S512x256) v23 (ix2 n j) = 1#1 ↔ j = c) :
    k0_pay1 (F := Ideal) v15 v19 v21 v22 v23 v29 v31 (ix3 (0 : Fin 2) (0 : Fin 1) n) = v15 (ix3 (0 : Fin 2) r c) := by
  unfold k0_pay1
  refine (cast_2x512_2x1x512 _ (0 : Fin 2) n).trans ?_
  refine (rows_apply_zero _ _ n).trans ?_
  refine (cast_512_1x512 _ n).trans ?_
  refine (onehot_select _ v31 _ n r c h1 h2).trans ?_
  refine (cast_1x256x256_256x256 _ r c).trans ?_
  exact tile_apply v15 0 _ (0 : Fin 2) rfl r c

/-- Row 1 of the stored block, likewise from tile 1 and the second rows of the two word arrays. -/
theorem pay1_apply_one (v15 : FVec Ideal S2x256x256 .f32) (v19 v21 : IVec S2x512 32) (v22 v23 : IVec S512x256 32)
    (v29 : IVec S512x1 32) (v31 : IVec S512x256 1) (n : Fin 512) (r c : Fin 256)
    (h1 : ∀ j : Fin 256, cmpi .eq (broadcastTo S512x256 (shapeCast S512x1 (shapeCast S512
        (extractStridedSlice S1x512 ![1, 0] v19 slices_S2x512_o1_0_S1x512) shapeCasts_S1x512_S512) shapeCasts_S512_S512x1)
        broadcasts_S512x1_S512x256) v22 (ix2 n j) = 1#1 ↔ j = r)
    (h2 : ∀ j : Fin 256, cmpi .eq (broadcastTo S512x256 (shapeCast S512x1 (shapeCast S512
        (extractStridedSlice S1x512 ![1, 0] v21 slices_S2x512_o1_0_S1x512) shapeCasts_S1x512_S512) shapeCasts_S512_S512x1)
        broadcasts_S512x1_S512x256) v23 (ix2 n j) = 1#1 ↔ j = c) :
    k0_pay1 (F := Ideal) v15 v19 v21 v22 v23 v29 v31 (ix3 (1 : Fin 2) (0 : Fin 1) n) = v15 (ix3 (1 : Fin 2) r c) := by
  unfold k0_pay1
  refine (cast_2x512_2x1x512 _ (1 : Fin 2) n).trans ?_
  refine (rows_apply_one _ _ n).trans ?_
  refine (cast_512_1x512 _ n).trans ?_
  refine (onehot_select _ _ _ n r c h1 h2).trans ?_
  refine (cast_1x256x256_256x256 _ r c).trans ?_
  exact tile_apply v15 1 _ (1 : Fin 2) rfl r c

/-- Row 0 of the second store at lane n: the tag tile's entry at the row and column of the location word (0, 0, n). -/
theorem kernel_tag_zero (v14 : Vec Ideal S2x1x256x256 .f32) (v16 : Vec Ideal S2x1x512 .i32) (n : Fin 512) (L : BitVec 32)
    (hv : v16 (ix3 (0 : Fin 2) (0 : Fin 1) n) = L) (hL : L.toNat < 65536) :
    k0_pay1 (F := Ideal) (k0_pay3 v14) (k0_pay5 (F := Ideal) v16) (k0_pay6 (F := Ideal) v16)
        (iota .tc S512x256 32 [1] iota_S512x256_d1_w32) (iota .tc S512x256 32 [1] iota_S512x256_d1_w32)
        (k0_pay7 (F := Ideal) v16) (k0_pay8 (F := Ideal) v16) (ix3 (0 : Fin 2) (0 : Fin 1) n)
      = v14 (ix4 (0 : Fin 2) (0 : Fin 1) (⟨L.toNat / 256, by omega⟩ : Fin 256) (⟨L.toNat % 256, by omega⟩ : Fin 256)) := by
  subst hv
  refine (pay1_apply_zero _ _ _ _ _ _ _ n
    (⟨(v16 (ix3 (0 : Fin 2) (0 : Fin 1) n)).toNat / 256, by omega⟩ : Fin 256)
    (⟨(v16 (ix3 (0 : Fin 2) (0 : Fin 1) n)).toNat % 256, by omega⟩ : Fin 256) (fun j => ?_) (fun j => ?_)).trans ?_
  · unfold k0_pay8
    refine (lane_mask_apply (k0_pay5 (F := Ideal) v16) 0 _ (0 : Fin 2) rfl n j).trans ?_
    rw [pay5_apply, toNat_shr8 _ hL]
    exact ⟨fun h => Fin.ext h.symm, fun h => by rw [h]⟩
  · unfold k0_pay7
    refine (lane_mask_apply (k0_pay6 (F := Ideal) v16) 0 _ (0 : Fin 2) rfl n j).trans ?_
    rw [pay6_apply, toNat_and255]
    exact ⟨fun h => Fin.ext h.symm, fun h => by rw [h]⟩
  · unfold k0_pay3
    exact cast_2x1x256x256_2x256x256 v14 (0 : Fin 2) _ _

/-- Row 1 likewise. -/
theorem kernel_tag_one (v14 : Vec Ideal S2x1x256x256 .f32) (v16 : Vec Ideal S2x1x512 .i32) (n : Fin 512) (L : BitVec 32)
    (hv : v16 (ix3 (1 : Fin 2) (0 : Fin 1) n) = L) (hL : L.toNat < 65536) :
    k0_pay1 (F := Ideal) (k0_pay3 v14) (k0_pay5 (F := Ideal) v16) (k0_pay6 (F := Ideal) v16)
        (iota .tc S512x256 32 [1] iota_S512x256_d1_w32) (iota .tc S512x256 32 [1] iota_S512x256_d1_w32)
        (k0_pay7 (F := Ideal) v16) (k0_pay8 (F := Ideal) v16) (ix3 (1 : Fin 2) (0 : Fin 1) n)
      = v14 (ix4 (1 : Fin 2) (0 : Fin 1) (⟨L.toNat / 256, by omega⟩ : Fin 256) (⟨L.toNat % 256, by omega⟩ : Fin 256)) := by
  subst hv
  refine (pay1_apply_one _ _ _ _ _ _ _ n
    (⟨(v16 (ix3 (1 : Fin 2) (0 : Fin 1) n)).toNat / 256, by omega⟩ : Fin 256)
    (⟨(v16 (ix3 (1 : Fin 2) (0 : Fin 1) n)).toNat % 256, by omega⟩ : Fin 256) (fun j => ?_) (fun j => ?_)).trans ?_
  · refine (lane_mask_apply (k0_pay5 (F := Ideal) v16) 1 _ (1 : Fin 2) rfl n j).trans ?_
    rw [pay5_apply, toNat_shr8 _ hL]
    exact ⟨fun h => Fin.ext h.symm, fun h => by rw [h]⟩
  · refine (lane_mask_apply (k0_pay6 (F := Ideal) v16) 1 _ (1 : Fin 2) rfl n j).trans ?_
    rw [pay6_apply, toNat_and255]
    exact ⟨fun h => Fin.ext h.symm, fun h => by rw [h]⟩
  · unfold k0_pay3
    exact cast_2x1x256x256_2x256x256 v14 (1 : Fin 2) _ _

end Kernel

/-! # The two meet -/

/-- At grid point `t` the body's second store holds, at lane `17 p + q` of row `b`, the reference's gathered tag of batch
    `2 t + b`, person `p`, joint `q`: the tag block `v14` is channel 17 of the prediction at rows `2 t`, `2 t + 1`, the index block
    `v16` the location words laid 510 to a row. -/
theorem tag_eq
    (y : FVec Ideal Cert.ReferenceIdeal.S16x34x256x256 .f32) (jt : IVec Cert.ReferenceIdeal.S16x30x17x2 32)
    (hy : ∀ i, ∃ r : ℝ, y i = (r : EReal))
    (hj : ∀ (b : Fin 16) (p : Fin 30) (q : Fin 17), (jt (ix4 b p q (0 : Fin 2))).toNat < 65536)
    (t : Fin 8)
    (v14 : Vec Ideal S2x1x256x256 .f32) (v16 : Vec Ideal S2x1x512 .i32)
    (h14 : ∀ (b : Fin 2) (h w : Fin 256),
      v14 (ix4 b (0 : Fin 1) h w) = y (ix4 (⟨2 * t.val + b.val, by omega⟩ : Fin 16) (⟨17, by omega⟩ : Fin 34) h w))
    (h16 : ∀ (b : Fin 2) (p : Fin 30) (q : Fin 17),
      v16 (ix3 b (0 : Fin 1) (⟨17 * p.val + q.val, by omega⟩ : Fin 512)) = jt (ix4 (⟨2 * t.val + b.val, by omega⟩ : Fin 16) p q (0 : Fin 2)))
    (b : Fin 2) (p : Fin 30) (q : Fin 17) :
    k0_pay1 (F := Ideal) (k0_pay3 v14) (k0_pay5 (F := Ideal) v16) (k0_pay6 (F := Ideal) v16)
        (iota .tc S512x256 32 [1] iota_S512x256_d1_w32) (iota .tc S512x256 32 [1] iota_S512x256_d1_w32)
        (k0_pay7 (F := Ideal) v16) (k0_pay8 (F := Ideal) v16) (ix3 b (0 : Fin 1) (⟨17 * p.val + q.val, by omega⟩ : Fin 512))
      = Cert.ReferenceIdeal.ReadP.val_main_v19 (F := Ideal) y jt (ix2 (⟨2 * t.val + b.val, by omega⟩ : Fin 16) (⟨17 * p.val + q.val, by omega⟩ : Fin 510)) := by
  obtain ⟨bv, hbv⟩ := b
  match bv, hbv with
  | 0, hbv =>
    exact ((kernel_tag_zero v14 v16 _ _ (h16 ⟨0, hbv⟩ p q) (hj _ p q)).trans (h14 ⟨0, hbv⟩ _ _)).trans
      (ref_tag y jt _ p q (hj _ p q)).symm
  | 1, hbv =>
    exact ((kernel_tag_one v14 v16 _ _ (h16 ⟨1, hbv⟩ p q) (hj _ p q)).trans (h14 ⟨1, hbv⟩ _ _)).trans
      (ref_tag y jt _ p q (hj _ p q)).symm
  | k + 2, hbv => exact absurd hbv (by omega)

end Cert.Bridge.Tags

end
-- ==== Proof.KI.Arrays.lean ====
/- The two result arrays after the region, read at an index (at the extended reals): every lane of row `b` of the loss array
   holds the reference's heatmap loss of batch `b`, and lane `17 p + q` of row `b` of the tag array holds the reference's
   gathered tag of batch `b`, person `p`, joint `q`. Each grid point writes back rows `2 t`, `2 t + 1`, so every element is
   under some point's block, and what a point writes back is the body's store over that point's input blocks — rows
   `2 t`, `2 t + 1` of the arguments (no host operation before the region writes an argument) and of the location words
   laid 510 to a row and padded to 512. -/
import proofs.«423184_j70815420776931_3_alg».proof.Proof.KI.Run
import proofs.«423184_j70815420776931_3_alg».proof.Proof.Heat
import proofs.«423184_j70815420776931_3_alg».proof.Proof.Tags
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

namespace Arr

/-- The zero offsets of a whole-buffer rectangle, as a constant function (rank 3, and rank 4 below). -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The host operations on the location words, read at an index -/

section Layout
variable {α : Type}

/-- The unit axis given to the padded words: row `b`, lane `l`. -/
theorem cast3_apply (x : S16x512.Idx → α) (b : Fin 16) (l : Fin 512) :
    shapeCast S16x1x512 x shapeCasts_S16x512_S16x1x512 (ix3 b (0 : Fin 1) l) = x (ix2 b l) :=
  shapeCast_apply x shapeCasts_S16x512_S16x1x512 (ix3 b (0 : Fin 1) l) (ix2 b l)
    (by rewrite [Shape.rowMajor_val_two, Shape.rowMajor_val_three]
        show b.val * 512 + l.val = (b.val * 1 + 0) * 512 + l.val
        omega)

/-- Below lane 510 a padded row is the unpadded one. -/
theorem pad_apply_lane (x : S16x510.Idx → α) (v : S_.Idx → α) (b : Fin 16) (l : Fin 510) :
    pad S16x512 ![0, 0] ![0, 2] ![0, 0] x v pads_S16x510_S16x512_000_020 h_S_ (ix2 b (⟨l.val, by omega⟩ : Fin 512)) = x (ix2 b l) :=
  pad_apply_of_inside _ _ _ x v pads_S16x510_S16x512_000_020 h_S_ _ (ix2 b l) (fun a => by
    match a with
    | ⟨0, _⟩ => show b.val = 0 + b.val * (0 + 1); omega
    | ⟨1, _⟩ => show l.val = 0 + l.val * (0 + 1); omega)

/-- Laid 510 to a row, lane `17 p + q` is person `p`, joint `q`. -/
theorem cast2_apply (x : S16x30x17.Idx → α) (b : Fin 16) (p : Fin 30) (q : Fin 17) :
    shapeCast S16x510 x shapeCasts_S16x30x17_S16x510 (ix2 b (⟨17 * p.val + q.val, by omega⟩ : Fin 510)) = x (ix3 b p q) :=
  shapeCast_apply x shapeCasts_S16x30x17_S16x510 _ (ix3 b p q)
    (by rewrite [Shape.rowMajor_val_three, Shape.rowMajor_val_two]
        show (b.val * 30 + p.val) * 17 + q.val = b.val * 510 + (17 * p.val + q.val)
        omega)

/-- The trailing unit axis dropped. -/
theorem cast1_apply (x : S16x30x17x1.Idx → α) (b : Fin 16) (p : Fin 30) (q : Fin 17) :
    shapeCast S16x30x17 x shapeCasts_S16x30x17x1_S16x30x17 (ix3 b p q) = x (ix4 b p q (0 : Fin 1)) :=
  shapeCast_apply x shapeCasts_S16x30x17x1_S16x30x17 _ (ix4 b p q (0 : Fin 1))
    (by rewrite [Shape.rowMajor_val_four, Shape.rowMajor_val_three]
        show ((b.val * 30 + p.val) * 17 + q.val) * 1 + 0 = (b.val * 30 + p.val) * 17 + q.val
        omega)

/-- The first of a joint's two words. -/
theorem slice0_apply (x : S16x30x17x2.Idx → α) (b : Fin 16) (p : Fin 30) (q : Fin 17) :
    extractStridedSlice S16x30x17x1 ![0, 0, 0, 0] x slices_S16x30x17x2_S16x30x17x1_0_0_0_0 (ix4 b p q (0 : Fin 1))
      = x (ix4 b p q (0 : Fin 2)) :=
  extractStridedSlice_apply _ x slices_S16x30x17x2_S16x30x17x1_0_0_0_0 _ (ix4 b p q (0 : Fin 2)) (fun a => by
    match a with
    | ⟨0, _⟩ => show b.val = 0 + b.val; omega
    | ⟨1, _⟩ => show p.val = 0 + p.val; omega
    | ⟨2, _⟩ => show q.val = 0 + q.val; omega
    | ⟨3, _⟩ => rfl)

end Layout

/-- The padded location words after the three host stretches before the region, as one term of the joints. -/
theorem v4_eq (W : Valuation τ sig (Elt Ideal)) :
    (StableHlo.after hostOps0_2 (StableHlo.after hostOps0_1 (StableHlo.after hostOps0 W)) (Proc.devRef .tc main_v4)
        : S16x1x512.Idx → Elt Ideal .i32)
      = shapeCast S16x1x512 (pad S16x512 ![0, 0] ![0, 2] ![0, 0]
          (shapeCast S16x510 (shapeCast S16x30x17 (extractStridedSlice S16x30x17x1 ![0, 0, 0, 0]
            (W (Proc.devRef .tc main_arg3) : S16x30x17x2.Idx → Elt Ideal .i32) slices_S16x30x17x2_S16x30x17x1_0_0_0_0)
            shapeCasts_S16x30x17x1_S16x30x17) shapeCasts_S16x30x17_S16x510)
          (constantI S_ 32 0#32) pads_S16x510_S16x512_000_020 h_S_) shapeCasts_S16x512_S16x1x512 := by
  after_results
  rfl

/-- Read at row `b`, lane `17 p + q`: the first word of joint `q` of person `p` of batch `b`. -/
theorem v4_apply (W : Valuation τ sig (Elt Ideal)) (b : Fin 16) (p : Fin 30) (q : Fin 17) :
    (StableHlo.after hostOps0_2 (StableHlo.after hostOps0_1 (StableHlo.after hostOps0 W)) (Proc.devRef .tc main_v4)
        : S16x1x512.Idx → Elt Ideal .i32) (ix3 b (0 : Fin 1) (⟨17 * p.val + q.val, by omega⟩ : Fin 512))
      = (W (Proc.devRef .tc main_arg3) : S16x30x17x2.Idx → Elt Ideal .i32) (ix4 b p q (0 : Fin 2)) := by
  rw [v4_eq]
  refine (cast3_apply _ b _).trans ?_
  refine (pad_apply_lane _ _ b (⟨17 * p.val + q.val, by omega⟩ : Fin 510)).trans ?_
  refine (cast2_apply _ b p q).trans ?_
  refine (cast1_apply _ b p q).trans ?_
  exact slice0_apply _ b p q

/-! ## The printed index maps, decided over the grid -/

theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val ∧ win0_1.index t (1 : Fin 4) = 17
    ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
theorem idx3 : ∀ t : Fin cfg0.N, win0_3.index t (0 : Fin 3) = t.val ∧ win0_3.index t (1 : Fin 3) = 0
    ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0
    ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, _)

/-! ## Every element of a result array is under the block of the point that holds its row -/

/-- An index of a result array is in point `t`'s block iff each coordinate is in the block's range on its axis. -/
theorem mem_blk5 (t : Fin cfg0.N) (i : S16x1x128.Idx) :
    i ∈ ((cfg0.win 5).blk t).view.set ↔ ∀ a : Fin 3, win0_5.index t a * S2x1x128.size a ≤ (i a).val
      ∧ (i a).val < win0_5.index t a * S2x1x128.size a + S2x1x128.size a := by
  show i ∈ ((View.whole main_v5_0).slice (win0_5.rect t)).set ↔ _
  rw [View.set_slice_whole, Rect.mem_set_unit]
  exact Iff.rfl

theorem mem_blk6 (t : Fin cfg0.N) (i : S16x1x512.Idx) :
    i ∈ ((cfg0.win 6).blk t).view.set ↔ ∀ a : Fin 3, win0_6.index t a * S2x1x512.size a ≤ (i a).val
      ∧ (i a).val < win0_6.index t a * S2x1x512.size a + S2x1x512.size a := by
  show i ∈ ((View.whole main_v5_1).slice (win0_6.rect t)).set ↔ _
  rw [View.set_slice_whole, Rect.mem_set_unit]
  exact Iff.rfl

/-- Row `r` of a result array is under the block of point `r / 2`. -/
theorem cover5 (i : S16x1x128.Idx) :
    ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 128 := (i 2).isLt
  have hN : cfg0.N = 8 := N_0
  obtain ⟨t, ht⟩ : ∃ t : Fin cfg0.N, t.val = (i 0).val / 2 := ⟨⟨(i 0).val / 2, by omega⟩, rfl⟩
  obtain ⟨e0, e1, e2⟩ := idx5 t
  refine ⟨t, flush0_5 t, ?_⟩
  rw [mem_blk5]
  intro a
  match a with
  | ⟨0, _⟩ =>
    show win0_5.index t (0 : Fin 3) * 2 ≤ (i 0).val ∧ (i 0).val < win0_5.index t (0 : Fin 3) * 2 + 2
    rw [e0, ht]; omega
  | ⟨1, _⟩ =>
    show win0_5.index t (1 : Fin 3) * 1 ≤ (i 1).val ∧ (i 1).val < win0_5.index t (1 : Fin 3) * 1 + 1
    rw [e1]; omega
  | ⟨2, _⟩ =>
    show win0_5.index t (2 : Fin 3) * 128 ≤ (i 2).val ∧ (i 2).val < win0_5.index t (2 : Fin 3) * 128 + 128
    rw [e2]; omega

theorem cover6 (i : S16x1x512.Idx) :
    ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 512 := (i 2).isLt
  have hN : cfg0.N = 8 := N_0
  obtain ⟨t, ht⟩ : ∃ t : Fin cfg0.N, t.val = (i 0).val / 2 := ⟨⟨(i 0).val / 2, by omega⟩, rfl⟩
  obtain ⟨e0, e1, e2⟩ := idx6 t
  refine ⟨t, flush0_6 t, ?_⟩
  rw [mem_blk6]
  intro a
  match a with
  | ⟨0, _⟩ =>
    show win0_6.index t (0 : Fin 3) * 2 ≤ (i 0).val ∧ (i 0).val < win0_6.index t (0 : Fin 3) * 2 + 2
    rw [e0, ht]; omega
  | ⟨1, _⟩ =>
    show win0_6.index t (1 : Fin 3) * 1 ≤ (i 1).val ∧ (i 1).val < win0_6.index t (1 : Fin 3) * 1 + 1
    rw [e1]; omega
  | ⟨2, _⟩ =>
    show win0_6.index t (2 : Fin 3) * 512 ≤ (i 2).val ∧ (i 2).val < win0_6.index t (2 : Fin 3) * 512 + 512
    rw [e2]; omega

/-! ## What the body stores, with the whole-buffer loads and stores opened -/

theorem outH_eq (x0 x2 : Vec Ideal S2x17x256x256 .f32) (x3 : Vec Ideal S2x256x256 .f32) :
    outH x0 x2 x3 = k0_pay2 (F := Ideal) x0 x2 x3 := by
  unfold outH
  rw [View.canon_unit_zero hz3]
  simp only [View.ld_unit_zero (S := S2x17x256x256) hz4, View.ld_unit_zero (S := S2x256x256) hz3]

theorem outT_eq (x1 : Vec Ideal S2x1x256x256 .f32) (x4 : Vec Ideal S2x1x512 .i32) :
    outT x1 x4 = k0_pay1 (F := Ideal) (k0_pay3 x1) (k0_pay5 (F := Ideal) x4) (k0_pay6 (F := Ideal) x4)
        (iota .tc S512x256 32 [1] iota_S512x256_d1_w32) (iota .tc S512x256 32 [1] iota_S512x256_d1_w32)
        (k0_pay7 (F := Ideal) x4) (k0_pay8 (F := Ideal) x4) := by
  unfold outT
  rw [View.canon_unit_zero hz3]
  simp only [View.ld_unit_zero (S := S2x1x256x256) hz4, View.ld_unit_zero (S := S2x1x512) hz3]

section Blocks

variable (V : (c : Dev nD) → (b : Ref sig .tc) → Buf (Elt Ideal) ((c : Thread nD τ).loc b))

/-- What a point writes back to the loss array: the body's first store over the point's blocks. -/
theorem flushed5_apply (c : Dev nD) (t : Fin cfg0.N) (y : S2x1x128.Idx) :
    (dats V 0 c).flushed 5 t y = k0_pay2 (F := Ideal) (iblk V c 0 t) (iblk V c 2 t) (iblk V c 3 t) y := by
  show (cfg0.win 5).cut (grid0.coords t) ((dats V 0 c).after 5 t) y = _
  rw [after0_5]
  exact congrFun (outH_eq _ _ _) y

/-- What a point writes back to the tag array: the body's second store over the point's blocks. -/
theorem flushed6_apply (c : Dev nD) (t : Fin cfg0.N) (y : S2x1x512.Idx) :
    (dats V 0 c).flushed 6 t y
      = k0_pay1 (F := Ideal) (k0_pay3 (iblk V c 1 t)) (k0_pay5 (F := Ideal) (iblk V c 4 t)) (k0_pay6 (F := Ideal) (iblk V c 4 t))
          (iota .tc S512x256 32 [1] iota_S512x256_d1_w32) (iota .tc S512x256 32 [1] iota_S512x256_d1_w32)
          (k0_pay7 (F := Ideal) (iblk V c 4 t)) (k0_pay8 (F := Ideal) (iblk V c 4 t)) y := by
  show (cfg0.win 6).cut (grid0.coords t) ((dats V 0 c).after 6 t) y = _
  rw [after0_6]
  exact congrFun (outT_eq _ _) y

/-- Window 0's block at point `t`: rows `2 t`, `2 t + 1` of the prediction, channels below 17. -/
theorem iblk0_at (c : Dev nD) (t : Fin cfg0.N) (y : S2x17x256x256.Idx) (k : S16x34x256x256.Idx)
    (h0 : (k 0).val = 2 * t.val + (y 0).val) (h1 : (k 1).val = (y 1).val) (h2 : (k 2).val = (y 2).val)
    (h3 : (k 3).val = (y 3).val) :
    (iblk V c 0 t : Vec Ideal S2x17x256x256 .f32) y = (V c main_arg0 : S16x34x256x256.Idx → Elt Ideal .f32) k := by
  obtain ⟨e0, e1, e2, e3⟩ := idx0 t
  unfold iblk
  rw [View.read_apply]
  show V c main_arg0 _ = V c main_arg0 k
  congr 1
  funext a
  apply Fin.ext
  match a with
  | ⟨0, _⟩ => show win0_0.index t (0 : Fin 4) * 2 + 1 * (y 0).val = (k 0).val; rw [e0]; omega
  | ⟨1, _⟩ => show win0_0.index t (1 : Fin 4) * 17 + 1 * (y 1).val = (k 1).val; rw [e1]; omega
  | ⟨2, _⟩ => show win0_0.index t (2 : Fin 4) * 256 + 1 * (y 2).val = (k 2).val; rw [e2]; omega
  | ⟨3, _⟩ => show win0_0.index t (3 : Fin 4) * 256 + 1 * (y 3).val = (k 3).val; rw [e3]; omega

/-- Window 1's block at point `t`: rows `2 t`, `2 t + 1` of the prediction, channel 17. -/
theorem iblk1_at (c : Dev nD) (t : Fin cfg0.N) (y : S2x1x256x256.Idx) (k : S16x34x256x256.Idx)
    (h0 : (k 0).val = 2 * t.val + (y 0).val) (h1 : (k 1).val = 17 + (y 1).val) (h2 : (k 2).val = (y 2).val)
    (h3 : (k 3).val = (y 3).val) :
    (iblk V c 1 t : Vec Ideal S2x1x256x256 .f32) y = (V c main_arg0 : S16x34x256x256.Idx → Elt Ideal .f32) k := by
  obtain ⟨e0, e1, e2, e3⟩ := idx1 t
  unfold iblk
  rw [View.read_apply]
  show V c main_arg0 _ = V c main_arg0 k
  congr 1
  funext a
  apply Fin.ext
  match a with
  | ⟨0, _⟩ => show win0_1.index t (0 : Fin 4) * 2 + 1 * (y 0).val = (k 0).val; rw [e0]; omega
  | ⟨1, _⟩ => show win0_1.index t (1 : Fin 4) * 1 + 1 * (y 1).val = (k 1).val; rw [e1]; omega
  | ⟨2, _⟩ => show win0_1.index t (2 : Fin 4) * 256 + 1 * (y 2).val = (k 2).val; rw [e2]; omega
  | ⟨3, _⟩ => show win0_1.index t (3 : Fin 4) * 256 + 1 * (y 3).val = (k 3).val; rw [e3]; omega

/-- Window 2's block at point `t`: rows `2 t`, `2 t + 1` of the target. -/
theorem iblk2_at (c : Dev nD) (t : Fin cfg0.N) (y : S2x17x256x256.Idx) (k : S16x17x256x256.Idx)
    (h0 : (k 0).val = 2 * t.val + (y 0).val) (h1 : (k 1).val = (y 1).val) (h2 : (k 2).val = (y 2).val)
    (h3 : (k 3).val = (y 3).val) :
    (iblk V c 2 t : Vec Ideal S2x17x256x256 .f32) y = (V c main_arg1 : S16x17x256x256.Idx → Elt Ideal .f32) k := by
  obtain ⟨e0, e1, e2, e3⟩ := idx2 t
  unfold iblk
  rw [View.read_apply]
  show V c main_arg1 _ = V c main_arg1 k
  congr 1
  funext a
  apply Fin.ext
  match a with
  | ⟨0, _⟩ => show win0_2.index t (0 : Fin 4) * 2 + 1 * (y 0).val = (k 0).val; rw [e0]; omega
  | ⟨1, _⟩ => show win0_2.index t (1 : Fin 4) * 17 + 1 * (y 1).val = (k 1).val; rw [e1]; omega
  | ⟨2, _⟩ => show win0_2.index t (2 : Fin 4) * 256 + 1 * (y 2).val = (k 2).val; rw [e2]; omega
  | ⟨3, _⟩ => show win0_2.index t (3 : Fin 4) * 256 + 1 * (y 3).val = (k 3).val; rw [e3]; omega

/-- Window 3's block at point `t`: rows `2 t`, `2 t + 1` of the mask. -/
theorem iblk3_at (c : Dev nD) (t : Fin cfg0.N) (y : S2x256x256.Idx) (k : S16x256x256.Idx)
    (h0 : (k 0).val = 2 * t.val + (y 0).val) (h1 : (k 1).val = (y 1).val) (h2 : (k 2).val = (y 2).val) :
    (iblk V c 3 t : Vec Ideal S2x256x256 .f32) y = (V c main_arg2 : S16x256x256.Idx → Elt Ideal .f32) k := by
  obtain ⟨e0, e1, e2⟩ := idx3 t
  unfold iblk
  rw [View.read_apply]
  show V c main_arg2 _ = V c main_arg2 k
  congr 1
  funext a
  apply Fin.ext
  match a with
  | ⟨0, _⟩ => show win0_3.index t (0 : Fin 3) * 2 + 1 * (y 0).val = (k 0).val; rw [e0]; omega
  | ⟨1, _⟩ => show win0_3.index t (1 : Fin 3) * 256 + 1 * (y 1).val = (k 1).val; rw [e1]; omega
  | ⟨2, _⟩ => show win0_3.index t (2 : Fin 3) * 256 + 1 * (y 2).val = (k 2).val; rw [e2]; omega

/-- Window 4's block at point `t`: rows `2 t`, `2 t + 1` of the padded location words. -/
theorem iblk4_at (c : Dev nD) (t : Fin cfg0.N) (y : S2x1x512.Idx) (k : S16x1x512.Idx)
    (h0 : (k 0).val = 2 * t.val + (y 0).val) (h1 : (k 1).val = (y 1).val) (h2 : (k 2).val = (y 2).val) :
    (iblk V c 4 t : Vec Ideal S2x1x512 .i32) y = (V c main_v4 : S16x1x512.Idx → Elt Ideal .i32) k := by
  obtain ⟨e0, e1, e2⟩ := idx4 t
  unfold iblk
  rw [View.read_apply]
  show V c main_v4 _ = V c main_v4 k
  congr 1
  funext a
  apply Fin.ext
  match a with
  | ⟨0, _⟩ => show win0_4.index t (0 : Fin 3) * 2 + 1 * (y 0).val = (k 0).val; rw [e0]; omega
  | ⟨1, _⟩ => show win0_4.index t (1 : Fin 3) * 1 + 1 * (y 1).val = (k 1).val; rw [e1]; omega
  | ⟨2, _⟩ => show win0_4.index t (2 : Fin 3) * 512 + 1 * (y 2).val = (k 2).val; rw [e2]; omega

end Blocks

end Arr

open Arr

variable (m : (ℓ : Loc nD τ sig) → Buf (Elt Ideal) ℓ) (ρ : Dev nD → PrngReg)

/-! ## The region's entry contents: the arguments as launched, the padded location words off the joints -/

theorem V3_arg0 (c : Dev nD) : V3 m ρ c main_arg0 = m ((c : Thread nD τ).loc main_arg0) := W3_main_arg0 m ρ c
theorem V3_arg1 (c : Dev nD) : V3 m ρ c main_arg1 = m ((c : Thread nD τ).loc main_arg1) := W3_main_arg1 m ρ c
theorem V3_arg2 (c : Dev nD) : V3 m ρ c main_arg2 = m ((c : Thread nD τ).loc main_arg2) := W3_main_arg2 m ρ c

/-- Lane `17 p + q` of row `b` of the padded location words is the first word of joint `q` of person `p` of batch `b`. -/
theorem V3_v4_apply (c : Dev nD) (b : Fin 16) (p : Fin 30) (q : Fin 17) :
    (V3 m ρ c main_v4 : S16x1x512.Idx → Elt Ideal .i32) (ix3 b (0 : Fin 1) (⟨17 * p.val + q.val, by omega⟩ : Fin 512))
      = (m ((c : Thread nD τ).loc main_arg3) : S16x30x17x2.Idx → Elt Ideal .i32) (ix4 b p q (0 : Fin 2)) :=
  v4_apply (W0 m ρ c) b p q

/-! ## What a point writes back, at a coordinate of its block -/

/-- Row `y0` of the loss block of point `t` holds the reference's heatmap loss of batch `2 t + y0` in every lane. -/
theorem pointH (c : Dev nD)
    (hy : ∀ i, ∃ r : ℝ, m ((c : Thread nD τ).loc main_arg0) i = (r : EReal))
    (hg : ∀ i, ∃ r : ℝ, m ((c : Thread nD τ).loc main_arg1) i = (r : EReal))
    (hk : ∀ i, ∃ r : ℝ, m ((c : Thread nD τ).loc main_arg2) i = (r : EReal))
    (t : Fin cfg0.N) (y0 : Fin 2) (l : Fin 128) (b : Fin 16) (hb : b.val = 2 * t.val + y0.val) :
    (dats (V3 m ρ) 0 c).flushed 5 t (ix3 y0 (0 : Fin 1) l)
      = Cert.ReferenceIdeal.ReadP.val_main_v8 (F := Ideal) (m ((c : Thread nD τ).loc main_arg0)) (m ((c : Thread nD τ).loc main_arg1))
          (m ((c : Thread nD τ).loc main_arg2)) (ix1 b) := by
  have ht : t.val < 8 := t.isLt.trans_eq N_0
  obtain rfl : b = (⟨2 * t.val + y0.val, by clear hb; omega⟩ : Fin 16) := Fin.ext hb
  refine (flushed5_apply (V3 m ρ) c t _).trans ?_
  exact Cert.Bridge.Heat.heat_eq _ _ _ hy hg hk ⟨t.val, ht⟩ (iblk (V3 m ρ) c 0 t) (iblk (V3 m ρ) c 2 t) (iblk (V3 m ρ) c 3 t)
    (fun b j h w => (iblk0_at (V3 m ρ) c t (ix4 b j h w)
      (ix4 (⟨2 * t.val + b.val, by omega⟩ : Fin 16) (⟨j.val, by omega⟩ : Fin 34) h w) rfl rfl rfl rfl).trans
      (congrFun (V3_arg0 m ρ c) _))
    (fun b j h w => (iblk2_at (V3 m ρ) c t (ix4 b j h w)
      (ix4 (⟨2 * t.val + b.val, by omega⟩ : Fin 16) j h w) rfl rfl rfl rfl).trans (congrFun (V3_arg1 m ρ c) _))
    (fun b h w => (iblk3_at (V3 m ρ) c t (ix3 b h w)
      (ix3 (⟨2 * t.val + b.val, by omega⟩ : Fin 16) h w) rfl rfl rfl).trans (congrFun (V3_arg2 m ρ c) _))
    y0 l

/-- Lane `17 p + q` of row `y0` of the tag block of point `t` holds the reference's gathered tag of batch `2 t + y0`. -/
theorem pointT (c : Dev nD)
    (hy : ∀ i, ∃ r : ℝ, m ((c : Thread nD τ).loc main_arg0) i = (r : EReal))
    (hj : ∀ (b : Fin 16) (p : Fin 30) (q : Fin 17), (m ((c : Thread nD τ).loc main_arg3) (ix4 b p q (0 : Fin 2))).toNat < 65536)
    (t : Fin cfg0.N) (y0 : Fin 2) (p : Fin 30) (q : Fin 17) (b : Fin 16) (hb : b.val = 2 * t.val + y0.val) :
    (dats (V3 m ρ) 0 c).flushed 6 t (ix3 y0 (0 : Fin 1) (⟨17 * p.val + q.val, by omega⟩ : Fin 512))
      = Cert.ReferenceIdeal.ReadP.val_main_v19 (F := Ideal) (m ((c : Thread nD τ).loc main_arg0)) (m ((c : Thread nD τ).loc main_arg3))
          (ix2 b (⟨17 * p.val + q.val, by omega⟩ : Fin 510)) := by
  have ht : t.val < 8 := t.isLt.trans_eq N_0
  obtain rfl : b = (⟨2 * t.val + y0.val, by clear hb; omega⟩ : Fin 16) := Fin.ext hb
  refine (flushed6_apply (V3 m ρ) c t _).trans ?_
  exact Cert.Bridge.Tags.tag_eq _ _ hy hj ⟨t.val, ht⟩ (iblk (V3 m ρ) c 1 t) (iblk (V3 m ρ) c 4 t)
    (fun b h w => (iblk1_at (V3 m ρ) c t (ix4 b (0 : Fin 1) h w)
      (ix4 (⟨2 * t.val + b.val, by omega⟩ : Fin 16) (⟨17, by omega⟩ : Fin 34) h w) rfl rfl rfl rfl).trans
      (congrFun (V3_arg0 m ρ c) _))
    (fun b p q => (iblk4_at (V3 m ρ) c t (ix3 b (0 : Fin 1) (⟨17 * p.val + q.val, by omega⟩ : Fin 512))
      (ix3 (⟨2 * t.val + b.val, by omega⟩ : Fin 16) (0 : Fin 1) (⟨17 * p.val + q.val, by omega⟩ : Fin 512)) rfl rfl rfl).trans
      (V3_v4_apply m ρ c (⟨2 * t.val + b.val, by omega⟩ : Fin 16) p q))
    y0 p q

/-- An element of point `t`'s loss block that sits at row `b` of the array holds batch `b`'s loss. -/
theorem flushedH (c : Dev nD)
    (hy : ∀ i, ∃ r : ℝ, m ((c : Thread nD τ).loc main_arg0) i = (r : EReal))
    (hg : ∀ i, ∃ r : ℝ, m ((c : Thread nD τ).loc main_arg1) i = (r : EReal))
    (hk : ∀ i, ∃ r : ℝ, m ((c : Thread nD τ).loc main_arg2) i = (r : EReal))
    (t : Fin cfg0.N) (y : S2x1x128.Idx) (b : Fin 16) (l : Fin 128)
    (hi : ((cfg0.win 5).blk t).view.emb y = ix3 b (0 : Fin 1) l) :
    (dats (V3 m ρ) 0 c).flushed 5 t y
      = Cert.ReferenceIdeal.ReadP.val_main_v8 (F := Ideal) (m ((c : Thread nD τ).loc main_arg0)) (m ((c : Thread nD τ).loc main_arg1))
          (m ((c : Thread nD τ).loc main_arg2)) (ix1 b) := by
  obtain ⟨y0, y1, y2, rfl⟩ : ∃ (y0 : Fin 2) (y1 : Fin 1) (y2 : Fin 128), y = ix3 y0 y1 y2 := ⟨y 0, y 1, y 2, eq_ix3 y⟩
  obtain rfl : y1 = 0 := Subsingleton.elim _ _
  obtain ⟨e0, e1, e2⟩ := idx5 t
  have hb : b.val = 2 * t.val + y0.val := by
    have h := congrArg (fun j : S16x1x128.Idx => (j 0).val) hi
    have h' : win0_5.index t (0 : Fin 3) * 2 + 1 * y0.val = b.val := h
    omega
  exact pointH m ρ c hy hg hk t y0 y2 b hb

/-- An element of point `t`'s tag block that sits at row `b`, lane `17 p + q` of the array holds that tag. -/
theorem flushedT (c : Dev nD)
    (hy : ∀ i, ∃ r : ℝ, m ((c : Thread nD τ).loc main_arg0) i = (r : EReal))
    (hj : ∀ (b : Fin 16) (p : Fin 30) (q : Fin 17), (m ((c : Thread nD τ).loc main_arg3) (ix4 b p q (0 : Fin 2))).toNat < 65536)
    (t : Fin cfg0.N) (y : S2x1x512.Idx) (b : Fin 16) (p : Fin 30) (q : Fin 17)
    (hi : ((cfg0.win 6).blk t).view.emb y = ix3 b (0 : Fin 1) (⟨17 * p.val + q.val, by omega⟩ : Fin 512)) :
    (dats (V3 m ρ) 0 c).flushed 6 t y
      = Cert.ReferenceIdeal.ReadP.val_main_v19 (F := Ideal) (m ((c : Thread nD τ).loc main_arg0)) (m ((c : Thread nD τ).loc main_arg3))
          (ix2 b (⟨17 * p.val + q.val, by omega⟩ : Fin 510)) := by
  obtain ⟨y0, y1, y2, rfl⟩ : ∃ (y0 : Fin 2) (y1 : Fin 1) (y2 : Fin 512), y = ix3 y0 y1 y2 := ⟨y 0, y 1, y 2, eq_ix3 y⟩
  obtain rfl : y1 = 0 := Subsingleton.elim _ _
  obtain ⟨e0, e1, e2⟩ := idx6 t
  have hb : b.val = 2 * t.val + y0.val := by
    have h := congrArg (fun j : S16x1x512.Idx => (j 0).val) hi
    have h' : win0_6.index t (0 : Fin 3) * 2 + 1 * y0.val = b.val := h
    omega
  have hl : y2.val = 17 * p.val + q.val := by
    have h := congrArg (fun j : S16x1x512.Idx => (j 2).val) hi
    have h' : win0_6.index t (2 : Fin 3) * 512 + 1 * y2.val = 17 * p.val + q.val := h
    omega
  obtain rfl : y2 = (⟨17 * p.val + q.val, by clear hl; omega⟩ : Fin 512) := Fin.ext hl
  exact pointT m ρ c hy hj t y0 p q b hb

/-- The loss array after the region: row `b`, any lane, is the reference's heatmap loss of batch `b`. -/
theorem arrH (c : Dev nD)
    (hy : ∀ i, ∃ r : ℝ, m ((c : Thread nD τ).loc main_arg0) i = (r : EReal))
    (hg : ∀ i, ∃ r : ℝ, m ((c : Thread nD τ).loc main_arg1) i = (r : EReal))
    (hk : ∀ i, ∃ r : ℝ, m ((c : Thread nD τ).loc main_arg2) i = (r : EReal))
    (b : Fin 16) (l : Fin 128) :
    (dats (V3 m ρ) 0 c).arrAt 5 cfg0.N (ix3 b (0 : Fin 1) l)
      = Cert.ReferenceIdeal.ReadP.val_main_v8 (F := Ideal) (m ((c : Thread nD τ).loc main_arg0)) (m ((c : Thread nD τ).loc main_arg1))
          (m ((c : Thread nD τ).loc main_arg2)) (ix1 b) := by
  refine (dats (V3 m ρ) 0 c).arrAt_forall_of_cover 5
    (fun (i : S16x1x128.Idx) (v : Elt Ideal .f32) => ∀ (b : Fin 16) (l : Fin 128), i = ix3 b (0 : Fin 1) l →
      v = Cert.ReferenceIdeal.ReadP.val_main_v8 (F := Ideal) (m ((c : Thread nD τ).loc main_arg0))
        (m ((c : Thread nD τ).loc main_arg1)) (m ((c : Thread nD τ).loc main_arg2)) (ix1 b))
    ?_ cover5 (ix3 b (0 : Fin 1) l) b l rfl
  intro t _ y b l hi
  refine (cast_eq _ _).trans ?_
  exact flushedH m ρ c hy hg hk t y b l hi

/-- The tag array after the region: row `b`, lane `17 p + q`, is the reference's gathered tag of batch `b`, person `p`, joint `q`. -/
theorem arrT (c : Dev nD)
    (hy : ∀ i, ∃ r : ℝ, m ((c : Thread nD τ).loc main_arg0) i = (r : EReal))
    (hj : ∀ (b : Fin 16) (p : Fin 30) (q : Fin 17), (m ((c : Thread nD τ).loc main_arg3) (ix4 b p q (0 : Fin 2))).toNat < 65536)
    (b : Fin 16) (p : Fin 30) (q : Fin 17) :
    (dats (V3 m ρ) 0 c).arrAt 6 cfg0.N (ix3 b (0 : Fin 1) (⟨17 * p.val + q.val, by omega⟩ : Fin 512))
      = Cert.ReferenceIdeal.ReadP.val_main_v19 (F := Ideal) (m ((c : Thread nD τ).loc main_arg0)) (m ((c : Thread nD τ).loc main_arg3))
          (ix2 b (⟨17 * p.val + q.val, by omega⟩ : Fin 510)) := by
  refine (dats (V3 m ρ) 0 c).arrAt_forall_of_cover 6
    (fun (i : S16x1x512.Idx) (v : Elt Ideal .f32) => ∀ (b : Fin 16) (p : Fin 30) (q : Fin 17),
      i = ix3 b (0 : Fin 1) (⟨17 * p.val + q.val, by omega⟩ : Fin 512) →
      v = Cert.ReferenceIdeal.ReadP.val_main_v19 (F := Ideal) (m ((c : Thread nD τ).loc main_arg0))
        (m ((c : Thread nD τ).loc main_arg3)) (ix2 b (⟨17 * p.val + q.val, by omega⟩ : Fin 510)))
    ?_ cover6 (ix3 b (0 : Fin 1) (⟨17 * p.val + q.val, by omega⟩ : Fin 512)) b p q rfl
  intro t _ y b p q hi
  refine (cast_eq _ _).trans ?_
  exact flushedT m ρ c hy hj t y b p q hi

end Cert.KernelIdeal.Hand

end
-- ==== Proof.KI.Result.lean ====
/- The two results of the kernel's program, at the extended reals, are the reference's.

   The first result is lane 0 of each row of the loss array: the reference's heatmap loss, batch by batch. The second is the
   pull / push arithmetic applied to the first 510 lanes of the tag array and to the joints' visibility words; the reference
   applies the SAME operations, in the same order, to its gathered tags and the same words, so once the tags are known equal
   the two composed terms are one term. That comparison is made at an arbitrary float family (the tags and the joints as
   variables), and used at the extended reals where the tags are equal. -/
import proofs.«423184_j70815420776931_3_alg».proof.Proof.KI.Arrays

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

/-! ## The operations after the region, as one function of the tags and the joints -/

section Tail

variable {F : FTy → Type} [FloatOps F]

/-- The first four operations after the region — lane 0 of each loss row sliced out and flattened, the first 510 lanes of each
    tag row sliced out and flattened — and the rest of that stretch. -/
abbrev headOps : List (HloOp τ sig (Elt F)) := hostOps1.take 4
abbrev restOps : List (HloOp τ sig (Elt F)) := hostOps1.drop 4

theorem after_hostOps1 (W : Valuation τ sig (Elt F)) :
    StableHlo.after hostOps1 W = StableHlo.after restOps (StableHlo.after headOps W) := rfl

set_option maxRecDepth 200000 in
set_option maxHeartbeats 16000000 in
/-- From ANY contents `Wa` after those four operations whose flattened tags are the reference's gathered tags of `x0`, `x3`
    and whose joints are `x3`: the remaining operations leave in the second result the reference's tag-loss stage — the two
    programs apply the same operations in the same order, so the composed terms are one term. -/
theorem tail_same (Wa : Valuation τ sig (Elt F))
    (x0 : (⟨Cert.ReferenceIdeal.S16x34x256x256, .f32⟩ : BufTy).Contents (Elt F)) (x3 : (⟨Cert.ReferenceIdeal.S16x30x17x2, .i32⟩ : BufTy).Contents (Elt F))
    (h9 : Wa (Proc.devRef .tc main_v9) = Cert.ReferenceIdeal.ReadP.val_main_v19 (F := F) x0 x3)
    (h3 : Wa (Proc.devRef .tc main_arg3) = x3) :
    StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after restOps Wa)))))))) (Proc.devRef .tc main_v80) = Cert.ReferenceIdeal.ReadP.val_main_v85 (F := F) x0 x3 := by
  simp only [restOps, hostOps1, List.drop_succ_cons, List.drop_zero, hostOps1_1, hostOps1_2, hostOps1_3, hostOps1_4, hostOps1_5, hostOps1_6, hostOps1_7, hostOps1_8]
  after_results_simp
  rw [h9, h3]
  simp only [TRef.ofBuf, TRef.toBuf, cast_eq]
  simp only [Cert.ReferenceIdeal.ReadP.val_main_v11, Cert.ReferenceIdeal.ReadP.val_main_v12, Cert.ReferenceIdeal.ReadP.val_main_v13, Cert.ReferenceIdeal.ReadP.val_main_cst_1, Cert.ReferenceIdeal.ReadP.val_main_v14, Cert.ReferenceIdeal.ReadP.val_main_v15, Cert.ReferenceIdeal.ReadP.val_main_v20, Cert.ReferenceIdeal.ReadP.val_main_v21, Cert.ReferenceIdeal.ReadP.val_main_cst_2, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_cst_3, Cert.ReferenceIdeal.ReadP.val_main_v26, Cert.ReferenceIdeal.ReadP.val_main_v27, Cert.ReferenceIdeal.ReadP.val_main_cst_4, Cert.ReferenceIdeal.ReadP.val_main_v28, Cert.ReferenceIdeal.ReadP.val_main_v29, Cert.ReferenceIdeal.ReadP.val_main_cst_5, Cert.ReferenceIdeal.ReadP.val_main_call1_v0, Cert.ReferenceIdeal.ReadP.val_main_call1_v1, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_cst_6, Cert.ReferenceIdeal.ReadP.val_main_v35, Cert.ReferenceIdeal.ReadP.val_main_v36, Cert.ReferenceIdeal.ReadP.val_main_cst_7, Cert.ReferenceIdeal.ReadP.val_main_call2_v0, Cert.ReferenceIdeal.ReadP.val_main_call2_v1, Cert.ReferenceIdeal.ReadP.val_main_v37, Cert.ReferenceIdeal.ReadP.val_main_cst_8, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_cst_9, Cert.ReferenceIdeal.ReadP.val_main_v45, Cert.ReferenceIdeal.ReadP.val_main_v46, Cert.ReferenceIdeal.ReadP.val_main_v47, Cert.ReferenceIdeal.ReadP.val_main_cst_10, Cert.ReferenceIdeal.ReadP.val_main_v48, Cert.ReferenceIdeal.ReadP.val_main_v49, Cert.ReferenceIdeal.ReadP.val_main_cst_11, Cert.ReferenceIdeal.ReadP.val_main_call3_v0, Cert.ReferenceIdeal.ReadP.val_main_call3_v1, Cert.ReferenceIdeal.ReadP.val_main_v50, Cert.ReferenceIdeal.ReadP.val_main_v51, Cert.ReferenceIdeal.ReadP.val_main_cst_12, Cert.ReferenceIdeal.ReadP.val_main_v52, Cert.ReferenceIdeal.ReadP.val_main_v53, Cert.ReferenceIdeal.ReadP.val_main_v54, Cert.ReferenceIdeal.ReadP.val_main_cst_13, Cert.ReferenceIdeal.ReadP.val_main_v55, Cert.ReferenceIdeal.ReadP.val_main_cst_14, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_v67, Cert.ReferenceIdeal.ReadP.val_main_v68, Cert.ReferenceIdeal.ReadP.val_main_cst_15, Cert.ReferenceIdeal.ReadP.val_main_v69, Cert.ReferenceIdeal.ReadP.val_main_v70, Cert.ReferenceIdeal.ReadP.val_main_v71, Cert.ReferenceIdeal.ReadP.val_main_cst_16, Cert.ReferenceIdeal.ReadP.val_main_v72, Cert.ReferenceIdeal.ReadP.val_main_v73, Cert.ReferenceIdeal.ReadP.val_main_cst_17, Cert.ReferenceIdeal.ReadP.val_main_v74, Cert.ReferenceIdeal.ReadP.val_main_v75, Cert.ReferenceIdeal.ReadP.val_main_cst_18, Cert.ReferenceIdeal.ReadP.val_main_v76, Cert.ReferenceIdeal.ReadP.val_main_v77, Cert.ReferenceIdeal.ReadP.val_main_v78, Cert.ReferenceIdeal.ReadP.val_main_cst_19, Cert.ReferenceIdeal.ReadP.val_main_v79, Cert.ReferenceIdeal.ReadP.val_main_v80, Cert.ReferenceIdeal.ReadP.val_main_cst_20, Cert.ReferenceIdeal.ReadP.val_main_call4_v0, Cert.ReferenceIdeal.ReadP.val_main_call4_v1, Cert.ReferenceIdeal.ReadP.val_main_v81, Cert.ReferenceIdeal.ReadP.val_main_cst_21, Cert.ReferenceIdeal.ReadP.val_main_v82, Cert.ReferenceIdeal.ReadP.val_main_cst_22, Cert.ReferenceIdeal.ReadP.val_main_v83, Cert.ReferenceIdeal.ReadP.val_main_v84, Cert.ReferenceIdeal.ReadP.val_main_cst_23, Cert.ReferenceIdeal.ReadP.val_main_v85]
  rfl

set_option maxRecDepth 200000 in
/-- The first result is untouched by everything after those four operations. -/
theorem head_same (Wa : Valuation τ sig (Elt F)) :
    StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after restOps Wa)))))))) (Proc.devRef .tc main_v7) = Wa (Proc.devRef .tc main_v7) := by
  simp only [restOps, hostOps1, List.drop_succ_cons, List.drop_zero, hostOps1_1, hostOps1_2, hostOps1_3, hostOps1_4, hostOps1_5, hostOps1_6, hostOps1_7, hostOps1_8]
  after_results_simp

/-- The four operations, read: the first result is lane 0 of each row of the loss array, -/
theorem head_v7 (W : Valuation τ sig (Elt F)) :
    StableHlo.after headOps W (Proc.devRef .tc main_v7)
      = shapeCast S16 (extractStridedSlice S16x1x1 ![0, 0, 0] (W (Proc.devRef .tc main_v5_0)) slices_S16x1x128_S16x1x1_0_0_0) shapeCasts_S16x1x1_S16 := by
  simp only [headOps, hostOps1, List.take_succ_cons, List.take_zero]
  after_results_simp <;> rfl
/-- the flattened tags the first 510 lanes of each row of the tag array, -/
theorem head_v9 (W : Valuation τ sig (Elt F)) :
    StableHlo.after headOps W (Proc.devRef .tc main_v9)
      = shapeCast S16x510 (extractStridedSlice S16x1x510 ![0, 0, 0] (W (Proc.devRef .tc main_v5_1)) slices_S16x1x512_S16x1x510_0_0_0) shapeCasts_S16x1x510_S16x510 := by
  simp only [headOps, hostOps1, List.take_succ_cons, List.take_zero]
  after_results_simp <;> rfl
/-- and the joints are not written. -/
theorem head_arg3 (W : Valuation τ sig (Elt F)) :
    StableHlo.after headOps W (Proc.devRef .tc main_arg3) = W (Proc.devRef .tc main_arg3) := by
  simp only [headOps, hostOps1, List.take_succ_cons, List.take_zero]
  after_results_simp

end Tail

/-! ## The results at the extended reals -/

variable (m : (ℓ : Loc nD τ sig) → Buf (Elt Ideal) ℓ) (ρ : Dev nD → PrngReg)

/-- The last valuation, spelt from the region's exit: the first four operations, the rest of their stretch, the eight
    stretches after it. -/
theorem W13_eq (c : Dev nD) : W13 m ρ c = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after restOps (StableHlo.after headOps (W4 m ρ c)))))))))) := rfl

/-- The first result: the reference's heatmap losses. -/
theorem res0 (c : Dev nD)
    (hy : ∀ i, ∃ r : ℝ, m ((c : Thread nD τ).loc main_arg0) i = (r : EReal))
    (hg : ∀ i, ∃ r : ℝ, m ((c : Thread nD τ).loc main_arg1) i = (r : EReal))
    (hk : ∀ i, ∃ r : ℝ, m ((c : Thread nD τ).loc main_arg2) i = (r : EReal)) :
    W13 m ρ c (Proc.devRef .tc main_v7)
      = Cert.ReferenceIdeal.ReadP.val_main_v8 (F := Ideal) (m ((c : Thread nD τ).loc main_arg0)) (m ((c : Thread nD τ).loc main_arg1)) (m ((c : Thread nD τ).loc main_arg2)) := by
  rw [W13_eq]
  refine (head_same _).trans ((head_v7 _).trans ?_)
  rw [W4_v5_0]
  funext i
  obtain ⟨b, rfl⟩ : ∃ b : Fin 16, i = ix1 b := ⟨i 0, eq_ix1 i⟩
  refine (shapeCast_apply _ shapeCasts_S16x1x1_S16 (ix1 b) (ix3 b (0 : Fin 1) (0 : Fin 1)) ?_).trans ?_
  · rw [Shape.rowMajor_val_three, Shape.rowMajor_val_one]; show (b.val * 1 + 0) * 1 + 0 = b.val; omega
  refine (extractStridedSlice_apply _ _ slices_S16x1x128_S16x1x1_0_0_0 (ix3 b (0 : Fin 1) (0 : Fin 1)) (ix3 b (0 : Fin 1) (0 : Fin 128))
    (fun a => match a with
      | ⟨0, _⟩ => by show b.val = 0 + b.val; omega
      | ⟨1, _⟩ => by show 0 = 0 + 0; rfl
      | ⟨2, _⟩ => by show 0 = 0 + 0; rfl)).trans ?_
  exact arrH m ρ c hy hg hk b 0

/-- The second result: the reference's tag loss. -/
theorem res1 (c : Dev nD)
    (hy : ∀ i, ∃ r : ℝ, m ((c : Thread nD τ).loc main_arg0) i = (r : EReal))
    (hj : ∀ (b : Fin 16) (p : Fin 30) (q : Fin 17), (m ((c : Thread nD τ).loc main_arg3) (ix4 b p q (0 : Fin 2))).toNat < 65536) :
    W13 m ρ c (Proc.devRef .tc main_v80)
      = Cert.ReferenceIdeal.ReadP.val_main_v85 (F := Ideal) (m ((c : Thread nD τ).loc main_arg0)) (m ((c : Thread nD τ).loc main_arg3)) := by
  rw [W13_eq]
  refine tail_same _ _ _ ?_ ?_
  · refine (head_v9 _).trans ?_
    rw [W4_v5_1]
    funext i
    obtain ⟨b, n, rfl⟩ : ∃ (b : Fin 16) (n : Fin 510), i = ix2 b n := ⟨i 0, i 1, eq_ix2 i⟩
    refine (shapeCast_apply _ shapeCasts_S16x1x510_S16x510 (ix2 b n) (ix3 b (0 : Fin 1) n) ?_).trans ?_
    · rw [Shape.rowMajor_val_three, Shape.rowMajor_val_two]; show (b.val * 1 + 0) * 510 + n.val = b.val * 510 + n.val; omega
    refine (extractStridedSlice_apply _ _ slices_S16x1x512_S16x1x510_0_0_0 (ix3 b (0 : Fin 1) n)
      (ix3 b (0 : Fin 1) (⟨n.val, by omega⟩ : Fin 512))
      (fun a => match a with
        | ⟨0, _⟩ => by show b.val = 0 + b.val; omega
        | ⟨1, _⟩ => by show 0 = 0 + 0; rfl
        | ⟨2, _⟩ => by show n.val = 0 + n.val; omega)).trans ?_
    have e : (⟨17 * (n.val / 17) + n.val % 17, by omega⟩ : Fin 512) = ⟨n.val, by omega⟩ := Fin.ext (Nat.div_add_mod n.val 17)
    have e' : (⟨17 * (n.val / 17) + n.val % 17, by omega⟩ : Fin 510) = n := Fin.ext (Nat.div_add_mod n.val 17)
    have h := arrT m ρ c hy hj b (⟨n.val / 17, by omega⟩ : Fin 30) (⟨n.val % 17, by omega⟩ : Fin 17)
    rw [e, e'] at h
    exact h
  · exact (head_arg3 _).trans ((W4_of_ne m ρ c main_arg3 (by decide) (by decide)).trans (W3_main_arg3 m ρ c))

end Cert.KernelIdeal.Hand

end
-- ==== Proof.PreFacts.lean ====
/- What the precondition says of the inputs, read off the printed predicate: every float entry is a real number, and
   every location word (the first of each joint's pair) lies in [0, 65536). -/
import proofs.«423184_j70815420776931_3_alg».proof.Pre_finite_inputs
import proofs.«423184_j70815420776931_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

noncomputable section

namespace Cert.Bridge.Pre

open Idealize.ShloMosaic Idealize.ShloMosaic.ValueIdx Cert.Pre_finite_inputs

/-! ## One float entry: |x| < +∞ means x is a real -/

/-- An extended real whose absolute value max x (−x) is below +∞ is neither infinity: at −∞ the maximum is −(−∞) = +∞,
    at +∞ it is +∞ itself. -/
theorem real_of_abs_lt_top (x : EReal) (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- The word 0x7F800000 (sign 0, exponent all ones, fraction 0) denotes +∞. -/
theorem inf_word : Ideal.ofBits .f32 0x7F800000#32 = (⊤ : EReal) := by simp [Ideal.ofBits, Ideal.ieee]

/-- The bit of the comparison |x| < +∞ at one index: set only where the entry is a real. The absolute value at an index
    is max x (−x), the broadcast constant reads +∞ everywhere, and the ordered comparison is the order of the extended reals. -/
theorem real_of_finite_bit {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  simp only [Ideal.cmp, StableHlo.Predicate.ofBool_eq_one_iff, decide_eq_true_eq] at h'
  exact real_of_abs_lt_top _ h'

/-- An all-reduce by "and" of those bits that came out 1 had a 1 at every index, so every entry is a real. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
        (constantI S_ 1 1#1) hr hu ix0 = 1#1) (i : s.Idx) : ∃ r : ℝ, x i = (r : EReal) :=
  real_of_finite_bit x hb i (Host.reduce_andi_eq_one _ _ hr hu ix0 h i (eq_ix0 _))

/-! ## One location word: 0 ≤ w < 65536 signed means w < 65536 unsigned -/

/-- A 32-bit word that is non-negative as a signed number reads the same signed and unsigned; below 65536 signed it is
    then below 65536 unsigned. -/
theorem toNat_lt_of_signed_range (w : BitVec 32) (h0 : IntOp.cmpi .sge w 0#32 = 1#1) (h1 : IntOp.cmpi .slt w 65536#32 = 1#1) :
    w.toNat < 65536 := by
  rw [IntOp.cmpi_sge, show (0#32 : BitVec 32).toInt = 0 from by decide] at h0
  rw [IntOp.cmpi_slt, show (65536#32 : BitVec 32).toInt = 65536 from by decide] at h1
  have hlt : 2 * w.toNat < 2 ^ 32 := BitVec.toInt_pos_iff.1 h0
  rw [BitVec.toInt_eq_toNat_of_lt hlt] at h1
  omega

/-- The location array is the slice [.., 0:1] of the joints reshaped to [16, 30, 17]: its entry (b, p, q) is the joints'
    entry (b, p, q, 0). The reshape keeps the row-major position, ((b·30 + p)·17 + q)·1 + 0 = (b·30 + p)·17 + q, and the
    slice starts at offset 0 on every axis. -/
theorem loc_word (jt : IVec S16x30x17x2 32) (hs : S16x30x17x2.Slices ![0, 0, 0, 0] S16x30x17x1)
    (hc : S16x30x17x1.ShapeCasts S16x30x17) (b : Fin 16) (p : Fin 30) (q : Fin 17) :
    shapeCast S16x30x17 (extractStridedSlice S16x30x17x1 ![0, 0, 0, 0] jt hs) hc (ix3 b p q) = jt (ix4 b p q (0 : Fin 2)) := by
  refine (shapeCast_apply _ hc (ix3 b p q) (ix4 b p q (0 : Fin 1)) ?_).trans ?_
  · rw [Shape.rowMajor_val_four, Shape.rowMajor_val_three]
    show ((b.val * 30 + p.val) * 17 + q.val) * 1 + 0 = (b.val * 30 + p.val) * 17 + q.val
    omega
  · refine extractStridedSlice_apply _ jt hs _ (ix4 b p q (0 : Fin 2)) fun a => ?_
    match a with
    | ⟨0, _⟩ => show b.val = 0 + b.val; omega
    | ⟨1, _⟩ => show p.val = 0 + p.val; omega
    | ⟨2, _⟩ => show q.val = 0 + q.val; omega
    | ⟨3, _⟩ => rfl

/-- The range bit at (b, p, q): (loc ≥ 0) and (loc < 65536), the two constants broadcast from scalars; set only where the
    joints' word (b, p, q, 0) is below 65536 unsigned. -/
theorem word_lt (jt : IVec S16x30x17x2 32) (hs : S16x30x17x2.Slices ![0, 0, 0, 0] S16x30x17x1)
    (hc : S16x30x17x1.ShapeCasts S16x30x17) (hb : S_.BroadcastsInDim S16x30x17 (![] : Fin 0 → Fin S16x30x17.rank))
    (b : Fin 16) (p : Fin 30) (q : Fin 17)
    (h : andi
          (cmpi .sge (shapeCast S16x30x17 (extractStridedSlice S16x30x17x1 ![0, 0, 0, 0] jt hs) hc)
            (broadcastInDim S16x30x17 ![] hb (constantI S_ 32 0#32)))
          (cmpi .slt (shapeCast S16x30x17 (extractStridedSlice S16x30x17x1 ![0, 0, 0, 0] jt hs) hc)
            (broadcastInDim S16x30x17 ![] hb (constantI S_ 32 65536#32)))
          (ix3 b p q) = 1#1) :
    (jt (ix4 b p q (0 : Fin 2))).toNat < 65536 := by
  have h' : IntOp.andi
      (IntOp.cmpi .sge (shapeCast S16x30x17 (extractStridedSlice S16x30x17x1 ![0, 0, 0, 0] jt hs) hc (ix3 b p q)) 0#32)
      (IntOp.cmpi .slt (shapeCast S16x30x17 (extractStridedSlice S16x30x17x1 ![0, 0, 0, 0] jt hs) hc (ix3 b p q)) 65536#32)
        = 1#1 := h
  rw [loc_word jt hs hc b p q] at h'
  obtain ⟨h0, h1⟩ := IntOp.andi_eq_one.1 h'
  exact toNat_lt_of_signed_range _ h0 h1

/-! ## The predicate -/

/-- An "and" of two scalar bits that is 1 at the one index has both bits 1 there. -/
theorem andi_ix0 (X Y : IVec S_ 1) (h : andi X Y ix0 = 1#1) : X ix0 = 1#1 ∧ Y ix0 = 1#1 :=
  IntOp.andi_eq_one.1 h

/-- The printed precondition, all ones, gives: each float input is real-valued everywhere, and each joint's location word,
    read unsigned, is below 65536 (so it is also non-negative as a signed word). -/
theorem pre_facts (y : FVec Ideal S16x34x256x256 .f32) (g : FVec Ideal S16x17x256x256 .f32) (k : FVec Ideal S16x256x256 .f32)
    (jt : IVec S16x30x17x2 32)
    (h : Cert.Pre_finite_inputs.fn (F := Ideal) y g k jt = fun _ => 1#1) :
    (∀ i, ∃ r : ℝ, y i = (r : EReal)) ∧ (∀ i, ∃ r : ℝ, g i = (r : EReal)) ∧ (∀ i, ∃ r : ℝ, k i = (r : EReal))
      ∧ (∀ (b : Fin 16) (p : Fin 30) (q : Fin 17), (jt (ix4 b p q (0 : Fin 2))).toNat < 65536) := by
  -- the predicate is ((all y ∧ all g) ∧ all k) ∧ all loc, read at the scalar's one index
  have e := congrFun h ix0
  dsimp only [fn, fn_part1] at e
  obtain ⟨hygk, hj⟩ := andi_ix0 _ _ e
  obtain ⟨hyg, hk⟩ := andi_ix0 _ _ hygk
  obtain ⟨hy, hg⟩ := andi_ix0 _ _ hyg
  refine ⟨fun i => real_of_all_finite y _ _ _ hy i, fun i => real_of_all_finite g _ _ _ hg i,
    fun i => real_of_all_finite k _ _ _ hk i, fun b p q => ?_⟩
  have hw := Host.reduce_andi_eq_one _ _ _ _ ix0 hj (ix3 b p q) (eq_ix0 _)
  exact word_lt jt _ _ _ b p q hw

end Cert.Bridge.Pre

end
-- ==== Proof.lean ====
/- The certificate: a fused pose-estimation loss — a heatmap mean-squared error and an associative-embedding tag loss — as a
   Pallas kernel with jnp glue, against its jnp reference, over the extended reals.

   Heatmap branch. For batch b the kernel computes (Σ_{h,w} (Σ_j (y[b,j,h,w] − g[b,j,h,w])²) · k[b,h,w]) / 1114112, two
   batches per grid point, and the reference the mean over (j,h,w) of (y − g)² · k: equal because every entry is a real
   number (the precondition), so the mask factor moves across the sum over j.
   Tag branch. The reference reads its flattened tag map (channels 17 to 33, 65536 words a channel) at each joint's
   location word; the kernel selects row loc / 256 and column loc mod 256 of channel 17 by one-hot products. For a
   location in [0, 65536) — the precondition's last conjunct, the range the reference's own comments state — both read
   y[b, 17, loc / 256, loc mod 256]. The pull / push arithmetic after the gather is the same sequence of operations in
   both programs, applied to equal tags and the same visibility words.
   Frames. Each program runs to the end without a fault and leaves its four arguments as launched: the kernel's programs
   by the run of their thirteen segments (Proof/KI/Run.lean, Proof/K/Run.lean: two of the region's windows read one
   array, whose share is dealt in halves), the reference by its run with the results dropped. The idealization rewrote
   nothing, so `preserves` is trivial. -/
import proofs.«423184_j70815420776931_3_alg».proof.Defs
import proofs.«423184_j70815420776931_3_alg».proof.Proof.Gen.Kernel
import proofs.«423184_j70815420776931_3_alg».proof.Proof.Gen.KernelIdeal
import proofs.«423184_j70815420776931_3_alg».proof.Proof.Gen.ReferenceIdeal
import proofs.«423184_j70815420776931_3_alg».proof.Proof.Gen.Pre_finite_inputs
import proofs.«423184_j70815420776931_3_alg».proof.Proof.K.Run
import proofs.«423184_j70815420776931_3_alg».proof.Proof.KI.Result
import proofs.«423184_j70815420776931_3_alg».proof.Proof.PreFacts
import proofs.«423184_j70815420776931_3_alg».proof.Proof.RefReadP
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the reference's two stages of the arguments: the kernel's by its run and the two results read
    at the last valuation, the reference's by its run read as stages, the arguments agreeing. -/
theorem algebraic : Cert.algebraic_KernelIdeal_ReferenceIdeal := by
  intro m ρ m' ρ' hpre hagree
  have hf := fun c : Dev Cert.KernelIdeal.nD => Cert.Bridge.Pre.pre_facts _ _ _ _ (hpre c)
  refine ⟨fun c => Cert.ReferenceIdeal.ReadP.val_main_v8 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.ReferenceIdeal.ReadP.val_main_v85 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m ρ)
    obtain ⟨hy, hg, hk, hj⟩ := hf c
    exact ⟨(h c _ (Cert.KernelIdeal.Hand.mem_uc Cert.KernelIdeal.main_v7 (by decide))).trans (Cert.KernelIdeal.Hand.res0 m ρ c hy hg hk),
      (h c _ (Cert.KernelIdeal.Hand.mem_uc Cert.KernelIdeal.main_v80 (by decide))).trans (Cert.KernelIdeal.Hand.res1 m ρ c hy hj),
      (h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c)⟩
  · refine (θ_run Cert.ReferenceIdeal.defs _ _).mono (fun r h c => ?_) (Cert.ReferenceIdeal.ValueP.run (F := Ideal) m' ρ')
    obtain ⟨h8, h85, a0, a1, a2, a3⟩ := h c
    refine ⟨?_, ?_, a0, a1, a2, a3⟩
    · rw [h8, (hagree c).1, (hagree c).2.1, (hagree c).2.2.1]
      exact Cert.ReferenceIdeal.ReadP.val_main_v8_eq _ _ _
    · rw [h85, Cert.ReferenceIdeal.ReadP.val_main_v85_eq, (hagree c).1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
